-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x12288 : Shape := ⟨2, ![1024, 12288]⟩
abbrev S100x600 : Shape := ⟨2, ![100, 600]⟩
abbrev S1024 : Shape := ⟨1, ![1024]⟩
abbrev S1024x128 : Shape := ⟨2, ![1024, 128]⟩
abbrev S2048x4096 : Shape := ⟨2, ![2048, 4096]⟩
abbrev S2048 : Shape := ⟨1, ![2048]⟩
abbrev S600x2048 : Shape := ⟨2, ![600, 2048]⟩
abbrev S600 : Shape := ⟨1, ![600]⟩
abbrev S4096x12288 : Shape := ⟨2, ![4096, 12288]⟩
abbrev S4096 : Shape := ⟨1, ![4096]⟩
abbrev S600x4096 : Shape := ⟨2, ![600, 4096]⟩
abbrev S1800x1800 : Shape := ⟨2, ![1800, 1800]⟩
abbrev S1800 : Shape := ⟨1, ![1800]⟩
abbrev S600x1800 : Shape := ⟨2, ![600, 1800]⟩
abbrev S_ : Shape := ⟨0, ![]⟩

class Facts : Prop where
  bcast_S_S1024x12288 : S_.BroadcastsInDim S1024x12288 (![] : Fin 0 → Fin S1024x12288.rank)
  reducesTo_S1024x12288_S_d0_1 : S1024x12288.ReducesTo [0, 1] S_
  h_S_ : 0 < S_.numel
  bcast_S_S100x600 : S_.BroadcastsInDim S100x600 (![] : Fin 0 → Fin S100x600.rank)
  reducesTo_S100x600_S_d0_1 : S100x600.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S600x2048 : S_.BroadcastsInDim S600x2048 (![] : Fin 0 → Fin S600x2048.rank)
  reducesTo_S600x2048_S_d0_1 : S600x2048.ReducesTo [0, 1] S_
  bcast_S_S600 : S_.BroadcastsInDim S600 (![] : Fin 0 → Fin S600.rank)
  reducesTo_S600_S_d0 : S600.ReducesTo [0] S_
  bcast_S_S4096x12288 : S_.BroadcastsInDim S4096x12288 (![] : Fin 0 → Fin S4096x12288.rank)
  reducesTo_S4096x12288_S_d0_1 : S4096x12288.ReducesTo [0, 1] S_
  bcast_S_S4096 : S_.BroadcastsInDim S4096 (![] : Fin 0 → Fin S4096.rank)
  reducesTo_S4096_S_d0 : S4096.ReducesTo [0] S_
  bcast_S_S600x4096 : S_.BroadcastsInDim S600x4096 (![] : Fin 0 → Fin S600x4096.rank)
  reducesTo_S600x4096_S_d0_1 : S600x4096.ReducesTo [0, 1] S_
  bcast_S_S1800x1800 : S_.BroadcastsInDim S1800x1800 (![] : Fin 0 → Fin S1800x1800.rank)
  reducesTo_S1800x1800_S_d0_1 : S1800x1800.ReducesTo [0, 1] S_
  bcast_S_S1800 : S_.BroadcastsInDim S1800 (![] : Fin 0 → Fin S1800.rank)
  reducesTo_S1800_S_d0 : S1800.ReducesTo [0] S_
  bcast_S_S600x1800 : S_.BroadcastsInDim S600x1800 (![] : Fin 0 → Fin S600x1800.rank)
  reducesTo_S600x1800_S_d0_1 : S600x1800.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_

variable [Facts]

def fn_part5 {F : FTy → Type} [FloatOps F] (main_v80 : IVec S_ 1) (main_v83 : IVec S_ 1) : IVec S_ 1 :=
  let main_v84 : IVec S_ 1 := andi main_v80 main_v83
  main_v84

def fn_part4 {F : FTy → Type} [FloatOps F] (main_arg2 : IVec S1024 32) (main_arg3 : IVec S1024x128 32) (main_v63 : IVec S_ 1) (main_v67 : IVec S_ 1) : IVec S_ 1 :=
  let main_v68 : IVec S_ 1 := andi main_v63 main_v67
  let main_c_26 : IVec S_ 32 := constantI S_ 32 0#32
  let main_v69 : IVec S1024 32 := broadcastInDim S1024 ![] bcast_S_S1024 main_c_26
  let main_v70 : IVec S1024 1 := cmpi .sge main_arg2 main_v69
  let main_c_27 : IVec S_ 1 := constantI S_ 1 1#1
  let main_v71 : IVec S_ 1 := (fun x v => Host.reduce IntOp.andi x v reducesTo_S1024_S_d0 h_S_) main_v70 main_c_27
  let main_v72 : IVec S_ 1 := andi main_v68 main_v71
  let main_c_28 : IVec S_ 32 := constantI S_ 32 100#32
  let main_v73 : IVec S1024 32 := broadcastInDim S1024 ![] bcast_S_S1024 main_c_28
  let main_v74 : IVec S1024 1 := cmpi .slt main_arg2 main_v73
  let main_c_29 : IVec S_ 1 := constantI S_ 1 1#1
  let main_v75 : IVec S_ 1 := (fun x v => Host.reduce IntOp.andi x v reducesTo_S1024_S_d0 h_S_) main_v74 main_c_29
  let main_v76 : IVec S_ 1 := andi main_v72 main_v75
  let main_c_30 : IVec S_ 32 := constantI S_ 32 0#32
  let main_v77 : IVec S1024x128 32 := broadcastInDim S1024x128 ![] bcast_S_S1024x128 main_c_30
  let main_v78 : IVec S1024x128 1 := cmpi .sge main_arg3 main_v77
  let main_c_31 : IVec S_ 1 := constantI S_ 1 1#1
  let main_v79 : IVec S_ 1 := (fun x v => Host.reduce IntOp.andi x v reducesTo_S1024x128_S_d0_1 h_S_) main_v78 main_c_31
  let main_v80 : IVec S_ 1 := andi main_v76 main_v79
  let main_c_32 : IVec S_ 32 := constantI S_ 32 100#32
  let main_v81 : IVec S1024x128 32 := broadcastInDim S1024x128 ![] bcast_S_S1024x128 main_c_32
  let main_v82 : IVec S1024x128 1 := cmpi .slt main_arg3 main_v81
  let main_c_33 : IVec S_ 1 := constantI S_ 1 1#1
  let main_v83 : IVec S_ 1 := (fun x v => Host.reduce IntOp.andi x v reducesTo_S1024x128_S_d0_1 h_S_) main_v82 main_c_33
  fn_part5 (F := F) main_v80 main_v83

def fn_part3 {F : FTy → Type} [FloatOps F] (main_arg2 : IVec S1024 32) (main_arg3 : IVec S1024x128 32) (main_arg13 : FVec F S1800 .f32) (main_arg14 : FVec F S600x1800 .f32) (main_arg15 : FVec F S600 .f32) (main_v48 : IVec S_ 1) (main_v49 : FVec F S1800x1800 .f32) (main_v50 : FVec F S1800x1800 .f32) : IVec S_ 1 :=
  let main_v51 : IVec S1800x1800 1 := cmpf .olt main_v49 main_v50
  let main_c_19 : IVec S_ 1 := constantI S_ 1 1#1
  let main_v52 : IVec S_ 1 := (fun x v => Host.reduce IntOp.andi x v reducesTo_S1800x1800_S_d0_1 h_S_) main_v51 main_c_19
  let main_v53 : IVec S_ 1 := andi main_v48 main_v52
  let main_v54 : FVec F S1800 .f32 := Host.absf main_arg13
  let main_cst_20 : FVec F S_ .f32 := constant S_ .f32 0x7F800000#32
  let main_v55 : FVec F S1800 .f32 := broadcastInDim S1800 ![] bcast_S_S1800 main_cst_20
  let main_v56 : IVec S1800 1 := cmpf .olt main_v54 main_v55
  let main_c_21 : IVec S_ 1 := constantI S_ 1 1#1
  let main_v57 : IVec S_ 1 := (fun x v => Host.reduce IntOp.andi x v reducesTo_S1800_S_d0 h_S_) main_v56 main_c_21
  let main_v58 : IVec S_ 1 := andi main_v53 main_v57
  let main_v59 : FVec F S600x1800 .f32 := Host.absf main_arg14
  let main_cst_22 : FVec F S_ .f32 := constant S_ .f32 0x7F800000#32
  let main_v60 : FVec F S600x1800 .f32 := broadcastInDim S600x1800 ![] bcast_S_S600x1800 main_cst_22
  let main_v61 : IVec S600x1800 1 := cmpf .olt main_v59 main_v60
  let main_c_23 : IVec S_ 1 := constantI S_ 1 1#1
  let main_v62 : IVec S_ 1 := (fun x v => Host.reduce IntOp.andi x v reducesTo_S600x1800_S_d0_1 h_S_) main_v61 main_c_23
  let main_v63 : IVec S_ 1 := andi main_v58 main_v62
  let main_v64 : FVec F S600 .f32 := Host.absf main_arg15
  let main_cst_24 : FVec F S_ .f32 := constant S_ .f32 0x7F800000#32
  let main_v65 : FVec F S600 .f32 := broadcastInDim S600 ![] bcast_S_S600 main_cst_24
  let main_v66 : IVec S600 1 := cmpf .olt main_v64 main_v65
  let main_c_25 : IVec S_ 1 := constantI S_ 1 1#1
  let main_v67 : IVec S_ 1 := (fun x v => Host.reduce IntOp.andi x v reducesTo_S600_S_d0 h_S_) main_v66 main_c_25
  fn_part4 (F := F) main_arg2 main_arg3 main_v63 main_v67

def fn_part2 {F : FTy → Type} [FloatOps F] (main_arg2 : IVec S1024 32) (main_arg3 : IVec S1024x128 32) (main_arg9 : FVec F S4096 .f32) (main_arg10 : FVec F S600x4096 .f32) (main_arg11 : FVec F S600 .f32) (main_arg12 : FVec F S1800x1800 .f32) (main_arg13 : FVec F S1800 .f32) (main_arg14 : FVec F S600x1800 .f32) (main_arg15 : FVec F S600 .f32) (main_v33 : IVec S_ 1) : IVec S_ 1 :=
  let main_v34 : FVec F S4096 .f32 := Host.absf main_arg9
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S600x4096 .f32 := Host.absf main_arg10
  let main_cst_14 : FVec F S_ .f32 := constant S_ .f32 0x7F800000#32
  let main_v40 : FVec F S600x4096 .f32 := broadcastInDim S600x4096 ![] bcast_S_S600x4096 main_cst_14
  let main_v41 : IVec S600x4096 1 := cmpf .olt main_v39 main_v40
  let main_c_15 : IVec S_ 1 := constantI S_ 1 1#1
  let main_v42 : IVec S_ 1 := (fun x v => Host.reduce IntOp.andi x v reducesTo_S600x4096_S_d0_1 h_S_) main_v41 main_c_15
  let main_v43 : IVec S_ 1 := andi main_v38 main_v42
  let main_v44 : FVec F S600 .f32 := Host.absf main_arg11
  let main_cst_16 : FVec F S_ .f32 := constant S_ .f32 0x7F800000#32
  let main_v45 : FVec F S600 .f32 := broadcastInDim S600 ![] bcast_S_S600 main_cst_16
  let main_v46 : IVec S600 1 := cmpf .olt main_v44 main_v45
  let main_c_17 : IVec S_ 1 := constantI S_ 1 1#1
  let main_v47 : IVec S_ 1 := (fun x v => Host.reduce IntOp.andi x v reducesTo_S600_S_d0 h_S_) main_v46 main_c_17
  let main_v48 : IVec S_ 1 := andi main_v43 main_v47
  let main_v49 : FVec F S1800x1800 .f32 := Host.absf main_arg12
  let main_cst_18 : FVec F S_ .f32 := constant S_ .f32 0x7F800000#32
  let main_v50 : FVec F S1800x1800 .f32 := broadcastInDim S1800x1800 ![] bcast_S_S1800x1800 main_cst_18
  fn_part3 (F := F) main_arg2 main_arg3 main_arg13 main_arg14 main_arg15 main_v48 main_v49 main_v50

def fn_part1 {F : FTy → Type} [FloatOps F] (main_arg2 : IVec S1024 32) (main_arg3 : IVec S1024x128 32) (main_arg6 : FVec F S600x2048 .f32) (main_arg7 : FVec F S600 .f32) (main_arg8 : FVec F S4096x12288 .f32) (main_arg9 : FVec F S4096 .f32) (main_arg10 : FVec F S600x4096 .f32) (main_arg11 : FVec F S600 .f32) (main_arg12 : FVec F S1800x1800 .f32) (main_arg13 : FVec F S1800 .f32) (main_arg14 : FVec F S600x1800 .f32) (main_arg15 : FVec F S600 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S600x2048 .f32 := Host.absf main_arg6
  let main_cst_6 : FVec F S_ .f32 := constant S_ .f32 0x7F800000#32
  let main_v20 : FVec F S600x2048 .f32 := broadcastInDim S600x2048 ![] bcast_S_S600x2048 main_cst_6
  let main_v21 : IVec S600x2048 1 := cmpf .olt main_v19 main_v20
  let main_c_7 : IVec S_ 1 := constantI S_ 1 1#1
  let main_v22 : IVec S_ 1 := (fun x v => Host.reduce IntOp.andi x v reducesTo_S600x2048_S_d0_1 h_S_) main_v21 main_c_7
  let main_v23 : IVec S_ 1 := andi main_v18 main_v22
  let main_v24 : FVec F S600 .f32 := Host.absf main_arg7
  let main_cst_8 : FVec F S_ .f32 := constant S_ .f32 0x7F800000#32
  let main_v25 : FVec F S600 .f32 := broadcastInDim S600 ![] bcast_S_S600 main_cst_8
  let main_v26 : IVec S600 1 := cmpf .olt main_v24 main_v25
  let main_c_9 : IVec S_ 1 := constantI S_ 1 1#1
  let main_v27 : IVec S_ 1 := (fun x v => Host.reduce IntOp.andi x v reducesTo_S600_S_d0 h_S_) main_v26 main_c_9
  let main_v28 : IVec S_ 1 := andi main_v23 main_v27
  let main_v29 : FVec F S4096x12288 .f32 := Host.absf main_arg8
  let main_cst_10 : FVec F S_ .f32 := constant S_ .f32 0x7F800000#32
  let main_v30 : FVec F S4096x12288 .f32 := broadcastInDim S4096x12288 ![] bcast_S_S4096x12288 main_cst_10
  let main_v31 : IVec S4096x12288 1 := cmpf .olt main_v29 main_v30
  let main_c_11 : IVec S_ 1 := constantI S_ 1 1#1
  let main_v32 : IVec S_ 1 := (fun x v => Host.reduce IntOp.andi x v reducesTo_S4096x12288_S_d0_1 h_S_) main_v31 main_c_11
  let main_v33 : IVec S_ 1 := andi main_v28 main_v32
  fn_part2 (F := F) main_arg2 main_arg3 main_arg9 main_arg10 main_arg11 main_arg12 main_arg13 main_arg14 main_arg15 main_v33

def fn {F : FTy → Type} [FloatOps F] (main_arg0 : FVec F S1024x12288 .f32) (main_arg1 : FVec F S100x600 .f32) (main_arg2 : IVec S1024 32) (main_arg3 : IVec S1024x128 32) (main_arg4 : FVec F S2048x4096 .f32) (main_arg5 : FVec F S2048 .f32) (main_arg6 : FVec F S600x2048 .f32) (main_arg7 : FVec F S600 .f32) (main_arg8 : FVec F S4096x12288 .f32) (main_arg9 : FVec F S4096 .f32) (main_arg10 : FVec F S600x4096 .f32) (main_arg11 : FVec F S600 .f32) (main_arg12 : FVec F S1800x1800 .f32) (main_arg13 : FVec F S1800 .f32) (main_arg14 : FVec F S600x1800 .f32) (main_arg15 : FVec F S600 .f32) : IVec S_ 1 :=
  let main_v0 : FVec F S1024x12288 .f32 := Host.absf main_arg0
  let main_cst : FVec F S_ .f32 := constant S_ .f32 0x7F800000#32
  let main_v1 : FVec F S1024x12288 .f32 := broadcastInDim S1024x12288 ![] bcast_S_S1024x12288 main_cst
  let main_v2 : IVec S1024x12288 1 := cmpf .olt main_v0 main_v1
  let main_c : IVec S_ 1 := constantI S_ 1 1#1
  let main_v3 : IVec S_ 1 := (fun x v => Host.reduce IntOp.andi x v reducesTo_S1024x12288_S_d0_1 h_S_) main_v2 main_c
  let main_v4 : FVec F S100x600 .f32 := Host.absf main_arg1
  let main_cst_0 : FVec F S_ .f32 := constant S_ .f32 0x7F800000#32
  let main_v5 : FVec F S100x600 .f32 := broadcastInDim S100x600 ![] bcast_S_S100x600 main_cst_0
  let main_v6 : IVec S100x600 1 := cmpf .olt main_v4 main_v5
  let main_c_1 : IVec S_ 1 := constantI S_ 1 1#1
  let main_v7 : IVec S_ 1 := (fun x v => Host.reduce IntOp.andi x v reducesTo_S100x600_S_d0_1 h_S_) main_v6 main_c_1
  let main_v8 : IVec S_ 1 := andi main_v3 main_v7
  let main_v9 : FVec F S2048x4096 .f32 := Host.absf main_arg4
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg2 main_arg3 main_arg6 main_arg7 main_arg8 main_arg9 main_arg10 main_arg11 main_arg12 main_arg13 main_arg14 main_arg15 main_v13 main_v16
-- ==== Kernel.lean ====
abbrev S1024x12288 : Shape := ⟨2, ![1024, 12288]⟩
abbrev S100x600 : Shape := ⟨2, ![100, 600]⟩
abbrev S1024 : Shape := ⟨1, ![1024]⟩
abbrev S1024x128 : Shape := ⟨2, ![1024, 128]⟩
abbrev S2048x4096 : Shape := ⟨2, ![2048, 4096]⟩
abbrev S2048 : Shape := ⟨1, ![2048]⟩
abbrev S600x2048 : Shape := ⟨2, ![600, 2048]⟩
abbrev S600 : Shape := ⟨1, ![600]⟩
abbrev S4096x12288 : Shape := ⟨2, ![4096, 12288]⟩
abbrev S4096 : Shape := ⟨1, ![4096]⟩
abbrev S600x4096 : Shape := ⟨2, ![600, 4096]⟩
abbrev S1800x1800 : Shape := ⟨2, ![1800, 1800]⟩
abbrev S1800 : Shape := ⟨1, ![1800]⟩
abbrev S600x1800 : Shape := ⟨2, ![600, 1800]⟩
abbrev S1x2048 : Shape := ⟨2, ![1, 2048]⟩
abbrev S1024x2048 : Shape := ⟨2, ![1024, 2048]⟩
abbrev S1024x512 : Shape := ⟨2, ![1024, 512]⟩
abbrev S1x1024 : Shape := ⟨2, ![1, 1024]⟩
abbrev S1024x1024 : Shape := ⟨2, ![1024, 1024]⟩
abbrev S1x600 : Shape := ⟨2, ![1, 600]⟩
abbrev S1024x600 : Shape := ⟨2, ![1024, 600]⟩
abbrev S256x2048 : Shape := ⟨2, ![256, 2048]⟩
abbrev S256x600 : Shape := ⟨2, ![256, 600]⟩
abbrev S1x4096 : Shape := ⟨2, ![1, 4096]⟩
abbrev S1024x4096 : Shape := ⟨2, ![1024, 4096]⟩
abbrev S1024x256 : Shape := ⟨2, ![1024, 256]⟩
abbrev S2048x256 : Shape := ⟨2, ![2048, 256]⟩
abbrev S256x4096 : Shape := ⟨2, ![256, 4096]⟩
abbrev S1024x1800 : Shape := ⟨2, ![1024, 1800]⟩
abbrev S1x1800 : Shape := ⟨2, ![1, 1800]⟩
abbrev S128x1800 : Shape := ⟨2, ![128, 1800]⟩
abbrev S128x600 : Shape := ⟨2, ![128, 600]⟩
abbrev S_ : Shape := ⟨0, ![]⟩
abbrev S128x1024 : Shape := ⟨2, ![128, 1024]⟩
abbrev S128x128 : Shape := ⟨2, ![128, 128]⟩
abbrev S16x600 : Shape := ⟨2, ![16, 600]⟩
abbrev S16x1x600 : Shape := ⟨3, ![16, 1, 600]⟩
abbrev S1x128x600 : Shape := ⟨3, ![1, 128, 600]⟩
abbrev S16x128x600 : Shape := ⟨3, ![16, 128, 600]⟩
abbrev S16x128 : Shape := ⟨2, ![16, 128]⟩
abbrev S128 : Shape := ⟨1, ![128]⟩
abbrev S1x128 : Shape := ⟨2, ![1, 128]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x128x1 : Shape := ⟨3, ![1024, 128, 1]⟩
abbrev S1024x129 : Shape := ⟨2, ![1024, 129]⟩

abbrev nBuf : Space → Nat
  | .hbm => 95
  | .vmem => 58
  | .smem => 0
  | _ => 0

abbrev bufTy : (tb : Table) → Fin (tcTables nBuf tb) → BufTy
  | .hbm, ⟨0, _⟩ => ⟨S1024x12288, .f32⟩
  | .hbm, ⟨1, _⟩ => ⟨S100x600, .f32⟩
  | .hbm, ⟨2, _⟩ => ⟨S1024, .i32⟩
  | .hbm, ⟨3, _⟩ => ⟨S1024x128, .i32⟩
  | .hbm, ⟨4, _⟩ => ⟨S2048x4096, .f32⟩
  | .hbm, ⟨5, _⟩ => ⟨S2048, .f32⟩
  | .hbm, ⟨6, _⟩ => ⟨S600x2048, .f32⟩
  | .hbm, ⟨7, _⟩ => ⟨S600, .f32⟩
  | .hbm, ⟨8, _⟩ => ⟨S4096x12288, .f32⟩
  | .hbm, ⟨9, _⟩ => ⟨S4096, .f32⟩
  | .hbm, ⟨10, _⟩ => ⟨S600x4096, .f32⟩
  | .hbm, ⟨11, _⟩ => ⟨S600, .f32⟩
  | .hbm, ⟨12, _⟩ => ⟨S1800x1800, .f32⟩
  | .hbm, ⟨13, _⟩ => ⟨S1800, .f32⟩
  | .hbm, ⟨14, _⟩ => ⟨S600x1800, .f32⟩
  | .hbm, ⟨15, _⟩ => ⟨S600, .f32⟩
  | .hbm, ⟨16, _⟩ => ⟨S1x2048, .f32⟩
  | .hbm, ⟨17, _⟩ => ⟨S1024x2048, .bf16⟩
  | .hbm, ⟨18, _⟩ => ⟨S1x2048, .f32⟩
  | .hbm, ⟨19, _⟩ => ⟨S1024x2048, .bf16⟩
  | .hbm, ⟨20, _⟩ => ⟨S1x600, .f32⟩
  | .hbm, ⟨21, _⟩ => ⟨S1024x600, .bf16⟩
  | .hbm, ⟨22, _⟩ => ⟨S1x600, .f32⟩
  | .hbm, ⟨23, _⟩ => ⟨S1024x600, .bf16⟩
  | .hbm, ⟨24, _⟩ => ⟨S1x4096, .f32⟩
  | .hbm, ⟨25, _⟩ => ⟨S1024x4096, .bf16⟩
  | .hbm, ⟨26, _⟩ => ⟨S1x600, .f32⟩
  | .hbm, ⟨27, _⟩ => ⟨S1024x600, .bf16⟩
  | .hbm, ⟨28, _⟩ => ⟨S1024x1800, .bf16⟩
  | .hbm, ⟨29, _⟩ => ⟨S1x1800, .f32⟩
  | .hbm, ⟨30, _⟩ => ⟨S1x600, .f32⟩
  | .hbm, ⟨31, _⟩ => ⟨S1024x600, .f32⟩
  | .hbm, ⟨32, _⟩ => ⟨S_, .i32⟩
  | .hbm, ⟨33, _⟩ => ⟨S_, .f32⟩
  | .hbm, ⟨34, _⟩ => ⟨S128x600, .f32⟩
  | .hbm, ⟨35, _⟩ => ⟨S128x1024, .f32⟩
  | .hbm, ⟨36, _⟩ => ⟨S1024x128, .f32⟩
  | .hbm, ⟨37, _⟩ => ⟨S128, .i32⟩
  | .hbm, ⟨38, _⟩ => ⟨S1x128, .i32⟩
  | .hbm, ⟨39, _⟩ => ⟨S_, .i32⟩
  | .hbm, ⟨40, _⟩ => ⟨S1x128, .i32⟩
  | .hbm, ⟨41, _⟩ => ⟨S1x128, .i1⟩
  | .hbm, ⟨42, _⟩ => ⟨S_, .f32⟩
  | .hbm, ⟨43, _⟩ => ⟨S_, .f32⟩
  | .hbm, ⟨44, _⟩ => ⟨S1024x128, .i1⟩
  | .hbm, ⟨45, _⟩ => ⟨S1024x128, .f32⟩
  | .hbm, ⟨46, _⟩ => ⟨S1024x128, .f32⟩
  | .hbm, ⟨47, _⟩ => ⟨S1024x1, .i32⟩
  | .hbm, ⟨48, _⟩ => ⟨S_, .i32⟩
  | .hbm, ⟨49, _⟩ => ⟨S1024x1, .i32⟩
  | .hbm, ⟨50, _⟩ => ⟨S1024x1, .i1⟩
  | .hbm, ⟨51, _⟩ => ⟨S_, .i32⟩
  | .hbm, ⟨52, _⟩ => ⟨S1024x1, .i32⟩
  | .hbm, ⟨53, _⟩ => ⟨S1024x1, .i32⟩
  | .hbm, ⟨54, _⟩ => ⟨S1024x1, .i32⟩
  | .hbm, ⟨55, _⟩ => ⟨S1024x1x1, .i32⟩
  | .hbm, ⟨56, _⟩ => ⟨S1, .i32⟩
  | .hbm, ⟨57, _⟩ => ⟨S_, .i32⟩
  | .hbm, ⟨58, _⟩ => ⟨S1024x1x1, .i32⟩
  | .hbm, ⟨59, _⟩ => ⟨S1024x1x1, .i1⟩
  | .hbm, ⟨60, _⟩ => ⟨S1x1x1, .i32⟩
  | .hbm, ⟨61, _⟩ => ⟨S1024x1x1, .i32⟩
  | .hbm, ⟨62, _⟩ => ⟨S1024x1x1, .i1⟩
  | .hbm, ⟨63, _⟩ => ⟨S1024x1x1, .i1⟩
  | .hbm, ⟨64, _⟩ => ⟨S_, .i1⟩
  | .hbm, ⟨65, _⟩ => ⟨S1024x1, .i1⟩
  | .hbm, ⟨66, _⟩ => ⟨S1024x1, .f32⟩
  | .hbm, ⟨67, _⟩ => ⟨S_, .f32⟩
  | .hbm, ⟨68, _⟩ => ⟨S1024x1, .f32⟩
  | .hbm, ⟨69, _⟩ => ⟨S1024x1, .f32⟩
  | .hbm, ⟨70, _⟩ => ⟨S1024, .f32⟩
  | .hbm, ⟨71, _⟩ => ⟨S_, .i32⟩
  | .hbm, ⟨72, _⟩ => ⟨S1024x128, .i32⟩
  | .hbm, ⟨73, _⟩ => ⟨S1024x128, .i1⟩
  | .hbm, ⟨74, _⟩ => ⟨S_, .i32⟩
  | .hbm, ⟨75, _⟩ => ⟨S1024x128, .i32⟩
  | .hbm, ⟨76, _⟩ => ⟨S1024x128, .i32⟩
  | .hbm, ⟨77, _⟩ => ⟨S1024x128, .i32⟩
  | .hbm, ⟨78, _⟩ => ⟨S1024x128x1, .i32⟩
  | .hbm, ⟨79, _⟩ => ⟨S1, .i32⟩
  | .hbm, ⟨80, _⟩ => ⟨S_, .i32⟩
  | .hbm, ⟨81, _⟩ => ⟨S1024x128x1, .i32⟩
  | .hbm, ⟨82, _⟩ => ⟨S1024x128x1, .i1⟩
  | .hbm, ⟨83, _⟩ => ⟨S1x1x1, .i32⟩
  | .hbm, ⟨84, _⟩ => ⟨S1024x128x1, .i32⟩
  | .hbm, ⟨85, _⟩ => ⟨S1024x128x1, .i1⟩
  | .hbm, ⟨86, _⟩ => ⟨S1024x128x1, .i1⟩
  | .hbm, ⟨87, _⟩ => ⟨S_, .i1⟩
  | .hbm, ⟨88, _⟩ => ⟨S1024x128, .i1⟩
  | .hbm, ⟨89, _⟩ => ⟨S1024x128, .f32⟩
  | .hbm, ⟨90, _⟩ => ⟨S_, .f32⟩
  | .hbm, ⟨91, _⟩ => ⟨S1024x128, .f32⟩
  | .hbm, ⟨92, _⟩ => ⟨S1024x128, .f32⟩
  | .hbm, ⟨93, _⟩ => ⟨S1024x1, .f32⟩
  | .hbm, ⟨94, _⟩ => ⟨S1024x129, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S256x2048, .bf16⟩
  | .local _ .vmem, ⟨19, _⟩ => ⟨S256x2048, .bf16⟩
  | .local _ .vmem, ⟨20, _⟩ => ⟨S600x2048, .f32⟩
  | .local _ .vmem, ⟨21, _⟩ => ⟨S1x600, .f32⟩
  | .local _ .vmem, ⟨22, _⟩ => ⟨S256x600, .bf16⟩
  | .local _ .vmem, ⟨23, _⟩ => ⟨S256x600, .bf16⟩
  | .local _ .vmem, ⟨24, _⟩ => ⟨S256x2048, .bf16⟩
  | .local _ .vmem, ⟨25, _⟩ => ⟨S256x2048, .bf16⟩
  | .local _ .vmem, ⟨26, _⟩ => ⟨S600x2048, .f32⟩
  | .local _ .vmem, ⟨27, _⟩ => ⟨S1x600, .f32⟩
  | .local _ .vmem, ⟨28, _⟩ => ⟨S256x600, .bf16⟩
  | .local _ .vmem, ⟨29, _⟩ => ⟨S256x600, .bf16⟩
  | .local _ .vmem, ⟨30, _⟩ => ⟨S1024x256, .f32⟩
  | .local _ .vmem, ⟨31, _⟩ => ⟨S1024x256, .f32⟩
  | .local _ .vmem, ⟨32, _⟩ => ⟨S2048x256, .f32⟩
  | .local _ .vmem, ⟨33, _⟩ => ⟨S2048x256, .f32⟩
  | .local _ .vmem, ⟨34, _⟩ => ⟨S1x2048, .f32⟩
  | .local _ .vmem, ⟨35, _⟩ => ⟨S1x2048, .f32⟩
  | .local _ .vmem, ⟨36, _⟩ => ⟨S1024x2048, .bf16⟩
  | .local _ .vmem, ⟨37, _⟩ => ⟨S1024x2048, .bf16⟩
  | .local _ .vmem, ⟨38, _⟩ => ⟨S1024x2048, .f32⟩
  | .local _ .vmem, ⟨39, _⟩ => ⟨S256x4096, .bf16⟩
  | .local _ .vmem, ⟨40, _⟩ => ⟨S256x4096, .bf16⟩
  | .local _ .vmem, ⟨41, _⟩ => ⟨S600x4096, .f32⟩
  | .local _ .vmem, ⟨42, _⟩ => ⟨S1x600, .f32⟩
  | .local _ .vmem, ⟨43, _⟩ => ⟨S256x600, .bf16⟩
  | .local _ .vmem, ⟨44, _⟩ => ⟨S256x600, .bf16⟩
  | .local _ .vmem, ⟨45, _⟩ => ⟨S128x1800, .bf16⟩
  | .local _ .vmem, ⟨46, _⟩ => ⟨S128x1800, .bf16⟩
  | .local _ .vmem, ⟨47, _⟩ => ⟨S1800x1800, .f32⟩
  | .local _ .vmem, ⟨48, _⟩ => ⟨S1x1800, .f32⟩
  | .local _ .vmem, ⟨49, _⟩ => ⟨S600x1800, .f32⟩
  | .local _ .vmem, ⟨50, _⟩ => ⟨S1x600, .f32⟩
  | .local _ .vmem, ⟨51, _⟩ => ⟨S128x600, .f32⟩
  | .local _ .vmem, ⟨52, _⟩ => ⟨S128x600, .f32⟩
  | .local _ .vmem, ⟨53, _⟩ => ⟨S128x600, .f32⟩
  | .local _ .vmem, ⟨54, _⟩ => ⟨S128x600, .f32⟩
  | .local _ .vmem, ⟨55, _⟩ => ⟨S128x600, .f32⟩
  | .local _ .vmem, ⟨56, _⟩ => ⟨S128x128, .f32⟩
  | .local _ .vmem, ⟨57, _⟩ => ⟨S128x128, .f32⟩
  | _, _ => ⟨S1024x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_0 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_v24 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_cst : Ref sig .tc := ⟨.hbm, 67, rfl⟩
abbrev main_call2_v14 : Ref sig .tc := ⟨.hbm, 68, rfl⟩
abbrev main_v25 : Ref sig .tc := ⟨.hbm, 69, rfl⟩
abbrev main_v26 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_cst : Ref sig .tc := ⟨.hbm, 90, rfl⟩
abbrev main_call3_v14 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_scratch0 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg5_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg2_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem2_1 : DmaSem sig := 54

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S600x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x600 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x600 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S600x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x600 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x600 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 48], ![false, false]⟩

def k4_cond2 (i : grid4.Coords) : BitVec 1 :=
  let arg1 : BitVec 32 := BitVec.ofNat 32 (i 1).val
  let c47_i32 : BitVec 32 := 47#32
  let v15 : BitVec 1 := Scalar.cmpi .eq arg1 c47_i32
  let v16 : BitVec 32 := Scalar.extui v15
  let c0_i32_9 : BitVec 32 := 0#32
  let v17 : BitVec 1 := Scalar.cmpi .ne v16 c0_i32_9
  v17

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S600x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x600 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S256x600 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x1800 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1800x1800 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1800 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S600x1800 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x600 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S128x600 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![8], ![false]⟩

@[reducible] def k7_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k7_mult1 (k7_t1 : Fin k7_t1_loop.trips) : BitVec 32 :=
  let c0_i32 : BitVec 32 := 0#32
  let c1_i32 : BitVec 32 := 1#32
  let arg4 : BitVec 32 := Scf.iv c0_i32 c1_i32 k7_t1
  let c16_i32 : BitVec 32 := 16#32
  let v3 : BitVec 32 := Scalar.muli arg4 c16_i32
  v3
def k7_off1 (k7_t1 : Fin k7_t1_loop.trips) : Fin 2 → Nat :=
  let c0_i32 : BitVec 32 := 0#32
  let c1_i32 : BitVec 32 := 1#32
  let arg4 : BitVec 32 := Scf.iv c0_i32 c1_i32 k7_t1
  let c16_i32 : BitVec 32 := 16#32
  let v3 : BitVec 32 := Scalar.muli arg4 c16_i32
  let v4 : BitVec 32 := v3
  let v5 : Index := Scalar.indexCast v4
  let c0_2 : Index := 0#32
  ![v5.toNat, 0]
def k7_off2 (k7_t1 : Fin k7_t1_loop.trips) : Fin 2 → Nat :=
  let c0_i32 : BitVec 32 := 0#32
  let c1_i32 : BitVec 32 := 1#32
  let arg4 : BitVec 32 := Scf.iv c0_i32 c1_i32 k7_t1
  let c16_i32 : BitVec 32 := 16#32
  let v3 : BitVec 32 := Scalar.muli arg4 c16_i32
  let v4 : BitVec 32 := v3
  let v20 : Index := Scalar.indexCast v4
  let c0_5 : Index := 0#32
  ![v20.toNat, 0]
def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S128x600 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x600 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S128x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S600_S1x600 : S600.ShapeCasts S1x600
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S600x2048_S600x2048_0_0 : ∀ a, (![0, 0] : Fin 2 → Nat) a + S600x2048.size a ≤ S600x2048.size a
  h_S600x2048 : 0 < S600x2048.numel
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S256x600 : S1x600.Broadcasts S256x600
  inb_S256x600_S256x600_0_0 : ∀ a, (![0, 0] : Fin 2 → Nat) a + S256x600.size a ≤ S256x600.size a
  h_S256x600 : 0 < S256x600.numel
  packedbf16_S256x600_S256x600_0_0 : (Rect.unit (s := S256x600) ![0, 0] S256x600.size inb_S256x600_S256x600_0_0).PackedRows (EltTy.packing .bf16)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  packedbf16_S1024x2048_S1024x2048_0_0 : (Rect.unit (s := S1024x2048) ![0, 0] S1024x2048.size inb_S1024x2048_S1024x2048_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S600x4096_S600x4096_0_0 : ∀ a, (![0, 0] : Fin 2 → Nat) a + S600x4096.size a ≤ S600x4096.size a
  h_S600x4096 : 0 < S600x4096.numel
  concatenates_S1024x600_S1024x600_S1024x600_S1024x1800_d1 : Shape.Concatenates [S1024x600, S1024x600, S1024x600] S1024x1800 1
  shapeCasts_S1800_S1x1800 : S1800.ShapeCasts S1x1800
  inb_S128x1800_S128x1800_0_0 : ∀ a, (![0, 0] : Fin 2 → Nat) a + S128x1800.size a ≤ S128x1800.size a
  h_S128x1800 : 0 < S128x1800.numel
  shapeCasts_S128x1800_S128x1800 : S128x1800.ShapeCasts S128x1800
  inb_S1800x1800_S1800x1800_0_0 : ∀ a, (![0, 0] : Fin 2 → Nat) a + S1800x1800.size a ≤ S1800x1800.size a
  h_S1800x1800 : 0 < S1800x1800.numel
  inb_S1x1800_S1x1800_0_0 : ∀ a, (![0, 0] : Fin 2 → Nat) a + S1x1800.size a ≤ S1x1800.size a
  h_S1x1800 : 0 < S1x1800.numel
  shapeCasts_S1x1800_S1x1800 : S1x1800.ShapeCasts S1x1800
  broadcasts_S1x1800_S128x1800 : S1x1800.Broadcasts S128x1800
  inb_S600x1800_S600x1800_0_0 : ∀ a, (![0, 0] : Fin 2 → Nat) a + S600x1800.size a ≤ S600x1800.size a
  h_S600x1800 : 0 < S600x1800.numel
  broadcasts_S1x600_S128x600 : S1x600.Broadcasts S128x600
  inb_S128x600_S128x600_0_0 : ∀ a, (![0, 0] : Fin 2 → Nat) a + S128x600.size a ≤ S128x600.size a
  h_S128x600 : 0 < S128x600.numel
  pads_S100x600_S128x600_0280_000 : S100x600.Pads (![0, 0] : Fin 2 → Nat) ![28, 0] ![0, 0] S128x600
  h_S_ : 0 < S_.numel
  shapeCasts_S128x600_S128x600 : S128x600.ShapeCasts S128x600
  h_S16x600 : 0 < S16x600.numel
  shapeCasts_S16x600_S16x600 : S16x600.ShapeCasts S16x600
  shapeCasts_S16x600_S16x1x600 : S16x600.ShapeCasts S16x1x600
  shapeCasts_S128x600_S1x128x600 : S128x600.ShapeCasts S1x128x600
  broadcasts_S16x1x600_S16x128x600 : S16x1x600.Broadcasts S16x128x600
  broadcasts_S1x128x600_S16x128x600 : S1x128x600.Broadcasts S16x128x600
  reduces_S16x128x600_S16x128 : S16x128x600.Reduces [2] S16x128
  h_S16x128 : 0 < S16x128.numel
  transposes_S128x1024_S1024x128_1_0 : S128x1024.Transposes [1, 0] S1024x128
  bcast_S128_S1x128_1 : S128.BroadcastsInDim S1x128 (![1] : Fin 1 → Fin S1x128.rank)
  bcast_S_S1x128 : S_.BroadcastsInDim S1x128 (![] : Fin 0 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  shapeCasts_S1024x128_S1024x128x1 : S1024x128.ShapeCasts S1024x128x1
  bcast_S_S1024x128x1 : S_.BroadcastsInDim S1024x128x1 (![] : Fin 0 → Fin S1024x128x1.rank)
  bcast_S1x1x1_S1024x128x1_0_1_2 : S1x1x1.BroadcastsInDim S1024x128x1 (![0, 1, 2] : Fin 3 → Fin S1024x128x1.rank)
  reducesTo_S1024x128x1_S1024x128_d2 : S1024x128x1.ReducesTo [2] S1024x128
  concatenates_S1024x1_S1024x128_S1024x129_d1 : Shape.Concatenates [S1024x1, S1024x128] S1024x129 1
  dot_S1024x512_S1024x512_S1024x1024_1_1_0_0_n_n_wf : DotDims.WF S1024x512 S1024x512 S1024x1024 [1] [1] [0] [0] [] []
  dot_S256x2048_S600x2048_S256x600_1_1_0_0_n_n_wf : DotDims.WF S256x2048 S600x2048 S256x600 [1] [1] [0] [0] [] []
  dot_S1024x256_S2048x256_S1024x2048_1_1_0_0_n_n_wf : DotDims.WF S1024x256 S2048x256 S1024x2048 [1] [1] [0] [0] [] []
  dot_S256x4096_S600x4096_S256x600_1_1_0_0_n_n_wf : DotDims.WF S256x4096 S600x4096 S256x600 [1] [1] [0] [0] [] []
  dot_S128x1800_S1800x1800_S128x1800_1_1_0_0_n_n_wf : DotDims.WF S128x1800 S1800x1800 S128x1800 [1] [1] [0] [0] [] []
  dot_S128x1800_S600x1800_S128x600_1_1_0_0_n_n_wf : DotDims.WF S128x1800 S600x1800 S128x600 [1] [1] [0] [0] [] []
  gather_S1024x128_S1024x1x1_S1024x1_n_1_0_0_1_2_11_wf : GatherDims.WF S1024x128 S1024x1x1 S1024x1 [] [1] [0] [1] [0] 2 ![1, 1]
  gather_S1024x128_S1024x128x1_S1024x128_n_1_0_0_1_2_11_wf : GatherDims.WF S1024x128 S1024x128x1 S1024x128 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x12288.size a
  hwx0_0 : ∀ i : grid0.Coords, EltTy.bits .f32 = 32 ∨ (Rect.block (s := S1024x12288) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x4096.size a
  hwx0_1 : ∀ i : grid0.Coords, EltTy.bits .f32 = 32 ∨ (Rect.block (s := S2048x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x2048.size a
  hwx0_3 : ∀ i : grid0.Coords, EltTy.bits .bf16 = 32 ∨ (Rect.block (s := S1024x2048) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x12288.size a
  hwx1_0 : ∀ i : grid1.Coords, EltTy.bits .f32 = 32 ∨ (Rect.block (s := S1024x12288) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S2048x4096.size a
  hwx1_1 : ∀ i : grid1.Coords, EltTy.bits .f32 = 32 ∨ (Rect.block (s := S2048x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x2048.size a
  hwx1_3 : ∀ i : grid1.Coords, EltTy.bits .bf16 = 32 ∨ (Rect.block (s := S1024x2048) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S1024x2048.size a
  hwx2_0 : ∀ i : grid2.Coords, EltTy.bits .bf16 = 32 ∨ (Rect.block (s := S1024x2048) S256x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S600x2048.size a ≤ S600x2048.size a
  hwx2_1 : ∀ i : grid2.Coords, EltTy.bits .f32 = 32 ∨ (Rect.block (s := S600x2048) S600x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x600.size a ≤ S1x600.size a
  hwx2_2 : ∀ i : grid2.Coords, EltTy.bits .f32 = 32 ∨ (Rect.block (s := S1x600) S1x600.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x600.size a ≤ S1024x600.size a
  hwx2_3 : ∀ i : grid2.Coords, EltTy.bits .bf16 = 32 ∨ (Rect.block (s := S1024x600) S256x600.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S1024x2048.size a
  hwx3_0 : ∀ i : grid3.Coords, EltTy.bits .bf16 = 32 ∨ (Rect.block (s := S1024x2048) S256x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S600x2048.size a ≤ S600x2048.size a
  hwx3_1 : ∀ i : grid3.Coords, EltTy.bits .f32 = 32 ∨ (Rect.block (s := S600x2048) S600x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x600.size a ≤ S1x600.size a
  hwx3_2 : ∀ i : grid3.Coords, EltTy.bits .f32 = 32 ∨ (Rect.block (s := S1x600) S1x600.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x600.size a ≤ S1024x600.size a
  hwx3_3 : ∀ i : grid3.Coords, EltTy.bits .bf16 = 32 ∨ (Rect.block (s := S1024x600) S256x600.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S1024x12288.size a
  hwx4_0 : ∀ i : grid4.Coords, EltTy.bits .f32 = 32 ∨ (Rect.block (s := S1024x12288) S1024x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S4096x12288.size a
  hwx4_1 : ∀ i : grid4.Coords, EltTy.bits .f32 = 32 ∨ (Rect.block (s := S4096x12288) S2048x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x4096.size a
  hwx4_2 : ∀ i : grid4.Coords, EltTy.bits .f32 = 32 ∨ (Rect.block (s := S1x4096) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x2048.size a ≤ S1024x4096.size a
  hwx4_3 : ∀ i : grid4.Coords, EltTy.bits .bf16 = 32 ∨ (Rect.block (s := S1024x4096) S1024x2048.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x4096.size a ≤ S1024x4096.size a
  hwx5_0 : ∀ i : grid5.Coords, EltTy.bits .bf16 = 32 ∨ (Rect.block (s := S1024x4096) S256x4096.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S600x4096.size a ≤ S600x4096.size a
  hwx5_1 : ∀ i : grid5.Coords, EltTy.bits .f32 = 32 ∨ (Rect.block (s := S600x4096) S600x4096.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x600.size a ≤ S1x600.size a
  hwx5_2 : ∀ i : grid5.Coords, EltTy.bits .f32 = 32 ∨ (Rect.block (s := S1x600) S1x600.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x600.size a ≤ S1024x600.size a
  hwx5_3 : ∀ i : grid5.Coords, EltTy.bits .bf16 = 32 ∨ (Rect.block (s := S1024x600) S256x600.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S128x1800.size a ≤ S1024x1800.size a
  hwx6_0 : ∀ i : grid6.Coords, EltTy.bits .bf16 = 32 ∨ (Rect.block (s := S1024x1800) S128x1800.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1800x1800.size a ≤ S1800x1800.size a
  hwx6_1 : ∀ i : grid6.Coords, EltTy.bits .f32 = 32 ∨ (Rect.block (s := S1800x1800) S1800x1800.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1800.size a ≤ S1x1800.size a
  hwx6_2 : ∀ i : grid6.Coords, EltTy.bits .f32 = 32 ∨ (Rect.block (s := S1x1800) S1x1800.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S600x1800.size a ≤ S600x1800.size a
  hwx6_3 : ∀ i : grid6.Coords, EltTy.bits .f32 = 32 ∨ (Rect.block (s := S600x1800) S600x1800.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x600.size a ≤ S1x600.size a
  hwx6_4 : ∀ i : grid6.Coords, EltTy.bits .f32 = 32 ∨ (Rect.block (s := S1x600) S1x600.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S128x600.size a ≤ S1024x600.size a
  hwx6_5 : ∀ i : grid6.Coords, EltTy.bits .f32 = 32 ∨ (Rect.block (s := S1024x600) S128x600.size (cc6_transform_5 i) (hinb6_5 i)).WholeWords (EltTy.packing .f32)
  hrank7 : 0 < grid7.rank
  k7_t1_ok : k7_t1_loop.OK
  k7_mult1_dvd : ∀ k7_t1 : Fin k7_t1_loop.trips, 16 ∣ (k7_mult1 k7_t1).toNat
  k7_off1_inb : ∀ k7_t1 : Fin k7_t1_loop.trips, ∀ a, (k7_off1 k7_t1) a + S16x600.size a ≤ S128x600.size a
  k7_off2_inb : ∀ k7_t1 : Fin k7_t1_loop.trips, ∀ a, (k7_off2 k7_t1) a + S16x128.size a ≤ S128x128.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S128x600.size a ≤ S1024x600.size a
  hwx7_0 : ∀ i : grid7.Coords, EltTy.bits .f32 = 32 ∨ (Rect.block (s := S1024x600) S128x600.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x600.size a ≤ S128x600.size a
  hwx7_1 : ∀ i : grid7.Coords, EltTy.bits .f32 = 32 ∨ (Rect.block (s := S128x600) S128x600.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x1024.size a
  hwx7_2 : ∀ i : grid7.Coords, EltTy.bits .f32 = 32 ∨ (Rect.block (s := S128x1024) S128x128.size (cc7_transform_2 i) (hinb7_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S256x2048_S600x2048_S256x600_1_1_0_0_n_n : DotDims S256x2048 S600x2048 S256x600 where
  lhsContracting := [1]
  rhsContracting := [1]
  lhsNonContracting := [0]
  rhsNonContracting := [0]
  lhsBatch := []
  rhsBatch := []
  wf := dot_S256x2048_S600x2048_S256x600_1_1_0_0_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S256x4096_S600x4096_S256x600_1_1_0_0_n_n : DotDims S256x4096 S600x4096 S256x600 where
  lhsContracting := [1]
  rhsContracting := [1]
  lhsNonContracting := [0]
  rhsNonContracting := [0]
  lhsBatch := []
  rhsBatch := []
  wf := dot_S256x4096_S600x4096_S256x600_1_1_0_0_n_n_wf
def dot_S128x1800_S1800x1800_S128x1800_1_1_0_0_n_n : DotDims S128x1800 S1800x1800 S128x1800 where
  lhsContracting := [1]
  rhsContracting := [1]
  lhsNonContracting := [0]
  rhsNonContracting := [0]
  lhsBatch := []
  rhsBatch := []
  wf := dot_S128x1800_S1800x1800_S128x1800_1_1_0_0_n_n_wf
def dot_S128x1800_S600x1800_S128x600_1_1_0_0_n_n : DotDims S128x1800 S600x1800 S128x600 where
  lhsContracting := [1]
  rhsContracting := [1]
  lhsNonContracting := [0]
  rhsNonContracting := [0]
  lhsBatch := []
  rhsBatch := []
  wf := dot_S128x1800_S600x1800_S128x600_1_1_0_0_n_n_wf
def gather_S1024x128_S1024x1x1_S1024x1_n_1_0_0_1_2_11 : GatherDims S1024x128 S1024x1x1 S1024x1 where
  offsetDims := []
  collapsedSliceDims := [1]
  operandBatchingDims := [0]
  startIndicesBatchingDims := [0]
  startIndexMap := [1]
  indexVectorDim := 2
  sliceSizes := ![1, 1]
  wf := gather_S1024x128_S1024x1x1_S1024x1_n_1_0_0_1_2_11_wf
def gather_S1024x128_S1024x128x1_S1024x128_n_1_0_0_1_2_11 : GatherDims S1024x128 S1024x128x1 S1024x128 where
  offsetDims := []
  collapsedSliceDims := [1]
  operandBatchingDims := [0]
  startIndicesBatchingDims := [0]
  startIndexMap := [1]
  indexVectorDim := 2
  sliceSizes := ![1, 1]
  wf := gather_S1024x128_S1024x128x1_S1024x128_n_1_0_0_1_2_11_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S600x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x600.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S256x600.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S600x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x600.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S256x600.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v9) S1024x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v9) S256x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S600x4096.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v10) S1x600.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v11) S256x600.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v12) S128x1800.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S1800x1800.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v13) S1x1800.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S600x1800.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v14) S1x600.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v15) S128x600.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v15) S128x600.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S128x600.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v17) S128x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S1024x12288 : Shape := ⟨2, ![1024, 12288]⟩
abbrev S100x600 : Shape := ⟨2, ![100, 600]⟩
abbrev S1024 : Shape := ⟨1, ![1024]⟩
abbrev S1024x128 : Shape := ⟨2, ![1024, 128]⟩
abbrev S2048x4096 : Shape := ⟨2, ![2048, 4096]⟩
abbrev S2048 : Shape := ⟨1, ![2048]⟩
abbrev S600x2048 : Shape := ⟨2, ![600, 2048]⟩
abbrev S600 : Shape := ⟨1, ![600]⟩
abbrev S4096x12288 : Shape := ⟨2, ![4096, 12288]⟩
abbrev S4096 : Shape := ⟨1, ![4096]⟩
abbrev S600x4096 : Shape := ⟨2, ![600, 4096]⟩
abbrev S1800x1800 : Shape := ⟨2, ![1800, 1800]⟩
abbrev S1800 : Shape := ⟨1, ![1800]⟩
abbrev S600x1800 : Shape := ⟨2, ![600, 1800]⟩
abbrev S1024x4096 : Shape := ⟨2, ![1024, 4096]⟩
abbrev S_ : Shape := ⟨0, ![]⟩
abbrev S4096x2048 : Shape := ⟨2, ![4096, 2048]⟩
abbrev S1024x2048 : Shape := ⟨2, ![1024, 2048]⟩
abbrev S1x2048 : Shape := ⟨2, ![1, 2048]⟩
abbrev S2048x600 : Shape := ⟨2, ![2048, 600]⟩
abbrev S1024x600 : Shape := ⟨2, ![1024, 600]⟩
abbrev S1x600 : Shape := ⟨2, ![1, 600]⟩
abbrev S12288x4096 : Shape := ⟨2, ![12288, 4096]⟩
abbrev S1x4096 : Shape := ⟨2, ![1, 4096]⟩
abbrev S4096x600 : Shape := ⟨2, ![4096, 600]⟩
abbrev S1024x1800 : Shape := ⟨2, ![1024, 1800]⟩
abbrev S1x1800 : Shape := ⟨2, ![1, 1800]⟩
abbrev S1800x600 : Shape := ⟨2, ![1800, 600]⟩
abbrev S1024x1 : Shape := ⟨2, ![1024, 1]⟩
abbrev S1024x128x1 : Shape := ⟨3, ![1024, 128, 1]⟩
abbrev S1024x128x600 : Shape := ⟨3, ![1024, 128, 600]⟩
abbrev S1024x1x600 : Shape := ⟨3, ![1024, 1, 600]⟩
abbrev S1024x129 : Shape := ⟨2, ![1024, 129]⟩

abbrev nBuf : Space → Nat
  | .hbm => 123
  | .vmem => 0
  | .smem => 0
  | _ => 0

abbrev bufTy : (tb : Table) → Fin (tcTables nBuf tb) → BufTy
  | .hbm, ⟨0, _⟩ => ⟨S1024x12288, .f32⟩
  | .hbm, ⟨1, _⟩ => ⟨S100x600, .f32⟩
  | .hbm, ⟨2, _⟩ => ⟨S1024, .i32⟩
  | .hbm, ⟨3, _⟩ => ⟨S1024x128, .i32⟩
  | .hbm, ⟨4, _⟩ => ⟨S2048x4096, .f32⟩
  | .hbm, ⟨5, _⟩ => ⟨S2048, .f32⟩
  | .hbm, ⟨6, _⟩ => ⟨S600x2048, .f32⟩
  | .hbm, ⟨7, _⟩ => ⟨S600, .f32⟩
  | .hbm, ⟨8, _⟩ => ⟨S4096x12288, .f32⟩
  | .hbm, ⟨9, _⟩ => ⟨S4096, .f32⟩
  | .hbm, ⟨10, _⟩ => ⟨S600x4096, .f32⟩
  | .hbm, ⟨11, _⟩ => ⟨S600, .f32⟩
  | .hbm, ⟨12, _⟩ => ⟨S1800x1800, .f32⟩
  | .hbm, ⟨13, _⟩ => ⟨S1800, .f32⟩
  | .hbm, ⟨14, _⟩ => ⟨S600x1800, .f32⟩
  | .hbm, ⟨15, _⟩ => ⟨S600, .f32⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S4096x2048, .f32⟩
  | .hbm, ⟨21, _⟩ => ⟨S1024x2048, .f32⟩
  | .hbm, ⟨22, _⟩ => ⟨S1x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S2048x600, .f32⟩
  | .hbm, ⟨29, _⟩ => ⟨S1024x600, .f32⟩
  | .hbm, ⟨30, _⟩ => ⟨S1x600, .f32⟩
  | .hbm, ⟨31, _⟩ => ⟨S1024x600, .f32⟩
  | .hbm, ⟨32, _⟩ => ⟨S1024x600, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | .hbm, ⟨37, _⟩ => ⟨S4096x2048, .f32⟩
  | .hbm, ⟨38, _⟩ => ⟨S1024x2048, .f32⟩
  | .hbm, ⟨39, _⟩ => ⟨S1x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S2048x600, .f32⟩
  | .hbm, ⟨46, _⟩ => ⟨S1024x600, .f32⟩
  | .hbm, ⟨47, _⟩ => ⟨S1x600, .f32⟩
  | .hbm, ⟨48, _⟩ => ⟨S1024x600, .f32⟩
  | .hbm, ⟨49, _⟩ => ⟨S1024x600, .f32⟩
  | .hbm, ⟨50, _⟩ => ⟨S_, .f32⟩
  | .hbm, ⟨51, _⟩ => ⟨S1024x12288, .f32⟩
  | .hbm, ⟨52, _⟩ => ⟨S1024x12288, .f32⟩
  | .hbm, ⟨53, _⟩ => ⟨S12288x4096, .f32⟩
  | .hbm, ⟨54, _⟩ => ⟨S1024x4096, .f32⟩
  | .hbm, ⟨55, _⟩ => ⟨S1x4096, .f32⟩
  | .hbm, ⟨56, _⟩ => ⟨S1024x4096, .f32⟩
  | .hbm, ⟨57, _⟩ => ⟨S1024x4096, .f32⟩
  | .hbm, ⟨58, _⟩ => ⟨S_, .f32⟩
  | .hbm, ⟨59, _⟩ => ⟨S1024x4096, .f32⟩
  | .hbm, ⟨60, _⟩ => ⟨S1024x4096, .f32⟩
  | .hbm, ⟨61, _⟩ => ⟨S4096x600, .f32⟩
  | .hbm, ⟨62, _⟩ => ⟨S1024x600, .f32⟩
  | .hbm, ⟨63, _⟩ => ⟨S1x600, .f32⟩
  | .hbm, ⟨64, _⟩ => ⟨S1024x600, .f32⟩
  | .hbm, ⟨65, _⟩ => ⟨S1024x600, .f32⟩
  | .hbm, ⟨66, _⟩ => ⟨S1024x1800, .f32⟩
  | .hbm, ⟨67, _⟩ => ⟨S_, .f32⟩
  | .hbm, ⟨68, _⟩ => ⟨S1024x1800, .f32⟩
  | .hbm, ⟨69, _⟩ => ⟨S1024x1800, .f32⟩
  | .hbm, ⟨70, _⟩ => ⟨S1800x1800, .f32⟩
  | .hbm, ⟨71, _⟩ => ⟨S1024x1800, .f32⟩
  | .hbm, ⟨72, _⟩ => ⟨S1x1800, .f32⟩
  | .hbm, ⟨73, _⟩ => ⟨S1024x1800, .f32⟩
  | .hbm, ⟨74, _⟩ => ⟨S1024x1800, .f32⟩
  | .hbm, ⟨75, _⟩ => ⟨S_, .f32⟩
  | .hbm, ⟨76, _⟩ => ⟨S1024x1800, .f32⟩
  | .hbm, ⟨77, _⟩ => ⟨S1024x1800, .f32⟩
  | .hbm, ⟨78, _⟩ => ⟨S1800x600, .f32⟩
  | .hbm, ⟨79, _⟩ => ⟨S1024x600, .f32⟩
  | .hbm, ⟨80, _⟩ => ⟨S1x600, .f32⟩
  | .hbm, ⟨81, _⟩ => ⟨S1024x600, .f32⟩
  | .hbm, ⟨82, _⟩ => ⟨S1024x600, .f32⟩
  | .hbm, ⟨83, _⟩ => ⟨S_, .i32⟩
  | .hbm, ⟨84, _⟩ => ⟨S1024, .i32⟩
  | .hbm, ⟨85, _⟩ => ⟨S1024, .i1⟩
  | .hbm, ⟨86, _⟩ => ⟨S_, .i32⟩
  | .hbm, ⟨87, _⟩ => ⟨S1024, .i32⟩
  | .hbm, ⟨88, _⟩ => ⟨S1024, .i32⟩
  | .hbm, ⟨89, _⟩ => ⟨S1024, .i32⟩
  | .hbm, ⟨90, _⟩ => ⟨S1024x1, .i32⟩
  | .hbm, ⟨91, _⟩ => ⟨S1024x600, .f32⟩
  | .hbm, ⟨92, _⟩ => ⟨S1024x600, .f32⟩
  | .hbm, ⟨93, _⟩ => ⟨S_, .f32⟩
  | .hbm, ⟨94, _⟩ => ⟨S1024x600, .f32⟩
  | .hbm, ⟨95, _⟩ => ⟨S1024x600, .f32⟩
  | .hbm, ⟨96, _⟩ => ⟨S1024x600, .f32⟩
  | .hbm, ⟨97, _⟩ => ⟨S_, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S_, .i32⟩
  | .hbm, ⟨102, _⟩ => ⟨S1024x128, .i32⟩
  | .hbm, ⟨103, _⟩ => ⟨S1024x128, .i1⟩
  | .hbm, ⟨104, _⟩ => ⟨S_, .i32⟩
  | .hbm, ⟨105, _⟩ => ⟨S1024x128, .i32⟩
  | .hbm, ⟨106, _⟩ => ⟨S1024x128, .i32⟩
  | .hbm, ⟨107, _⟩ => ⟨S1024x128, .i32⟩
  | .hbm, ⟨108, _⟩ => ⟨S1024x128x1, .i32⟩
  | .hbm, ⟨109, _⟩ => ⟨S1024x128x600, .f32⟩
  | .hbm, ⟨110, _⟩ => ⟨S1024x1x600, .f32⟩
  | .hbm, ⟨111, _⟩ => ⟨S1024x128x600, .f32⟩
  | .hbm, ⟨112, _⟩ => ⟨S1024x128x600, .f32⟩
  | .hbm, ⟨113, _⟩ => ⟨S_, .f32⟩
  | .hbm, ⟨114, _⟩ => ⟨S1024x128x600, .f32⟩
  | .hbm, ⟨115, _⟩ => ⟨S1024x128x600, .f32⟩
  | .hbm, ⟨116, _⟩ => ⟨S1024x128x600, .f32⟩
  | .hbm, ⟨117, _⟩ => ⟨S_, .f32⟩
  | .hbm, ⟨118, _⟩ => ⟨S1024x128, .f32⟩
  | .hbm, ⟨119, _⟩ => ⟨S1024x128, .f32⟩
  | .hbm, ⟨120, _⟩ => ⟨S1024x128, .f32⟩
  | .hbm, ⟨121, _⟩ => ⟨S1024x1, .f32⟩
  | .hbm, ⟨122, _⟩ => ⟨S1024x129, .f32⟩
  | _, _ => ⟨S1024x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_call0_cst : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call1_cst : Ref sig .tc := ⟨.hbm, 25, rfl⟩
abbrev main_call1_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call2_cst : Ref sig .tc := ⟨.hbm, 34, rfl⟩
abbrev main_call2_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call3_cst : Ref sig .tc := ⟨.hbm, 42, rfl⟩
abbrev main_call3_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call4_cst : Ref sig .tc := ⟨.hbm, 50, rfl⟩
abbrev main_call4_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call5_cst : Ref sig .tc := ⟨.hbm, 58, rfl⟩
abbrev main_call5_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call6_cst : Ref sig .tc := ⟨.hbm, 67, rfl⟩
abbrev main_call6_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call7_cst : Ref sig .tc := ⟨.hbm, 75, rfl⟩
abbrev main_call7_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c : Ref sig .tc := ⟨.hbm, 83, rfl⟩
abbrev main_v51 : Ref sig .tc := ⟨.hbm, 84, rfl⟩
abbrev main_v52 : Ref sig .tc := ⟨.hbm, 85, rfl⟩
abbrev main_c_0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call8_cst : Ref sig .tc := ⟨.hbm, 93, rfl⟩
abbrev main_call8_v0 : Ref sig .tc := ⟨.hbm, 94, rfl⟩
abbrev main_v59 : Ref sig .tc := ⟨.hbm, 95, rfl⟩
abbrev main_v60 : Ref sig .tc := ⟨.hbm, 96, rfl⟩
abbrev main_cst : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_1 : Ref sig .tc := ⟨.hbm, 101, rfl⟩
abbrev main_v64 : Ref sig .tc := ⟨.hbm, 102, rfl⟩
abbrev main_v65 : Ref sig .tc := ⟨.hbm, 103, rfl⟩
abbrev main_c_2 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call9_cst : Ref sig .tc := ⟨.hbm, 113, rfl⟩
abbrev main_call9_v0 : Ref sig .tc := ⟨.hbm, 114, rfl⟩
abbrev main_v74 : Ref sig .tc := ⟨.hbm, 115, rfl⟩
abbrev main_v75 : Ref sig .tc := ⟨.hbm, 116, rfl⟩
abbrev main_cst_3 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  slices_S1024x12288_S1024x4096_0_0 : S1024x12288.Slices ![0, 0] S1024x4096
  bcast_S_S1024x4096 : S_.BroadcastsInDim S1024x4096 (![] : Fin 0 → Fin S1024x4096.rank)
  transposes_S2048x4096_S4096x2048_1_0 : S2048x4096.Transposes [1, 0] S4096x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  transposes_S600x2048_S2048x600_1_0 : S600x2048.Transposes [1, 0] S2048x600
  bcast_S600_S1x600_1 : S600.BroadcastsInDim S1x600 (![1] : Fin 1 → Fin S1x600.rank)
  bcast_S1x600_S1024x600_0_1 : S1x600.BroadcastsInDim S1024x600 (![0, 1] : Fin 2 → Fin S1024x600.rank)
  slices_S1024x12288_S1024x4096_0_8192 : S1024x12288.Slices ![0, 8192] S1024x4096
  bcast_S_S1024x12288 : S_.BroadcastsInDim S1024x12288 (![] : Fin 0 → Fin S1024x12288.rank)
  transposes_S4096x12288_S12288x4096_1_0 : S4096x12288.Transposes [1, 0] S12288x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S600x4096_S4096x600_1_0 : S600x4096.Transposes [1, 0] S4096x600
  concatenates_S1024x600_S1024x600_S1024x600_S1024x1800_d1 : Shape.Concatenates [S1024x600, S1024x600, S1024x600] S1024x1800 1
  bcast_S_S1024x1800 : S_.BroadcastsInDim S1024x1800 (![] : Fin 0 → Fin S1024x1800.rank)
  transposes_S1800x1800_S1800x1800_1_0 : S1800x1800.Transposes [1, 0] S1800x1800
  bcast_S1800_S1x1800_1 : S1800.BroadcastsInDim S1x1800 (![1] : Fin 1 → Fin S1x1800.rank)
  bcast_S1x1800_S1024x1800_0_1 : S1x1800.BroadcastsInDim S1024x1800 (![0, 1] : Fin 2 → Fin S1024x1800.rank)
  transposes_S600x1800_S1800x600_1_0 : S600x1800.Transposes [1, 0] S1800x600
  bcast_S_S1024 : S_.BroadcastsInDim S1024 (![] : Fin 0 → Fin S1024.rank)
  bcast_S1024_S1024x1_0 : S1024.BroadcastsInDim S1024x1 (![0] : Fin 1 → Fin S1024x1.rank)
  bcast_S_S1024x600 : S_.BroadcastsInDim S1024x600 (![] : Fin 0 → Fin S1024x600.rank)
  reducesTo_S1024x600_S1024_d1 : S1024x600.ReducesTo [1] S1024
  h_S_ : 0 < S_.numel
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S1024x600_S1024x1x600_0_2 : S1024x600.BroadcastsInDim S1024x1x600 (![0, 2] : Fin 2 → Fin S1024x1x600.rank)
  bcast_S1024x1x600_S1024x128x600_0_1_2 : S1024x1x600.BroadcastsInDim S1024x128x600 (![0, 1, 2] : Fin 3 → Fin S1024x128x600.rank)
  bcast_S_S1024x128x600 : S_.BroadcastsInDim S1024x128x600 (![] : Fin 0 → Fin S1024x128x600.rank)
  reducesTo_S1024x128x600_S1024x128_d2 : S1024x128x600.ReducesTo [2] S1024x128
  concatenates_S1024x1_S1024x128_S1024x129_d1 : Shape.Concatenates [S1024x1, S1024x128] S1024x129 1
  dot_S1024x4096_S4096x2048_S1024x2048_1_0_0_1_n_n_wf : DotDims.WF S1024x4096 S4096x2048 S1024x2048 [1] [0] [0] [1] [] []
  dot_S1024x2048_S2048x600_S1024x600_1_0_0_1_n_n_wf : DotDims.WF S1024x2048 S2048x600 S1024x600 [1] [0] [0] [1] [] []
  dot_S1024x12288_S12288x4096_S1024x4096_1_0_0_1_n_n_wf : DotDims.WF S1024x12288 S12288x4096 S1024x4096 [1] [0] [0] [1] [] []
  dot_S1024x4096_S4096x600_S1024x600_1_0_0_1_n_n_wf : DotDims.WF S1024x4096 S4096x600 S1024x600 [1] [0] [0] [1] [] []
  dot_S1024x1800_S1800x1800_S1024x1800_1_0_0_1_n_n_wf : DotDims.WF S1024x1800 S1800x1800 S1024x1800 [1] [0] [0] [1] [] []
  dot_S1024x1800_S1800x600_S1024x600_1_0_0_1_n_n_wf : DotDims.WF S1024x1800 S1800x600 S1024x600 [1] [0] [0] [1] [] []
  gather_S100x600_S1024x1_S1024x600_1_0_n_n_0_1_1600_wf : GatherDims.WF S100x600 S1024x1 S1024x600 [1] [0] [] [0] [] 1 ![1, 600]
  gather_S100x600_S1024x128x1_S1024x128x600_2_0_n_n_0_2_1600_wf : GatherDims.WF S100x600 S1024x128x1 S1024x128x600 [2] [0] [] [0] [] 2 ![1, 600]

variable [Facts₀]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf
def dot_S1024x2048_S2048x600_S1024x600_1_0_0_1_n_n : DotDims S1024x2048 S2048x600 S1024x600 where
  lhsContracting := [1]
  rhsContracting := [0]
  lhsNonContracting := [0]
  rhsNonContracting := [1]
  lhsBatch := []
  rhsBatch := []
  wf := dot_S1024x2048_S2048x600_S1024x600_1_0_0_1_n_n_wf
def dot_S1024x12288_S12288x4096_S1024x4096_1_0_0_1_n_n : DotDims S1024x12288 S12288x4096 S1024x4096 where
  lhsContracting := [1]
  rhsContracting := [0]
  lhsNonContracting := [0]
  rhsNonContracting := [1]
  lhsBatch := []
  rhsBatch := []
  wf := dot_S1024x12288_S12288x4096_S1024x4096_1_0_0_1_n_n_wf
def dot_S1024x4096_S4096x600_S1024x600_1_0_0_1_n_n : DotDims S1024x4096 S4096x600 S1024x600 where
  lhsContracting := [1]
  rhsContracting := [0]
  lhsNonContracting := [0]
  rhsNonContracting := [1]
  lhsBatch := []
  rhsBatch := []
  wf := dot_S1024x4096_S4096x600_S1024x600_1_0_0_1_n_n_wf
def dot_S1024x1800_S1800x1800_S1024x1800_1_0_0_1_n_n : DotDims S1024x1800 S1800x1800 S1024x1800 where
  lhsContracting := [1]
  rhsContracting := [0]
  lhsNonContracting := [0]
  rhsNonContracting := [1]
  lhsBatch := []
  rhsBatch := []
  wf := dot_S1024x1800_S1800x1800_S1024x1800_1_0_0_1_n_n_wf
def dot_S1024x1800_S1800x600_S1024x600_1_0_0_1_n_n : DotDims S1024x1800 S1800x600 S1024x600 where
  lhsContracting := [1]
  rhsContracting := [0]
  lhsNonContracting := [0]
  rhsNonContracting := [1]
  lhsBatch := []
  rhsBatch := []
  wf := dot_S1024x1800_S1800x600_S1024x600_1_0_0_1_n_n_wf
def gather_S100x600_S1024x1_S1024x600_1_0_n_n_0_1_1600 : GatherDims S100x600 S1024x1 S1024x600 where
  offsetDims := [1]
  collapsedSliceDims := [0]
  operandBatchingDims := []
  startIndicesBatchingDims := []
  startIndexMap := [0]
  indexVectorDim := 1
  sliceSizes := ![1, 600]
  wf := gather_S100x600_S1024x1_S1024x600_1_0_n_n_0_1_1600_wf
def gather_S100x600_S1024x128x1_S1024x128x600_2_0_n_n_0_2_1600 : GatherDims S100x600 S1024x128x1 S1024x128x600 where
  offsetDims := [2]
  collapsedSliceDims := [0]
  operandBatchingDims := []
  startIndicesBatchingDims := []
  startIndexMap := [0]
  indexVectorDim := 2
  sliceSizes := ![1, 600]
  wf := gather_S100x600_S1024x128x1_S1024x128x600_2_0_n_n_0_2_1600_wf

class Facts : Prop extends Facts₀ where

variable [Facts]
-- ==== Proof.KI.LibKt.lean ====
import Idealize.ShloMosaic.Lib.Pipeline.Value
import Idealize.ShloMosaic.Lib.Tactic

noncomputable section

namespace Cert.KernelIdeal.Hand

open Idealize.ShloMosaic Idealize.ShloMosaic.TcCoe

/-! # Whole-buffer loads and stores, read back

Facts about a view read or written through the rectangle that is its whole shape at zero offsets, for any shape
and element type: what the contraction-tiled regions' bodies do to their staging buffers and their accumulator. -/

section Helpers
variable {Val : EltTy → Type} [∀ e, Nonempty (Val e)] {sg : RefSig} {κ : Kind} {sp : Space} {S : Shape} {e : EltTy}

/-- A load through the whole-shape rectangle at zero offsets reads the view's contents. -/
theorem readAt_unit_zero (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- After a last store through the whole-shape rectangle the view reads that store's payload. -/
theorem read_writes_cons_unit_zero (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Helpers

/-- The zero offsets of a rank-2 rectangle, written as a list, are the constant-zero function. -/
theorem offs_zero : (![0, 0] : Fin 2 → Nat) = fun _ => 0 := funext fun a => by fin_cases a <;> rfl

end Cert.KernelIdeal.Hand

end
-- ==== Proof.KI.R0.lean ====
import proofs.«403270_j28226525069939_3_alg».proof.Proof.Gen.KernelIdeal.Launch
import proofs.«403270_j28226525069939_3_alg».proof.Proof.Gen.KernelIdeal.Skeleton
import proofs.«403270_j28226525069939_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«403270_j28226525069939_3_alg».proof.Proof.KI.LibKt

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: a linear layer tiled over the contraction axis, with an accumulator carried between grid points

The grid is (column block `n`, contraction block `k`), `k` fastest. At every point the body adds the product of the
positive part of the activation's `k`-th column block with the weight's `(n, k)` block (contracted along their second
axes) into an accumulator held in a scratch buffer; the accumulator is reset to zero where `k` is first, and where `k` is
last the output's column block is written as the positive part of accumulator plus bias. The output's buffer is
left untouched at every other point. -/

variable (V : (c : Dev nD) → (b : Ref sig .tc) → Buf (Elt F) ((c : Thread nD τ).loc b))

/-- The condition under which the body resets the accumulator: the contraction block is the first. -/
abbrev cond0_0 (i : grid0.Coords) : Prop := (Scalar.cmpi .ne (Scalar.extui (Scalar.cmpi .eq (BitVec.ofNat 32 (i 1).val) 0#32)) 0#32) = 1#1
/-- The condition under which the body writes the output block: the contraction block is the last. -/
abbrev cond0_1 (i : grid0.Coords) : Prop := k0_cond2 i = 1#1

/-- The first grid point resets the accumulator. -/
theorem first0 : ∀ t : Fin cfg0.N, t.val = 0 → cond0_0 (grid0.coords t) :=
  (by decide +kernel : ∀ t : Fin grid0.N, t.val = 0 → cond0_0 (grid0.coords t))
/-- Where the output block is written the output window is live; elsewhere it is idle and not written back. -/
theorem liveAt0_3 : ∀ t : Fin cfg0.N, cond0_1 (grid0.coords t) → cfg0.idle 3 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body on whole staging memrefs, case by case of its two conditionals -/

set_option maxHeartbeats 4000000 in
theorem kernel0_first_last (c : Dev nD) (E : Set ℕ) (i : grid0.Coords) (arg2 : Memref sig .tc .vmem S1024x512 .f32) (harg2 : arg2.IsWhole) (arg3 : Memref sig .tc .vmem S1024x512 .f32) (harg3 : arg3.IsWhole)
    (arg4 : Memref sig .tc .vmem S1x1024 .f32) (harg4 : arg4.IsWhole) (arg5 : Memref sig .tc .vmem S1024x1024 .bf16) (harg5 : arg5.IsWhole)
    (arg6 : Memref sig .tc .vmem S1024x1024 .f32) (harg6 : arg6.IsWhole)
    (hc0 : cond0_0 i) (hc1 : cond0_1 i)
    (x0 : Vec F S1024x512 .f32) (x1 : Vec F S1024x512 .f32) (x2 : Vec F S1x1024 .f32) (y : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 k0_pay1) x2) ∗ owns (c : Thread nD τ) arg6 fullShare (k0_pay2 x0 x1 k0_pay1)) -∗ K ⟨⟩))
      ⊢ wp frame (wpE (defs₀ (F := F)) Variants.none c none) E (cc0__kernel_linear_ktiled i arg2 harg2 arg3 harg3 arg4 harg4 arg5 harg5 arg6 harg6) K := by
  simp only [cc0__kernel_linear_ktiled_eq_skeleton]; unfold cc0__kernel_linear_ktiled_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.readCov_cons_toLoadRect, read_writes_cons_unit_zero arg5.view f3 offs_zero,
      readAt_unit_zero arg2.view f0 offs_zero, readAt_unit_zero arg3.view f1 offs_zero, readAt_unit_zero arg4.view f2 offs_zero,
      readAt_unit_zero arg6.view f4 offs_zero]
  iexists _; isplitr
  swap; · iexact H4
  ipureintro
  sl_unfold_run_names
  simp only [View.readCov_cons_toLoadRect, read_writes_cons_unit_zero arg6.view f4 offs_zero,
    readAt_unit_zero arg2.view f0 offs_zero, readAt_unit_zero arg3.view f1 offs_zero, readAt_unit_zero arg6.view f4 offs_zero]

set_option maxHeartbeats 4000000 in
theorem kernel0_first (c : Dev nD) (E : Set ℕ) (i : grid0.Coords) (arg2 : Memref sig .tc .vmem S1024x512 .f32) (harg2 : arg2.IsWhole) (arg3 : Memref sig .tc .vmem S1024x512 .f32) (harg3 : arg3.IsWhole)
    (arg4 : Memref sig .tc .vmem S1x1024 .f32) (harg4 : arg4.IsWhole) (arg5 : Memref sig .tc .vmem S1024x1024 .bf16) (harg5 : arg5.IsWhole)
    (arg6 : Memref sig .tc .vmem S1024x1024 .f32) (harg6 : arg6.IsWhole)
    (hc0 : cond0_0 i) (hc1 : ¬cond0_1 i)
    (x0 : Vec F S1024x512 .f32) (x1 : Vec F S1024x512 .f32) (x2 : Vec F S1x1024 .f32) (y : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (y) ∗ owns (c : Thread nD τ) arg6 fullShare (k0_pay2 x0 x1 k0_pay1)) -∗ K ⟨⟩))
      ⊢ wp frame (wpE (defs₀ (F := F)) Variants.none c none) E (cc0__kernel_linear_ktiled i arg2 harg2 arg3 harg3 arg4 harg4 arg5 harg5 arg6 harg6) K := by
  simp only [cc0__kernel_linear_ktiled_eq_skeleton]; unfold cc0__kernel_linear_ktiled_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  simp only [View.readCov_cons_toLoadRect, read_writes_cons_unit_zero arg6.view f4 offs_zero,
    readAt_unit_zero arg2.view f0 offs_zero, readAt_unit_zero arg3.view f1 offs_zero, readAt_unit_zero arg6.view f4 offs_zero]

set_option maxHeartbeats 4000000 in
theorem kernel0_last (c : Dev nD) (E : Set ℕ) (i : grid0.Coords) (arg2 : Memref sig .tc .vmem S1024x512 .f32) (harg2 : arg2.IsWhole) (arg3 : Memref sig .tc .vmem S1024x512 .f32) (harg3 : arg3.IsWhole)
    (arg4 : Memref sig .tc .vmem S1x1024 .f32) (harg4 : arg4.IsWhole) (arg5 : Memref sig .tc .vmem S1024x1024 .bf16) (harg5 : arg5.IsWhole)
    (arg6 : Memref sig .tc .vmem S1024x1024 .f32) (harg6 : arg6.IsWhole)
    (hc0 : ¬cond0_0 i) (hc1 : cond0_1 i)
    (x0 : Vec F S1024x512 .f32) (x1 : Vec F S1024x512 .f32) (x2 : Vec F S1x1024 .f32) (y : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 xs) x2) ∗ owns (c : Thread nD τ) arg6 fullShare (k0_pay2 x0 x1 xs)) -∗ K ⟨⟩))
      ⊢ wp frame (wpE (defs₀ (F := F)) Variants.none c none) E (cc0__kernel_linear_ktiled i arg2 harg2 arg3 harg3 arg4 harg4 arg5 harg5 arg6 harg6) K := by
  simp only [cc0__kernel_linear_ktiled_eq_skeleton]; unfold cc0__kernel_linear_ktiled_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.readCov_cons_toLoadRect, read_writes_cons_unit_zero arg5.view f3 offs_zero,
      readAt_unit_zero arg2.view f0 offs_zero, readAt_unit_zero arg3.view f1 offs_zero, readAt_unit_zero arg4.view f2 offs_zero,
      readAt_unit_zero arg6.view f4 offs_zero]
  iexists _; isplitr
  swap; · iexact H4
  ipureintro
  sl_unfold_run_names
  simp only [View.readCov_cons_toLoadRect, read_writes_cons_unit_zero arg6.view f4 offs_zero,
    readAt_unit_zero arg2.view f0 offs_zero, readAt_unit_zero arg3.view f1 offs_zero, readAt_unit_zero arg6.view f4 offs_zero]

set_option maxHeartbeats 4000000 in
theorem kernel0_mid (c : Dev nD) (E : Set ℕ) (i : grid0.Coords) (arg2 : Memref sig .tc .vmem S1024x512 .f32) (harg2 : arg2.IsWhole) (arg3 : Memref sig .tc .vmem S1024x512 .f32) (harg3 : arg3.IsWhole)
    (arg4 : Memref sig .tc .vmem S1x1024 .f32) (harg4 : arg4.IsWhole) (arg5 : Memref sig .tc .vmem S1024x1024 .bf16) (harg5 : arg5.IsWhole)
    (arg6 : Memref sig .tc .vmem S1024x1024 .f32) (harg6 : arg6.IsWhole)
    (hc0 : ¬cond0_0 i) (hc1 : ¬cond0_1 i)
    (x0 : Vec F S1024x512 .f32) (x1 : Vec F S1024x512 .f32) (x2 : Vec F S1x1024 .f32) (y : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (y) ∗ owns (c : Thread nD τ) arg6 fullShare (k0_pay2 x0 x1 xs)) -∗ K ⟨⟩))
      ⊢ wp frame (wpE (defs₀ (F := F)) Variants.none c none) E (cc0__kernel_linear_ktiled i arg2 harg2 arg3 harg3 arg4 harg4 arg5 harg5 arg6 harg6) K := by
  simp only [cc0__kernel_linear_ktiled_eq_skeleton]; unfold cc0__kernel_linear_ktiled_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  simp only [View.readCov_cons_toLoadRect, read_writes_cons_unit_zero arg6.view f4 offs_zero,
    readAt_unit_zero arg2.view f0 offs_zero, readAt_unit_zero arg3.view f1 offs_zero, readAt_unit_zero arg6.view f4 offs_zero]

/-! ## One point's step, as values -/

/-- The accumulator after the body at coordinates `i`: the product of the two blocks added to zero where the
    contraction block is the first, to the accumulator found otherwise. -/
def accNext0 (i : grid0.Coords) (x0 x1 : Vec F S1024x512 .f32) (xs : Vec F S1024x1024 .f32) : Vec F S1024x1024 .f32 :=
  k0_pay2 x0 x1 (if cond0_0 i then k0_pay1 else xs)

/-- The output's buffer after the body at coordinates `i`: positive part of new accumulator plus bias where the
    contraction block is the last, what it held otherwise. -/
def outNext0 (i : grid0.Coords) (x0 x1 : Vec F S1024x512 .f32) (x2 : Vec F S1x1024 .f32) (xs : Vec F S1024x1024 .f32)
    (y : Vec F S1024x1024 .bf16) : Vec F S1024x1024 .bf16 :=
  if cond0_1 i then k0_pay3 (accNext0 i x0 x1 xs) x2 else y

theorem accNext0_first {i : grid0.Coords} (h : cond0_0 i) (x0 x1 : Vec F S1024x512 .f32) (xs xs' : Vec F S1024x1024 .f32) :
    accNext0 i x0 x1 xs = accNext0 i x0 x1 xs' := by
  unfold accNext0; rw [if_pos h, if_pos h]

theorem outNext0_live {i : grid0.Coords} (h : cond0_1 i) (x0 x1 : Vec F S1024x512 .f32) (x2 : Vec F S1x1024 .f32)
    (xs : Vec F S1024x1024 .f32) (y : Vec F S1024x1024 .bf16) (acc' : Vec F S1024x1024 .f32) (hacc : acc' = accNext0 i x0 x1 xs) :
    k0_pay3 acc' x2 = outNext0 i x0 x1 x2 xs y := by
  subst hacc; unfold outNext0; rw [if_pos h]

theorem outNext0_idle {i : grid0.Coords} (h : ¬cond0_1 i) (x0 x1 : Vec F S1024x512 .f32) (x2 : Vec F S1x1024 .f32)
    (xs : Vec F S1024x1024 .f32) (y : Vec F S1024x1024 .bf16) : y = outNext0 i x0 x1 x2 xs y := by
  unfold outNext0; rw [if_neg h]

/-- The body at any coordinates, on whole memrefs: the inputs stay; the accumulator and the output's buffer end at
    the step's values (given under any names equal to them). -/
theorem sound_kernel0 (c : Dev nD) (E : Set ℕ) (i : grid0.Coords) (arg2 : Memref sig .tc .vmem S1024x512 .f32) (harg2 : arg2.IsWhole) (arg3 : Memref sig .tc .vmem S1024x512 .f32) (harg3 : arg3.IsWhole)
    (arg4 : Memref sig .tc .vmem S1x1024 .f32) (harg4 : arg4.IsWhole) (arg5 : Memref sig .tc .vmem S1024x1024 .bf16) (harg5 : arg5.IsWhole)
    (arg6 : Memref sig .tc .vmem S1024x1024 .f32) (harg6 : arg6.IsWhole)
    (x0 : Vec F S1024x512 .f32) (x1 : Vec F S1024x512 .f32) (x2 : Vec F S1x1024 .f32) (y : Vec F S1024x1024 .bf16) (xs : Vec F S1024x1024 .f32)
    (acc' : Vec F S1024x1024 .f32) (hacc : acc' = accNext0 i x0 x1 xs) (out' : Vec F S1024x1024 .bf16) (hout : out' = outNext0 i x0 x1 x2 xs y)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare out' ∗ owns (c : Thread nD τ) arg6 fullShare acc') -∗ K ⟨⟩))
      ⊢ wp frame (wpE (defs₀ (F := F)) Variants.none c none) E (cc0__kernel_linear_ktiled i arg2 harg2 arg3 harg3 arg4 harg4 arg5 harg5 arg6 harg6) K := by
  subst hacc; subst hout
  unfold outNext0 accNext0
  by_cases hc0 : cond0_0 i
  · by_cases hc1 : cond0_1 i
    · rw [if_pos hc0, if_pos hc1]
      exact kernel0_first_last c E i arg2 harg2 arg3 harg3 arg4 harg4 arg5 harg5 arg6 harg6 hc0 hc1 x0 x1 x2 y xs K
    · rw [if_pos hc0, if_neg hc1]
      exact kernel0_first c E i arg2 harg2 arg3 harg3 arg4 harg4 arg5 harg5 arg6 harg6 hc0 hc1 x0 x1 x2 y xs K
  · by_cases hc1 : cond0_1 i
    · rw [if_neg hc0, if_pos hc1]
      exact kernel0_last c E i arg2 harg2 arg3 harg3 arg4 harg4 arg5 harg5 arg6 harg6 hc0 hc1 x0 x1 x2 y xs K
    · rw [if_neg hc0, if_neg hc1]
      exact kernel0_mid c E i arg2 harg2 arg3 harg3 arg4 harg4 arg5 harg5 arg6 harg6 hc0 hc1 x0 x1 x2 y xs K

/-! ## The accumulator point by point -/

/-- What the accumulator holds after the body at position `n`: one step from what position `n - 1` left
    (at the first position from zero: the first position resets it whatever it held). -/
def acc0 (c : Dev nD) : (n : ℕ) → n < cfg0.N → Vec F S1024x1024 .f32
  | 0, hn => accNext0 (grid0.coords ⟨0, hn⟩) (iblk0 V c 0 ⟨0, hn⟩) (iblk0 V c 1 ⟨0, hn⟩) k0_pay1
  | n + 1, hn => accNext0 (grid0.coords ⟨n + 1, hn⟩) (iblk0 V c 0 ⟨n + 1, hn⟩) (iblk0 V c 1 ⟨n + 1, hn⟩) (acc0 c n (Nat.lt_of_succ_lt hn))

/-- At a position that resets the accumulator, the step may be taken from any contents. -/
theorem acc0_of_first (c : Dev nD) (t : Fin cfg0.N) (h : cond0_0 (grid0.coords t)) (xs : Vec F S1024x1024 .f32) :
    acc0 V c t.val t.isLt = accNext0 (grid0.coords t) (iblk0 V c 0 t) (iblk0 V c 1 t) xs := by
  obtain ⟨n, hn⟩ := t
  cases n with
  | zero => exact accNext0_first h _ _ _ _
  | succ n => exact accNext0_first h _ _ _ _

/-- After the first position, the step is taken from what the position before left. -/
theorem acc0_of_pos (c : Dev nD) (t : Fin cfg0.N) (hz : t.val ≠ 0) :
    acc0 V c t.val t.isLt = accNext0 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd rfl hz
  | succ n => rfl

/-! ## The invariant: the scoped rest with the accumulator at its named contents -/

/-- The accumulator's scratch buffer, whole. -/
abbrev scM0 : Memref sig .tc .vmem S1024x1024 .f32 := Memref.whole cc0_scratch0

/-- Every other scoped buffer of the core that is no staging buffer of this region, at some contents each. -/
abbrev rest0 (c : Dev nD) : sProp 𝕄 :=
  Pipeline.scopedRestBut (Ix := Unit) (Name := ℕ) (U := UR sig nD τ) (Lvl := ℕ) (Val := Elt F) spec0 c [cc0_scratch0]

/-- What the launch hands the region, with the accumulator's buffer split off as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_split]; simp only [scM0, owns_whole]; try rfl

/-- The invariant before position `n`: before the first what the launch hands over; afterwards the same with the
    accumulator at what position `n - 1` left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The region's proof data -/

/-- The arrays as found; after the body each input buffer at its block, the output's at the positive part of
    accumulator plus bias (consulted only where the block is written); the invariant carries the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 2 t) := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t)

set_option maxHeartbeats 4000000 in
/-- The body at any point: the inputs' buffers hold their blocks; the invariant hands over the accumulator at what the
    point before left (at anything before the first point, which resets it) and takes it back at this point's
    contents; the output's buffer is written where the contraction block is the last and handed back as found elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc V c t,
    after0_0, after0_1, after0_2]
  by_cases hc1 : cond0_1 (grid0.coords t)
  · rw [show (dat0 V c).leavesExact 3 t = owns (c : Thread nD τ) (st0_3 t) fullShare ((dat0 V c).after 3 t) from by
      unfold Dat.leavesExact; rw [liveAt0_3 t hc1], after0_3]
    by_cases hz : t.val = 0
    · rw [PhiS0_zero V c _ _ hz, PhiA0_eq]
      iintro ⟨⟨⟨⟨%xs, HS⟩, HR⟩, Hg⟩, Ho, ⟨%d0, H0⟩, ⟨%d1, H1⟩, ⟨%d2, H2⟩, ⟨%d3, H3⟩⟩
      iapply (sound_kernel0 c Set.univ (grid0.coords t) _ _ _ _ _ _ _ _ _ _ (iblk0 V c 0 t) (iblk0 V c 1 t) (iblk0 V c 2 t)
        ((dat0 V c).before 3 t d3) xs (acc0 V c t.val t.isLt) (acc0_of_first V c t (first0 t hz) xs)
        (k0_pay3 (acc0 V c t.val t.isLt) (iblk0 V c 2 t)) (outNext0_live hc1 _ _ _ _ _ _ (acc0_of_first V c t (first0 t hz) xs)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [PhiS0_pos V c _ _ hz]
      iintro ⟨⟨⟨HS, HR⟩, Hg⟩, Ho, ⟨%d0, H0⟩, ⟨%d1, H1⟩, ⟨%d2, H2⟩, ⟨%d3, H3⟩⟩
      iapply (sound_kernel0 c Set.univ (grid0.coords t) _ _ _ _ _ _ _ _ _ _ (iblk0 V c 0 t) (iblk0 V c 1 t) (iblk0 V c 2 t)
        ((dat0 V c).before 3 t d3) (acc0 V c (t.val - 1) (Nat.lt_of_le_of_lt (Nat.sub_le _ _) t.isLt)) (acc0 V c t.val t.isLt) (acc0_of_pos V c t hz)
        (k0_pay3 (acc0 V c t.val t.isLt) (iblk0 V c 2 t)) (outNext0_live hc1 _ _ _ _ _ _ (acc0_of_pos V c t hz)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · rw [Dat.leavesExact_idle (dat0 V c) 3 t (idleAt0_3 t hc1) (noFlush0_3 t hc1)]
    by_cases hz : t.val = 0
    · rw [PhiS0_zero V c _ _ hz, PhiA0_eq]
      iintro ⟨⟨⟨⟨%xs, HS⟩, HR⟩, Hg⟩, Ho, ⟨%d0, H0⟩, ⟨%d1, H1⟩, ⟨%d2, H2⟩, ⟨%d3, H3⟩⟩
      iapply (sound_kernel0 c Set.univ (grid0.coords t) _ _ _ _ _ _ _ _ _ _ (iblk0 V c 0 t) (iblk0 V c 1 t) (iblk0 V c 2 t)
        ((dat0 V c).before 3 t d3) xs (acc0 V c t.val t.isLt) (acc0_of_first V c t (first0 t hz) xs)
        ((dat0 V c).before 3 t d3) (outNext0_idle hc1 _ _ _ _ _) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
    · rw [PhiS0_pos V c _ _ hz]
      iintro ⟨⟨⟨HS, HR⟩, Hg⟩, Ho, ⟨%d0, H0⟩, ⟨%d1, H1⟩, ⟨%d2, H2⟩, ⟨%d3, H3⟩⟩
      iapply (sound_kernel0 c Set.univ (grid0.coords t) _ _ _ _ _ _ _ _ _ _ (iblk0 V c 0 t) (iblk0 V c 1 t) (iblk0 V c 2 t)
        ((dat0 V c).before 3 t d3) (acc0 V c (t.val - 1) (Nat.lt_of_le_of_lt (Nat.sub_le _ _) t.isLt)) (acc0 V c t.val t.isLt) (acc0_of_pos V c t hz)
        ((dat0 V c).before 3 t d3) (outNext0_idle hc1 _ _ _ _ _) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- The same after the last point (the grid is not empty). -/
theorem hout0 (c : Dev nD) : (dat0 V c).Φ (Fin.last cfg0.N) ⊢ Pipeline.ΦA spec0 c :=
  Phi_out0 V c _ (by rw [Fin.val_last, show cfg0.N = _ from N_0]; decide)

end Cert.KernelIdeal.Hand

end
-- ==== Proof.KI.R2.lean ====
import proofs.«403270_j28226525069939_3_alg».proof.Proof.Gen.KernelIdeal.Launch
import proofs.«403270_j28226525069939_3_alg».proof.Proof.Gen.KernelIdeal.Skeleton
import proofs.«403270_j28226525069939_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: a row block of `x` against the whole weight and bias, one output row block per grid point.

The weight and the bias have one block each (fetched once and found again at every later point); the
activation's row block and the output's row block move with the point. The body stores the output block whole,
as a function of the three input blocks. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body stores through: the whole output block. -/
abbrev r2_o : Rect S256x600 := Rect.unit (s := S256x600) ![0, 0] S256x600.size inb_S256x600_S256x600_0_0
abbrev r2_x : Rect S256x2048 := Rect.unit (s := S256x2048) ![0, 0] S256x2048.size inb_S256x2048_S256x2048_0_0
abbrev r2_W : Rect S600x2048 := Rect.unit (s := S600x2048) ![0, 0] S600x2048.size inb_S600x2048_S600x2048_0_0
abbrev r2_b : Rect S1x600 := Rect.unit (s := S1x600) ![0, 0] S1x600.size inb_S1x600_S1x600_0_0

/-- What the body leaves in the output block: the product-plus-bias payload of the three input blocks. -/
def out2_3 (x0 : Vec F S256x2048 .bf16) (x1 : Vec F S600x2048 .f32) (x2 : Vec F S1x600 .f32) : Vec F S256x600 .bf16 :=
  View.canon [⟨r2_o, k2_pay1 (View.ld x0 r2_x) (View.ld x1 r2_W) (View.ld x2 r2_b)⟩]

/-- The one store covers the block. -/
theorem cover2_3 (p0 : Vec F S256x600 .bf16) (y : S256x600.Idx) :
    ∃ pc ∈ ([⟨r2_o, p0⟩] : List (View.Piece (Elt F) S256x600 .bf16)), y ∈ pc.1.set :=
  View.cover_of_tiled [⟨r2_o, p0⟩] S256x600.size (by rfl) y

set_option maxHeartbeats 4000000 in
/-- The body on whole staging memrefs: the inputs stay, the output block ends at `out2_3` of the inputs. -/
theorem sound_kernel2 (c : Dev nD) (E : Set ℕ) (i : grid2.Coords) (arg1 : Memref sig .tc .vmem S256x2048 .bf16) (harg1 : arg1.IsWhole) (arg2 : Memref sig .tc .vmem S600x2048 .f32) (harg2 : arg2.IsWhole)
    (arg3 : Memref sig .tc .vmem S1x600 .f32) (harg3 : arg3.IsWhole) (arg4 : Memref sig .tc .vmem S256x600 .bf16) (harg4 : arg4.IsWhole)
    (x0 : Vec F S256x2048 .bf16) (x1 : Vec F S600x2048 .f32) (x2 : Vec F S1x600 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__kernel_linear_resident i arg1 harg1 arg2 harg2 arg3 harg3 arg4 harg4) K := by
  simp only [cc2__kernel_linear_resident_eq_skeleton]; unfold cc2__kernel_linear_resident_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as found; after the body each input buffer at its block, the output's at
    the payload of the three; the invariant is the scoped rest and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R6.lean ====
import proofs.«403270_j28226525069939_3_alg».proof.Proof.Gen.KernelIdeal.Launch
import proofs.«403270_j28226525069939_3_alg».proof.Proof.Gen.KernelIdeal.Skeleton
import proofs.«403270_j28226525069939_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: two fused layers on a row block of the activation.

Both weights and both bias rows have one block each (fetched once and found again at every later point); the
activation's row block and the output's row block move with the point. The body stores the output block whole,
as a function of the five input blocks: the second layer applied to the rectified first layer of the rectified
activation block. -/

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds the window's block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The whole-block rectangles the body loads and stores through. -/
abbrev r6_z : Rect S128x1800 := Rect.unit (s := S128x1800) ![0, 0] S128x1800.size inb_S128x1800_S128x1800_0_0
abbrev r6_Wh : Rect S1800x1800 := Rect.unit (s := S1800x1800) ![0, 0] S1800x1800.size inb_S1800x1800_S1800x1800_0_0
abbrev r6_bh : Rect S1x1800 := Rect.unit (s := S1x1800) ![0, 0] S1x1800.size inb_S1x1800_S1x1800_0_0
abbrev r6_We : Rect S600x1800 := Rect.unit (s := S600x1800) ![0, 0] S600x1800.size inb_S600x1800_S600x1800_0_0
abbrev r6_be : Rect S1x600 := Rect.unit (s := S1x600) ![0, 0] S1x600.size inb_S1x600_S1x600_0_0
abbrev r6_o : Rect S128x600 := Rect.unit (s := S128x600) ![0, 0] S128x600.size inb_S128x600_S128x600_0_0

/-- What the body leaves in the output block: the two-layer payload of the five input blocks. -/
def out6_5 (x0 : Vec F S128x1800 .bf16) (x1 : Vec F S1800x1800 .f32) (x2 : Vec F S1x1800 .f32) (x3 : Vec F S600x1800 .f32) (x4 : Vec F S1x600 .f32) : Vec F S128x600 .f32 :=
  View.canon [⟨r6_o, k6_pay1 (View.ld x0 r6_z) (View.ld x1 r6_Wh) (View.ld x2 r6_bh) (View.ld x3 r6_We) (View.ld x4 r6_be)⟩]

/-- The one store covers the block. -/
theorem cover6_5 (p0 : Vec F S128x600 .f32) (y : S128x600.Idx) :
    ∃ pc ∈ ([⟨r6_o, p0⟩] : List (View.Piece (Elt F) S128x600 .f32)), y ∈ pc.1.set :=
  View.cover_of_tiled [⟨r6_o, p0⟩] S128x600.size (by rfl) y

set_option maxHeartbeats 4000000 in
/-- The body on whole staging memrefs: the inputs stay, the output block ends at `out6_5` of the inputs. -/
theorem sound_kernel6 (c : Dev nD) (E : Set ℕ) (i : grid6.Coords) (arg1 : Memref sig .tc .vmem S128x1800 .bf16) (harg1 : arg1.IsWhole) (arg2 : Memref sig .tc .vmem S1800x1800 .f32) (harg2 : arg2.IsWhole)
    (arg3 : Memref sig .tc .vmem S1x1800 .f32) (harg3 : arg3.IsWhole) (arg4 : Memref sig .tc .vmem S600x1800 .f32) (harg4 : arg4.IsWhole)
    (arg5 : Memref sig .tc .vmem S1x600 .f32) (harg5 : arg5.IsWhole) (arg6 : Memref sig .tc .vmem S128x600 .f32) (harg6 : arg6.IsWhole)
    (x0 : Vec F S128x1800 .bf16) (x1 : Vec F S1800x1800 .f32) (x2 : Vec F S1x1800 .f32) (x3 : Vec F S600x1800 .f32) (x4 : Vec F S1x600 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E (cc6__kernel_fused_h_e i arg1 harg1 arg2 harg2 arg3 harg3 arg4 harg4 arg5 harg5 arg6 harg6) K := by
  simp only [cc6__kernel_fused_h_e_eq_skeleton]; unfold cc6__kernel_fused_h_e_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The region's proof data: the arrays as found; after the body each input buffer at its block, the output's at
    the payload of the five; the invariant is the scoped rest and the generator register, untouched; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
import proofs.«403270_j28226525069939_3_alg».proof.Proof.Gen.KernelIdeal.Launch
import proofs.«403270_j28226525069939_3_alg».proof.Proof.Gen.KernelIdeal.Skeleton
import proofs.«403270_j28226525069939_3_alg».proof.Proof.Gen.KernelIdeal.Points
import proofs.«403270_j28226525069939_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: the score block of one block of embeddings against all the padded labels.

The labels have one block (fetched once and found again at every later point); the embeddings' row block and the
output's column block move with the point. The body loads the embedding block once and, trip by trip, stores the
output block's sixteen-row slab `j` as the payload of the embedding block and the labels' slab `j`; after the eight
trips the slabs tile the output block, which is then one function of the two input blocks. -/

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds the window's block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The whole embedding block, as the body loads it. -/
abbrev r7_e : Rect S128x600 := Rect.unit (s := S128x600) ![0, 0] S128x600.size inb_S128x600_S128x600_0_0
/-- Trip `j`'s slab of label rows, -/
abbrev r7_l (j : Fin k7_t1_loop.trips) : Rect S128x600 := Rect.unit (s := S128x600) (k7_off1 j) S16x600.size (k7_off1_inb j)
/-- and its slab of output rows. -/
abbrev r7_o (j : Fin k7_t1_loop.trips) : Rect S128x128 := Rect.unit (s := S128x128) (k7_off2 j) S16x128.size (k7_off2_inb j)

/-- What trip `j` stores: over its output slab, the payload of the embedding value `v0` and the labels' slab `j`. -/
def piece7 (v0 : Vec F S128x600 .f32) (x1 : Vec F S128x600 .f32) (j : Fin k7_t1_loop.trips) : View.Piece (Elt F) S128x128 .f32 :=
  ⟨r7_o j, k7_pay1 v0 (View.ld x1 (r7_l j))⟩

/-- The stores of the trips before `n`, last first. -/
def pcs7 (v0 : Vec F S128x600 .f32) (x1 : Vec F S128x600 .f32) : ℕ → List (View.Piece (Elt F) S128x128 .f32)
  | 0 => []
  | n + 1 => if h : n < k7_t1_loop.trips then piece7 v0 x1 ⟨n, h⟩ :: pcs7 v0 x1 n else pcs7 v0 x1 n

/-- What the body leaves in the output block: the eight slabs read back as one block. -/
def out7 (x0 : Vec F S128x600 .f32) (x1 : Vec F S128x600 .f32) : Vec F S128x128 .f32 :=
  View.canon (pcs7 (View.ld x0 r7_e) x1 k7_t1_loop.trips)

/-- One trip of the loop stores one piece: its output slab, at the payload of the labels' slab it loaded. -/
theorem tripL7_eq (c : Dev nD) (i : grid7.Coords) (arg1 : Memref sig .tc .vmem S128x600 .f32) (harg1 : arg1.IsWhole) (arg2 : Memref sig .tc .vmem S128x600 .f32) (harg2 : arg2.IsWhole)
    (arg3 : Memref sig .tc .vmem S128x128 .f32) (harg3 : arg3.IsWhole)
    (v0 : Vec F S128x600 .f32) (X : BufTy.Contents (Elt F) arg2.view.ty) (k : Fin k7_t1_loop.trips) :
    tripL_k7_t1 (F := F) Variants.none c none i arg1 harg1 arg2 harg2 arg3 harg3 v0 X k
      = [⟨r7_o k, k7_pay1 v0 (arg2.view.readAt (Elt F) (r7_l k).toLoadRect X)⟩] := by
  unfold tripL_k7_t1 trip_k7_t1
  rfl

/-- So the loop's stores before trip `n`, over a labels buffer that reads `x1`, are the pieces `pcs7`. -/
theorem pb7_eq (c : Dev nD) (i : grid7.Coords) (arg1 : Memref sig .tc .vmem S128x600 .f32) (harg1 : arg1.IsWhole) (arg2 : Memref sig .tc .vmem S128x600 .f32) (harg2 : arg2.IsWhole)
    (arg3 : Memref sig .tc .vmem S128x128 .f32) (harg3 : arg3.IsWhole)
    (v0 : Vec F S128x600 .f32) (x1 : Vec F S128x600 .f32) : ∀ n : ℕ,
    pb_k7_t1 (F := F) Variants.none c none i arg1 harg1 arg2 harg2 arg3 harg3 v0 (harg2.unread x1) n = pcs7 v0 x1 n
  | 0 => rfl
  | n + 1 => by
    rw [pb_k7_t1.eq_2, pcs7]
    unfold pb_k7_t1Step
    by_cases h : n < k7_t1_loop.trips
    · rw [dif_pos h, dif_pos h, tripL7_eq, pb7_eq c i arg1 harg1 arg2 harg2 arg3 harg3 v0 x1 n, View.readAt_eq_ld, harg2.read_unread]
      rfl
    · rw [dif_neg h, dif_neg h, pb7_eq c i arg1 harg1 arg2 harg2 arg3 harg3 v0 x1 n]

/-- The eight slabs tile the output block. -/
theorem cover7 (v0 : Vec F S128x600 .f32) (x1 : Vec F S128x600 .f32) (y : S128x128.Idx) :
    ∃ pc ∈ pcs7 v0 x1 k7_t1_loop.trips, y ∈ pc.1.set :=
  View.cover_of_tiledL (pcs7 v0 x1 k7_t1_loop.trips) S16x128.size (by sl_kernel_rfl) y

set_option maxHeartbeats 4000000 in
/-- The body on whole staging memrefs: the inputs stay, the output block ends at `out7` of the inputs. -/
theorem sound_kernel7 (c : Dev nD) (E : Set ℕ) (i : grid7.Coords) (arg1 : Memref sig .tc .vmem S128x600 .f32) (harg1 : arg1.IsWhole) (arg2 : Memref sig .tc .vmem S128x600 .f32) (harg2 : arg2.IsWhole)
    (arg3 : Memref sig .tc .vmem S128x128 .f32) (harg3 : arg3.IsWhole)
    (x0 : Vec F S128x600 .f32) (x1 : Vec F S128x600 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out7 x0 x1)) -∗ K ⟨⟩))
      ⊢ wp frame (wpE (defs₀ (F := F)) Variants.none c none) E (cc7__kernel_posim i arg1 harg1 arg2 harg2 arg3 harg3) K := by
  simp only [cc7__kernel_posim_eq_skeleton]; unfold cc7__kernel_posim_skel
  unfold owns
  iintro ⟨⟨%f0, %hf0, H0⟩, ⟨%f1, %hf1, H1⟩, ⟨%d3, %f3, -, H3⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H3
  ipureintro
  rw [pb7_eq, View.readAt_eq_ld, harg1.read_unread]
  exact View.read_writes_eq_canon _ _ _ (cover7 _ _)

/-- The region's proof data: the arrays as found; after the body each input buffer at its block, the output's at
    the eight slabs of the two; the invariant is the scoped rest and the generator register, untouched; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out7 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Seg2.lean ====
import proofs.«403270_j28226525069939_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # Region 2 as an item of the program

The region is entered with every unscoped buffer at the boundary's contents and left with them at the next boundary's:
its arrays are split out of the unscoped buffers and put back, its output array at the fold of its blocks, every other
buffer untouched; the generator register goes into the region's invariant and comes out; nothing is owed. -/

/-- After region 2 each of its arrays holds what the write-backs leave: an input array as found, the output array the
    fold of its blocks. -/
theorem hF2 (c : Dev nD) (w : Fin cfg2.W) :
    (dat2 (X2 m) c).arrAt w cfg2.N = (fun b : Ref sig .tc => U6 m c b) (Pipeline.arrRef spec2 w) := by
  by_cases hw : w = ⟨3, by decide⟩
  · subst hw; exact (Function.update_self (f := U5 m c) ..).symm
  · have hin : (cfg2.win w).isOut = false :=
      (by decide : ∀ w : Fin cfg2.W, w ≠ ⟨3, by decide⟩ → (cfg2.win w).isOut = false) w hw
    have hne : Pipeline.arrRef spec2 w ≠ main_v5 :=
      (by decide : ∀ w : Fin cfg2.W, w ≠ ⟨3, by decide⟩ → Pipeline.arrRef spec2 w ≠ main_v5) w hw
    exact ((dat2 (X2 m) c).arrAt_in w hin _).trans ((A_eq2 (X2 m) c w).trans
      (Function.update_of_ne (f := U5 m c) (StableHlo.devRef_ne_of_ne hne) _).symm)

/-- Every buffer that is none of the region's arrays holds what it held. -/
theorem hrest2 (c : Dev nD) : ∀ b : Ref sig .tc, b ∉ Finset.univ.image (Pipeline.arrRef spec2) →
    (fun b : Ref sig .tc => U6 m c b) b = X2 m c b := fun b hb =>
  Function.update_of_ne (f := U5 m c)
    (StableHlo.devRef_ne_of_ne fun e => hb (Finset.mem_image.mpr ⟨⟨3, by decide⟩, Finset.mem_univ _, e.symm⟩)) _

set_option backward.isDefEq.respectTransparency.types false in
/-- Region 2 over the thread state "every unscoped buffer at the boundary's contents, the generator register at some
    state, nothing owed". -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X2 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (X2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m 2 c).Φ 0 := BI.Entails.refl _
    unfold Pipeline.ΦA at h
    iintro ⟨Hp, -, Hr⟩
    iapply h
    isplitl [Hr]; · iexact Hr
    iexact Hp
  hout c := by
    rw [Pipeline.ownSems0_none]
    have h : (pdats m 2 c).Φ (Fin.last _) ⊢ (Pipeline.ΦA spec2 c : sProp 𝕄) := BI.Entails.refl _
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (X2 m c) (fun b : Ref sig .tc => U6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunMain.lean ====
import proofs.«403270_j28226525069939_3_alg».proof.Proof.KI.RunCond
import proofs.«403270_j28226525069939_3_alg».proof.Proof.KI.Seg0
import proofs.«403270_j28226525069939_3_alg».proof.Proof.KI.Seg1
import proofs.«403270_j28226525069939_3_alg».proof.Proof.KI.Seg2
import proofs.«403270_j28226525069939_3_alg».proof.Proof.KI.Seg3
import proofs.«403270_j28226525069939_3_alg».proof.Proof.KI.Seg4
import proofs.«403270_j28226525069939_3_alg».proof.Proof.KI.Seg5
import proofs.«403270_j28226525069939_3_alg».proof.Proof.KI.Seg6
import proofs.«403270_j28226525069939_3_alg».proof.Proof.KI.Seg7
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! # The run of the whole program -/

/-- The launch's ghost state: the pipelines' cells and tokens, nothing else. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands each core beside its buffers becomes the state that rides along: the generator register at its
    launch state, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- THE RUN, at any float instance: every weakly fair execution of the program terminates, nothing faulting; the result
    buffer holds what the fold of the eight regions and the host stretches leaves in it; every argument is as launched. -/
theorem run_main : θ_run defs (onTc (τ := τ) (main (F := F))) ⟨m, fun _ => 0, ρ⟩ (fun r => ∀ c : Dev nD,
      r.2.mem ((c.tc : Thread nD τ).loc main_v29) = U24 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  have h := run_cond (F := F) emb₁ () 𝒱₀ L lv (fun _ _ => rfl) m ρ (outsH m) (pdats m) (0 : Dev nD → CellTallies nD τ sig Unit)
    (fun _ => (BI.emp : sProp 𝕄)) (initOf (Pipeline.cells cfgs cellOf_inj) (Pipeline.launchToks cfgs cellOf_inj)) hu0
    (fun _ c => R (F := F) c) (hE0 ρ) (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V16_eq]; exact .rfl) (fun c => by rw [V17_eq]; exact .rfl)
  exact (θ_run defs _ _).mono (fun r hr c => by rw [← V24_eq]; exact hr c) h

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r hr c => (hr c).2) (run_main m ρ)

end Cert.KernelIdeal.Hand

end
-- ==== Proof.KI.Glue.lean ====
import proofs.«403270_j28226525069939_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable {F : FTy → Type} [FloatOps F]

/-! # What the arrays hold when each region is entered

Between two regions the program only reshapes a bias vector into a one-row matrix, lays three matrices side by
side, and pads a matrix with rows of zeros. Each statement below reads one array, at the moment a region is
entered, back to the launch memory `m` or to what an earlier region left (`outs`). -/

variable (m : (ℓ : Loc nD τ sig) → Buf (Elt F) ℓ) (outs : Outs (F := F))

/-! ## An array nothing has written so far still holds its launch contents -/

theorem keep1 (c : Dev nD) (r : Ref sig .tc) (h0 : r ∉ hostOps0_W) : V1 m c r = m ((c : Thread nD τ).loc r) :=
  (V1_of m c r h0).trans rfl
theorem keep2 (c : Dev nD) (r : Ref sig .tc) (h0 : r ∉ hostOps0_W) (h1 : r ∉ ([main_v1] : List (Ref sig .tc))) :
    V2 m outs c r = m ((c : Thread nD τ).loc r) :=
  (V2_of m outs c r h1).trans (keep1 m c r h0)
theorem keep3 (c : Dev nD) (r : Ref sig .tc) (h0 : r ∉ hostOps0_W) (h1 : r ∉ ([main_v1] : List (Ref sig .tc)))
    (h2 : r ∉ hostOps1_W) : V3 m outs c r = m ((c : Thread nD τ).loc r) :=
  (V3_of m outs c r h2).trans (keep2 m outs c r h0 h1)

theorem keep4 (c : Dev nD) (r : Ref sig .tc) (h0 : r ∉ hostOps0_W) (h1 : r ∉ ([main_v1] : List (Ref sig .tc)))
    (h2 : r ∉ hostOps1_W) (h3 : r ∉ ([main_v3] : List (Ref sig .tc))) : V4 m outs c r = m ((c : Thread nD τ).loc r) :=
  (V4_of m outs c r h3).trans (keep3 m outs c r h0 h1 h2)
theorem keep5 (c : Dev nD) (r : Ref sig .tc) (h0 : r ∉ hostOps0_W) (h1 : r ∉ ([main_v1] : List (Ref sig .tc)))
    (h2 : r ∉ hostOps1_W) (h3 : r ∉ ([main_v3] : List (Ref sig .tc))) (h4 : r ∉ hostOps2_W) :
    V5 m outs c r = m ((c : Thread nD τ).loc r) :=
  (V5_of m outs c r h4).trans (keep4 m outs c r h0 h1 h2 h3)
theorem keep6 (c : Dev nD) (r : Ref sig .tc) (h0 : r ∉ hostOps0_W) (h1 : r ∉ ([main_v1] : List (Ref sig .tc)))
    (h2 : r ∉ hostOps1_W) (h3 : r ∉ ([main_v3] : List (Ref sig .tc))) (h4 : r ∉ hostOps2_W)
    (h5 : r ∉ ([main_v5] : List (Ref sig .tc))) : V6 m outs c r = m ((c : Thread nD τ).loc r) :=
  (V6_of m outs c r h5).trans (keep5 m outs c r h0 h1 h2 h3 h4)
theorem keep7 (c : Dev nD) (r : Ref sig .tc) (h0 : r ∉ hostOps0_W) (h1 : r ∉ ([main_v1] : List (Ref sig .tc)))
    (h2 : r ∉ hostOps1_W) (h3 : r ∉ ([main_v3] : List (Ref sig .tc))) (h4 : r ∉ hostOps2_W)
    (h5 : r ∉ ([main_v5] : List (Ref sig .tc))) (h6 : r ∉ hostOps3_W) : V7 m outs c r = m ((c : Thread nD τ).loc r) :=
  (V7_of m outs c r h6).trans (keep6 m outs c r h0 h1 h2 h3 h4 h5)
theorem keep8 (c : Dev nD) (r : Ref sig .tc) (h0 : r ∉ hostOps0_W) (h1 : r ∉ ([main_v1] : List (Ref sig .tc)))
    (h2 : r ∉ hostOps1_W) (h3 : r ∉ ([main_v3] : List (Ref sig .tc))) (h4 : r ∉ hostOps2_W)
    (h5 : r ∉ ([main_v5] : List (Ref sig .tc))) (h6 : r ∉ hostOps3_W) (h7 : r ∉ ([main_v7] : List (Ref sig .tc))) :
    V8 m outs c r = m ((c : Thread nD τ).loc r) :=
  (V8_of m outs c r h7).trans (keep7 m outs c r h0 h1 h2 h3 h4 h5 h6)
theorem keep9 (c : Dev nD) (r : Ref sig .tc) (h0 : r ∉ hostOps0_W) (h1 : r ∉ ([main_v1] : List (Ref sig .tc)))
    (h2 : r ∉ hostOps1_W) (h3 : r ∉ ([main_v3] : List (Ref sig .tc))) (h4 : r ∉ hostOps2_W)
    (h5 : r ∉ ([main_v5] : List (Ref sig .tc))) (h6 : r ∉ hostOps3_W) (h7 : r ∉ ([main_v7] : List (Ref sig .tc)))
    (h8 : r ∉ hostOps4_W) : V9 m outs c r = m ((c : Thread nD τ).loc r) :=
  (V9_of m outs c r h8).trans (keep8 m outs c r h0 h1 h2 h3 h4 h5 h6 h7)
theorem keep10 (c : Dev nD) (r : Ref sig .tc) (h0 : r ∉ hostOps0_W) (h1 : r ∉ ([main_v1] : List (Ref sig .tc)))
    (h2 : r ∉ hostOps1_W) (h3 : r ∉ ([main_v3] : List (Ref sig .tc))) (h4 : r ∉ hostOps2_W)
    (h5 : r ∉ ([main_v5] : List (Ref sig .tc))) (h6 : r ∉ hostOps3_W) (h7 : r ∉ ([main_v7] : List (Ref sig .tc)))
    (h8 : r ∉ hostOps4_W) (h9 : r ∉ ([main_v9] : List (Ref sig .tc))) : V10 m outs c r = m ((c : Thread nD τ).loc r) :=
  (V10_of m outs c r h9).trans (keep9 m outs c r h0 h1 h2 h3 h4 h5 h6 h7 h8)
theorem keep11 (c : Dev nD) (r : Ref sig .tc) (h0 : r ∉ hostOps0_W) (h1 : r ∉ ([main_v1] : List (Ref sig .tc)))
    (h2 : r ∉ hostOps1_W) (h3 : r ∉ ([main_v3] : List (Ref sig .tc))) (h4 : r ∉ hostOps2_W)
    (h5 : r ∉ ([main_v5] : List (Ref sig .tc))) (h6 : r ∉ hostOps3_W) (h7 : r ∉ ([main_v7] : List (Ref sig .tc)))
    (h8 : r ∉ hostOps4_W) (h9 : r ∉ ([main_v9] : List (Ref sig .tc))) (h10 : r ∉ hostOps5_W) :
    V11 m outs c r = m ((c : Thread nD τ).loc r) :=
  (V11_of m outs c r h10).trans (keep10 m outs c r h0 h1 h2 h3 h4 h5 h6 h7 h8 h9)

/-! ## Region 0 -/

theorem glue0_arg0 (c : Dev nD) : V1 m c main_arg0 = m ((c : Thread nD τ).loc main_arg0) := keep1 m c main_arg0 (by decide)
theorem glue0_arg4 (c : Dev nD) : V1 m c main_arg4 = m ((c : Thread nD τ).loc main_arg4) := keep1 m c main_arg4 (by decide)

/-- The bias as a one-row matrix: entry `(0, a)` is the vector's entry `a`. -/
theorem glue0_v0 (c : Dev nD) (a : Fin 2048) :
    (V1 m c main_v0 : S1x2048.Idx → Elt F .f32) (ix2 0 a)
      = (m ((c : Thread nD τ).loc main_arg5) : S2048.Idx → Elt F .f32) (ix1 a) := by
  have e : (V1 m c main_v0 : S1x2048.Idx → Elt F .f32)
      = shapeCast S1x2048 (V0 m c main_arg5 : S2048.Idx → Elt F .f32) shapeCasts_S2048_S1x2048 := by
    show StableHlo.after hostOps0 _ (Proc.devRef .tc main_v0) = _
    after_results
    rfl
  exact (congrFun e _).trans (shapeCast_a_1a_apply _ _ 0 a)

/-! ## Region 1 -/

theorem glue1_arg0 (c : Dev nD) : V3 m outs c main_arg0 = m ((c : Thread nD τ).loc main_arg0) :=
  keep3 m outs c main_arg0 (by decide) (by decide) (by decide)
theorem glue1_arg4 (c : Dev nD) : V3 m outs c main_arg4 = m ((c : Thread nD τ).loc main_arg4) :=
  keep3 m outs c main_arg4 (by decide) (by decide) (by decide)

theorem glue1_v2 (c : Dev nD) (a : Fin 2048) :
    (V3 m outs c main_v2 : S1x2048.Idx → Elt F .f32) (ix2 0 a)
      = (m ((c : Thread nD τ).loc main_arg5) : S2048.Idx → Elt F .f32) (ix1 a) := by
  have e : (V3 m outs c main_v2 : S1x2048.Idx → Elt F .f32)
      = shapeCast S1x2048 (V2 m outs c main_arg5 : S2048.Idx → Elt F .f32) shapeCasts_S2048_S1x2048 := by
    show StableHlo.after hostOps1 _ (Proc.devRef .tc main_v2) = _
    after_results
    rfl
  exact (congrFun e _).trans ((shapeCast_a_1a_apply _ _ 0 a).trans
    (congrFun (keep2 m outs c main_arg5 (by decide) (by decide)) _))

/-! ## Region 2 -/

/-- Region 0's output, untouched since that region left it. -/
theorem glue2_v1 (c : Dev nD) : V5 m outs c main_v1 = outs 2 main_v1 c :=
  (V5_of m outs c main_v1 (by decide)).trans <| (V4_of m outs c main_v1 (by decide)).trans <|
    (V3_of m outs c main_v1 (by decide)).trans (Function.update_self ..)
theorem glue2_arg6 (c : Dev nD) : V5 m outs c main_arg6 = m ((c : Thread nD τ).loc main_arg6) :=
  keep5 m outs c main_arg6 (by decide) (by decide) (by decide) (by decide) (by decide)

theorem glue2_v4 (c : Dev nD) (a : Fin 600) :
    (V5 m outs c main_v4 : S1x600.Idx → Elt F .f32) (ix2 0 a)
      = (m ((c : Thread nD τ).loc main_arg7) : S600.Idx → Elt F .f32) (ix1 a) := by
  have e : (V5 m outs c main_v4 : S1x600.Idx → Elt F .f32)
      = shapeCast S1x600 (V4 m outs c main_arg7 : S600.Idx → Elt F .f32) shapeCasts_S600_S1x600 := by
    show StableHlo.after hostOps2 _ (Proc.devRef .tc main_v4) = _
    after_results
    rfl
  exact (congrFun e _).trans ((shapeCast_a_1a_apply _ _ 0 a).trans
    (congrFun (keep4 m outs c main_arg7 (by decide) (by decide) (by decide) (by decide)) _))

/-! ## Region 3 -/

/-- Region 1's output, untouched since that region left it. -/
theorem glue3_v3 (c : Dev nD) : V7 m outs c main_v3 = outs 4 main_v3 c :=
  (V7_of m outs c main_v3 (by decide)).trans <| (V6_of m outs c main_v3 (by decide)).trans <|
    (V5_of m outs c main_v3 (by decide)).trans (Function.update_self ..)
theorem glue3_arg6 (c : Dev nD) : V7 m outs c main_arg6 = m ((c : Thread nD τ).loc main_arg6) :=
  keep7 m outs c main_arg6 (by decide) (by decide) (by decide) (by decide) (by decide) (by decide) (by decide)

theorem glue3_v6 (c : Dev nD) (a : Fin 600) :
    (V7 m outs c main_v6 : S1x600.Idx → Elt F .f32) (ix2 0 a)
      = (m ((c : Thread nD τ).loc main_arg7) : S600.Idx → Elt F .f32) (ix1 a) := by
  have e : (V7 m outs c main_v6 : S1x600.Idx → Elt F .f32)
      = shapeCast S1x600 (V6 m outs c main_arg7 : S600.Idx → Elt F .f32) shapeCasts_S600_S1x600 := by
    show StableHlo.after hostOps3 _ (Proc.devRef .tc main_v6) = _
    after_results
    rfl
  exact (congrFun e _).trans ((shapeCast_a_1a_apply _ _ 0 a).trans
    (congrFun (keep6 m outs c main_arg7 (by decide) (by decide) (by decide) (by decide) (by decide) (by decide)) _))

/-! ## Region 4 -/

theorem glue4_arg0 (c : Dev nD) : V9 m outs c main_arg0 = m ((c : Thread nD τ).loc main_arg0) :=
  keep9 m outs c main_arg0 (by decide) (by decide) (by decide) (by decide) (by decide) (by decide) (by decide) (by decide)
    (by decide)
theorem glue4_arg8 (c : Dev nD) : V9 m outs c main_arg8 = m ((c : Thread nD τ).loc main_arg8) :=
  keep9 m outs c main_arg8 (by decide) (by decide) (by decide) (by decide) (by decide) (by decide) (by decide) (by decide)
    (by decide)

theorem glue4_v8 (c : Dev nD) (a : Fin 4096) :
    (V9 m outs c main_v8 : S1x4096.Idx → Elt F .f32) (ix2 0 a)
      = (m ((c : Thread nD τ).loc main_arg9) : S4096.Idx → Elt F .f32) (ix1 a) := by
  have e : (V9 m outs c main_v8 : S1x4096.Idx → Elt F .f32)
      = shapeCast S1x4096 (V8 m outs c main_arg9 : S4096.Idx → Elt F .f32) shapeCasts_S4096_S1x4096 := by
    show StableHlo.after hostOps4 _ (Proc.devRef .tc main_v8) = _
    after_results
    rfl
  exact (congrFun e _).trans ((shapeCast_a_1a_apply _ _ 0 a).trans
    (congrFun (keep8 m outs c main_arg9 (by decide) (by decide) (by decide) (by decide) (by decide) (by decide) (by decide)
      (by decide)) _))

/-! ## Region 5 -/

/-- Region 4's output, untouched since that region left it. -/
theorem glue5_v9 (c : Dev nD) : V11 m outs c main_v9 = outs 10 main_v9 c :=
  (V11_of m outs c main_v9 (by decide)).trans (Function.update_self ..)
theorem glue5_arg10 (c : Dev nD) : V11 m outs c main_arg10 = m ((c : Thread nD τ).loc main_arg10) :=
  keep11 m outs c main_arg10 (by decide) (by decide) (by decide) (by decide) (by decide) (by decide) (by decide) (by decide)
    (by decide) (by decide) (by decide)

theorem glue5_v10 (c : Dev nD) (a : Fin 600) :
    (V11 m outs c main_v10 : S1x600.Idx → Elt F .f32) (ix2 0 a)
      = (m ((c : Thread nD τ).loc main_arg11) : S600.Idx → Elt F .f32) (ix1 a) := by
  have e : (V11 m outs c main_v10 : S1x600.Idx → Elt F .f32)
      = shapeCast S1x600 (V10 m outs c main_arg11 : S600.Idx → Elt F .f32) shapeCasts_S600_S1x600 := by
    show StableHlo.after hostOps5 _ (Proc.devRef .tc main_v10) = _
    after_results
    rfl
  exact (congrFun e _).trans ((shapeCast_a_1a_apply _ _ 0 a).trans
    (congrFun (keep10 m outs c main_arg11 (by decide) (by decide) (by decide) (by decide) (by decide) (by decide) (by decide)
      (by decide) (by decide) (by decide)) _))

end Cert.KernelIdeal.Hand

end
-- ==== Proof.Spec.lean ====
import Idealize.ShloMosaic.PureOps.Ideal
import Idealize.ShloMosaic.Lib.ValueIdx

/-! # The mathematics both programs compute, over the extended reals

Matrices are curried functions of their two coordinates. A layer multiplies rows of the activation against rows of
the weight (the weight is stored output-major, so `y = x·Wᵀ + b`). The scores are the negated Euclidean norms of the
positive parts of label-minus-embedding differences. -/

noncomputable section

namespace Cert.Spec

open Idealize.ShloMosaic
open scoped BigOperators

/-- `y = X·Wᵀ + b`: row `p` of `X` against row `q` of `W`, plus the bias at `q`. -/
def lin {M K N : ℕ} (X : Fin M → Fin K → EReal) (W : Fin N → Fin K → EReal) (b : Fin N → EReal) : Fin M → Fin N → EReal :=
  fun p q => (∑ k : Fin K, X p k * W q k) + b q

/-- `h = relu(relu(X)·Wᵀ + b)`: the positive part of the activation goes in, the positive part comes out. -/
def hidden {M K N : ℕ} (X : Fin M → Fin K → EReal) (W : Fin N → Fin K → EReal) (b : Fin N → EReal) : Fin M → Fin N → EReal :=
  fun p q => max ((∑ k : Fin K, max (X p k) 0 * W q k) + b q) 0

/-- A band of `K` consecutive columns of `X` starting at column `off`. -/
def cols {M C : ℕ} (K off : ℕ) (h : off + K ≤ C) (X : Fin M → Fin C → EReal) : Fin M → Fin K → EReal :=
  fun p k => X p ⟨off + k.val, by have := k.isLt; omega⟩

/-- Three equal-width matrices side by side. -/
def cat3 {M N : ℕ} (A B C : Fin M → Fin N → EReal) : Fin M → Fin (3 * N) → EReal :=
  fun p j => if h : j.val < N then A p ⟨j.val, h⟩
    else if h2 : j.val < 2 * N then B p ⟨j.val - N, by omega⟩
    else C p ⟨j.val - 2 * N, by have := j.isLt; omega⟩

/-- The partial-order score of label row `v` against embedding row `b`:
    minus the root of the sum of squares of the positive parts of `L v d - E b d`. -/
def score {V B D : ℕ} (L : Fin V → Fin D → EReal) (E : Fin B → Fin D → EReal) : Fin V → Fin B → EReal :=
  fun v b => -(Ideal.sqrt (∑ d : Fin D, max (L v d - E b d) 0 * max (L v d - E b d) 0))

/-- The embedding of every sample: the three towers, side by side, through the last two layers. -/
def emb (x : Fin 1024 → Fin 12288 → EReal)
    (Wh1 : Fin 2048 → Fin 4096 → EReal) (bh1 : Fin 2048 → EReal) (We1 : Fin 600 → Fin 2048 → EReal) (be1 : Fin 600 → EReal)
    (Wh2 : Fin 4096 → Fin 12288 → EReal) (bh2 : Fin 4096 → EReal) (We2 : Fin 600 → Fin 4096 → EReal) (be2 : Fin 600 → EReal)
    (Wh : Fin 1800 → Fin 1800 → EReal) (bh : Fin 1800 → EReal) (We : Fin 600 → Fin 1800 → EReal) (be : Fin 600 → EReal) :
    Fin 1024 → Fin 600 → EReal :=
  lin (hidden (cat3 (N := 600)
      (lin (hidden (cols 4096 0 (by decide) x) Wh1 bh1) We1 be1)
      (lin (hidden x Wh2 bh2) We2 be2)
      (lin (hidden (cols 4096 8192 (by decide) x) Wh1 bh1) We1 be1)) Wh bh) We be

/-- The scores returned for every sample: column 0 the sample's positive label, columns 1 … 128 its negatives. -/
def result (E : Fin 1024 → Fin 600 → EReal) (L : Fin 100 → Fin 600 → EReal) (pl : Fin 1024 → Fin 100)
    (nl : Fin 1024 → Fin 128 → Fin 100) : Fin 1024 → Fin 129 → EReal :=
  fun p j => if h : j.val = 0 then score L E (pl p) p
    else score L E (nl p ⟨j.val - 1, by have := j.isLt; omega⟩) p

end Cert.Spec

end
-- ==== Proof.KI.Glue67.lean ====
import proofs.«403270_j28226525069939_3_alg».proof.Proof.Gen.KernelIdeal.Regions
import proofs.«403270_j28226525069939_3_alg».proof.Proof.Spec
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable {F : FTy → Type} [FloatOps F]

/-! # What the arrays of the last two regions hold when each is entered

Before the fused two-layer region the program lays three matrices side by side along the columns and turns two bias
vectors into one-row matrices; before the score region it pads the label matrix with rows of zeros up to 128 rows.
Each statement below reads one array, at the moment its region is entered, back to the launch memory `m` or to what
an earlier region left (`outs`). -/

section AnyFloat

variable (m : (ℓ : Loc nD τ sig) → Buf (Elt F) ℓ) (outs : Outs (F := F))

local macro "dd" : term => `(by decide)

/-! ## Arrays nothing has written yet, and arrays an earlier region left -/

/-- A reference that no host operation and no region before the side-by-side step writes still holds its launch
    contents. -/
theorem g67_keep12 (c : Dev nD) (r : Ref sig .tc) (h0 : r ∉ hostOps0_W) (h1 : r ∉ ([main_v1] : List (Ref sig .tc)))
    (h2 : r ∉ hostOps1_W) (h3 : r ∉ ([main_v3] : List (Ref sig .tc))) (h4 : r ∉ hostOps2_W)
    (h5 : r ∉ ([main_v5] : List (Ref sig .tc))) (h6 : r ∉ hostOps3_W) (h7 : r ∉ ([main_v7] : List (Ref sig .tc)))
    (h8 : r ∉ hostOps4_W) (h9 : r ∉ ([main_v9] : List (Ref sig .tc))) (h10 : r ∉ hostOps5_W)
    (h11 : r ∉ ([main_v11] : List (Ref sig .tc))) :
    V12 m outs c r = m ((c : Thread nD τ).loc r) :=
  (V12_of m outs c r h11).trans <| (V11_of m outs c r h10).trans <| (V10_of m outs c r h9).trans <|
  (V9_of m outs c r h8).trans <| (V8_of m outs c r h7).trans <| (V7_of m outs c r h6).trans <|
  (V6_of m outs c r h5).trans <| (V5_of m outs c r h4).trans <| (V4_of m outs c r h3).trans <|
  (V3_of m outs c r h2).trans <| (V2_of m outs c r h1).trans <| (V1_of m c r h0).trans rfl

/-- The first tower's output is still what its region left. -/
theorem g67_v5 (c : Dev nD) : V12 m outs c main_v5 = outs 6 main_v5 c :=
  (V12_of m outs c main_v5 dd).trans <| (V11_of m outs c main_v5 dd).trans <| (V10_of m outs c main_v5 dd).trans <|
  (V9_of m outs c main_v5 dd).trans <| (V8_of m outs c main_v5 dd).trans <| (V7_of m outs c main_v5 dd).trans <|
  Function.update_self _ _ _

/-- The third tower's output is still what its region left. -/
theorem g67_v7 (c : Dev nD) : V12 m outs c main_v7 = outs 8 main_v7 c :=
  (V12_of m outs c main_v7 dd).trans <| (V11_of m outs c main_v7 dd).trans <| (V10_of m outs c main_v7 dd).trans <|
  (V9_of m outs c main_v7 dd).trans <| Function.update_self _ _ _

/-- The second tower's output is what its region has just left. -/
theorem g67_v11 (c : Dev nD) : V12 m outs c main_v11 = outs 12 main_v11 c :=
  Function.update_self _ _ _

/-! ## Region 6 -/

theorem glue6_arg12 (c : Dev nD) : V13 m outs c main_arg12 = m ((c : Thread nD τ).loc main_arg12) :=
  (V13_of m outs c main_arg12 dd).trans (g67_keep12 m outs c main_arg12 dd dd dd dd dd dd dd dd dd dd dd dd)
theorem glue6_arg14 (c : Dev nD) : V13 m outs c main_arg14 = m ((c : Thread nD τ).loc main_arg14) :=
  (V13_of m outs c main_arg14 dd).trans (g67_keep12 m outs c main_arg14 dd dd dd dd dd dd dd dd dd dd dd dd)

/-- The hidden bias as a one-row matrix: entry `(0, a)` is the vector's entry `a`. -/
theorem glue6_v13 (c : Dev nD) (a : Fin 1800) :
    (V13 m outs c main_v13 : S1x1800.Idx → Elt F .f32) (ix2 0 a)
      = (m ((c : Thread nD τ).loc main_arg13) : S1800.Idx → Elt F .f32) (ix1 a) := by
  have e : (V13 m outs c main_v13 : S1x1800.Idx → Elt F .f32)
      = shapeCast S1x1800 (V12 m outs c main_arg13 : S1800.Idx → Elt F .f32) shapeCasts_S1800_S1x1800 := by
    show StableHlo.after hostOps6 _ (Proc.devRef .tc main_v13) = _
    after_results
    rfl
  exact (congrFun e _).trans ((shapeCast_a_1a_apply _ _ 0 a).trans
    (congrFun (g67_keep12 m outs c main_arg13 dd dd dd dd dd dd dd dd dd dd dd dd) _))

/-- The output bias as a one-row matrix: entry `(0, a)` is the vector's entry `a`. -/
theorem glue6_v14 (c : Dev nD) (a : Fin 600) :
    (V13 m outs c main_v14 : S1x600.Idx → Elt F .f32) (ix2 0 a)
      = (m ((c : Thread nD τ).loc main_arg15) : S600.Idx → Elt F .f32) (ix1 a) := by
  have e : (V13 m outs c main_v14 : S1x600.Idx → Elt F .f32)
      = shapeCast S1x600 (V12 m outs c main_arg15 : S600.Idx → Elt F .f32) shapeCasts_S600_S1x600 := by
    show StableHlo.after hostOps6 _ (Proc.devRef .tc main_v14) = _
    after_results
    rfl
  exact (congrFun e _).trans ((shapeCast_a_1a_apply _ _ 0 a).trans
    (congrFun (g67_keep12 m outs c main_arg15 dd dd dd dd dd dd dd dd dd dd dd dd) _))

/-- The array the fused region reads is the three towers' outputs laid side by side along the columns. -/
theorem g67_v12_eq (c : Dev nD) :
    (V13 m outs c main_v12 : S1024x1800.Idx → Elt F .bf16)
      = concatenate S1024x1800 1 [⟨S1024x600, (outs 6 main_v5 c : S1024x600.Idx → Elt F .bf16)⟩,
          ⟨S1024x600, (outs 12 main_v11 c : S1024x600.Idx → Elt F .bf16)⟩,
          ⟨S1024x600, (outs 8 main_v7 c : S1024x600.Idx → Elt F .bf16)⟩]
          concatenates_S1024x600_S1024x600_S1024x600_S1024x1800_d1 := by
  have e : (V13 m outs c main_v12 : S1024x1800.Idx → Elt F .bf16)
      = concatenate S1024x1800 1 [⟨S1024x600, (V12 m outs c main_v5 : S1024x600.Idx → Elt F .bf16)⟩,
          ⟨S1024x600, (V12 m outs c main_v11 : S1024x600.Idx → Elt F .bf16)⟩,
          ⟨S1024x600, (V12 m outs c main_v7 : S1024x600.Idx → Elt F .bf16)⟩]
          concatenates_S1024x600_S1024x600_S1024x600_S1024x1800_d1 := by
    show StableHlo.after hostOps6 _ (Proc.devRef .tc main_v12) = _
    after_results
    rfl
  rw [e, g67_v5, g67_v11, g67_v7]

/-- Columns 0 … 599 are the first tower's output. -/
theorem glue6_v12_left (c : Dev nD) (p : Fin 1024) (j : Fin 1800) (h : j.val < 600) :
    (V13 m outs c main_v12 : S1024x1800.Idx → Elt F .bf16) (ix2 p j)
      = (outs 6 main_v5 c : S1024x600.Idx → Elt F .bf16) (ix2 p ⟨j.val, h⟩) := by
  rw [g67_v12_eq]
  refine concatenate_apply_piece (1 : Fin S1024x1800.rank) _ _ (ix2 p j) 0 (by show 0 < 3; decide) S1024x600 _ rfl rfl 0 rfl
    (ix2 p ⟨j.val, h⟩) ?_ ?_
  · intro b hb
    fin_cases b
    · rfl
    · exact absurd rfl hb
  · show 0 + j.val = j.val
    omega

/-- Columns 600 … 1199 are the second tower's output. -/
theorem glue6_v12_mid (c : Dev nD) (p : Fin 1024) (j : Fin 1800) (h1 : 600 ≤ j.val) (h2 : j.val < 1200) :
    (V13 m outs c main_v12 : S1024x1800.Idx → Elt F .bf16) (ix2 p j)
      = (outs 12 main_v11 c : S1024x600.Idx → Elt F .bf16) (ix2 p ⟨j.val - 600, by omega⟩) := by
  rw [g67_v12_eq]
  refine concatenate_apply_piece (1 : Fin S1024x1800.rank) _ _ (ix2 p j) 1 (by show 1 < 3; decide) S1024x600 _ rfl rfl 600 rfl
    (ix2 p ⟨j.val - 600, by omega⟩) ?_ ?_
  · intro b hb
    fin_cases b
    · rfl
    · exact absurd rfl hb
  · show 600 + (j.val - 600) = j.val
    omega

/-- Columns 1200 … 1799 are the third tower's output. -/
theorem glue6_v12_right (c : Dev nD) (p : Fin 1024) (j : Fin 1800) (h2 : 1200 ≤ j.val) :
    (V13 m outs c main_v12 : S1024x1800.Idx → Elt F .bf16) (ix2 p j)
      = (outs 8 main_v7 c : S1024x600.Idx → Elt F .bf16) (ix2 p ⟨j.val - 1200, by have := j.isLt; omega⟩) := by
  rw [g67_v12_eq]
  refine concatenate_apply_piece (1 : Fin S1024x1800.rank) _ _ (ix2 p j) 2 (by show 2 < 3; decide) S1024x600 _ rfl rfl 1200 rfl
    (ix2 p ⟨j.val - 1200, by have := j.isLt; omega⟩) ?_ ?_
  · intro b hb
    fin_cases b
    · rfl
    · exact absurd rfl hb
  · show 1200 + (j.val - 1200) = j.val
    omega

/-- The array the fused region reads, at any entry: the tower whose band of 600 columns holds the column. -/
theorem glue6_v12 (c : Dev nD) (p : Fin 1024) (j : Fin 1800) :
    (V13 m outs c main_v12 : S1024x1800.Idx → Elt F .bf16) (ix2 p j)
      = if h : j.val < 600 then (outs 6 main_v5 c : S1024x600.Idx → Elt F .bf16) (ix2 p ⟨j.val, h⟩)
        else if h2 : j.val < 2 * 600 then (outs 12 main_v11 c : S1024x600.Idx → Elt F .bf16) (ix2 p ⟨j.val - 600, by omega⟩)
        else (outs 8 main_v7 c : S1024x600.Idx → Elt F .bf16) (ix2 p ⟨j.val - 2 * 600, by have := j.isLt; omega⟩) := by
  by_cases h : j.val < 600
  · rw [dif_pos h]; exact glue6_v12_left m outs c p j h
  · rw [dif_neg h]
    by_cases h2 : j.val < 2 * 600
    · rw [dif_pos h2]; exact glue6_v12_mid m outs c p j (by omega) (by omega)
    · rw [dif_neg h2]; exact glue6_v12_right m outs c p j (by omega)

/-! ## Region 7 -/

/-- The embedding is what the fused region has just left. -/
theorem glue7_v15 (c : Dev nD) : V16 m outs c main_v15 = outs 14 main_v15 c :=
  (V16_of m outs c main_v15 dd).trans <| (V15_of m outs c main_v15 dd).trans <| Function.update_self _ _ _

/-- The label matrix still holds its launch contents when it is padded. -/
theorem g67_arg1 (c : Dev nD) : V15 m outs c main_arg1 = m ((c : Thread nD τ).loc main_arg1) :=
  (V15_of m outs c main_arg1 dd).trans <| (V14_of m outs c main_arg1 dd).trans <| (V13_of m outs c main_arg1 dd).trans <|
  g67_keep12 m outs c main_arg1 dd dd dd dd dd dd dd dd dd dd dd dd

/-- The integer the padding value is converted from is the constant 0. -/
theorem g67_c (c : Dev nD) : (V15 m outs c main_c : S_.Idx → BitVec 32) = constantI S_ 32 0#32 := by
  show StableHlo.after hostOps7 _ (Proc.devRef .tc main_c) = _
  after_results
  try rfl

/-- The padded label matrix: the label matrix with 28 rows of the converted constant below it. -/
theorem g67_v16_eq (c : Dev nD) :
    (V16 m outs c main_v16 : S128x600.Idx → Elt F .f32)
      = pad S128x600 ![0, 0] ![28, 0] ![0, 0] (V15 m outs c main_arg1 : S100x600.Idx → Elt F .f32)
          (sitofp .f32 (V15 m outs c main_c : S_.Idx → BitVec 32) : S_.Idx → Elt F .f32)
          pads_S100x600_S128x600_0280_000 h_S_ := by
  show StableHlo.after hostOps7_1 _ (Proc.devRef .tc main_v16) = _
  after_results
  try rfl

/-- Rows 0 … 99 of the padded label matrix are the label matrix's rows. -/
theorem glue7_v16_inside (c : Dev nD) (v : Fin 128) (d : Fin 600) (h : v.val < 100) :
    (V16 m outs c main_v16 : S128x600.Idx → Elt F .f32) (ix2 v d)
      = (m ((c : Thread nD τ).loc main_arg1) : S100x600.Idx → Elt F .f32) (ix2 ⟨v.val, h⟩ d) := by
  rw [g67_v16_eq]
  refine (pad_apply_of_inside _ _ _ _ _ _ _ (ix2 v d) (ix2 ⟨v.val, h⟩ d) ?_).trans (congrFun (g67_arg1 m outs c) _)
  intro a
  fin_cases a
  · show v.val = 0 + v.val * (0 + 1)
    omega
  · show d.val = 0 + d.val * (0 + 1)
    omega

/-- Rows 100 … 127 of the padded label matrix hold the padding value, the integer 0 converted. -/
theorem glue7_v16_outside (c : Dev nD) (v : Fin 128) (d : Fin 600) (h : ¬ v.val < 100) :
    (V16 m outs c main_v16 : S128x600.Idx → Elt F .f32) (ix2 v d)
      = (sitofp .f32 (constantI S_ 32 0#32) : S_.Idx → Elt F .f32) ix0 := by
  rw [g67_v16_eq, g67_c]
  refine (pad_apply_of_not_inside _ _ _ _ _ _ _ (ix2 v d) (0 : Fin 2) ?_).trans (congrArg _ (eq_ix0 _))
  intro hh
  have h3 : (v.val - 0) / (0 + 1) < 100 := hh.2.2
  exact h (by omega)

end AnyFloat

/-! ## Over the extended reals

The same two arrays with every element an extended real: the side-by-side array is the specification's `cat3` of
the three towers' outputs, and the padding value, the integer 0 converted, is the real 0. -/

section AtIdeal

variable (m : (ℓ : Loc nD τ sig) → Buf (Elt Ideal) ℓ) (outs : Outs (F := Ideal))

theorem glue6_v12_cat3 (c : Dev nD) (p : Fin 1024) (j : Fin 1800) :
    (V13 m outs c main_v12 : S1024x1800.Idx → EReal) (ix2 p j)
      = Cert.Spec.cat3 (N := 600) (fun a k => (outs 6 main_v5 c : S1024x600.Idx → EReal) (ix2 a k))
          (fun a k => (outs 12 main_v11 c : S1024x600.Idx → EReal) (ix2 a k))
          (fun a k => (outs 8 main_v7 c : S1024x600.Idx → EReal) (ix2 a k)) p j :=
  glue6_v12 (F := Ideal) m outs c p j

theorem glue7_v16 (c : Dev nD) (v : Fin 128) (d : Fin 600) :
    (V16 m outs c main_v16 : S128x600.Idx → EReal) (ix2 v d)
      = (if h : v.val < 100 then (m ((c : Thread nD τ).loc main_arg1) : S100x600.Idx → EReal) (ix2 ⟨v.val, h⟩ d) else 0 : EReal) := by
  by_cases h : v.val < 100
  · rw [dif_pos h]
    exact glue7_v16_inside (F := Ideal) m outs c v d h
  · rw [dif_neg h]
    refine (glue7_v16_outside (F := Ideal) m outs c v d h).trans ?_
    show (((0#32 : BitVec 32).toInt : ℝ) : EReal) = 0
    rw [show (0#32 : BitVec 32).toInt = 0 from by decide, Int.cast_zero, EReal.coe_zero]

end AtIdeal

end Cert.KernelIdeal.Hand

end
-- ==== Proof.KI.Chain.lean ====
import proofs.«403270_j28226525069939_3_alg».proof.Proof.KI.Glue
import proofs.«403270_j28226525069939_3_alg».proof.Proof.KI.Glue67
import proofs.«403270_j28226525069939_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx

/-! # From the regions' values to the program's result

Every region computes one layer (or the score matrix) of what it finds in its input arrays; what it finds is
what the launch gave or what an earlier region left. Composing the eight layers gives the embedding of every
sample and then its scores against the labels. -/

/-! ## The mathematics alone: layers composed are the embedding -/

section Math
open Cert.Spec

theorem fun_ext₂ {α β γ : Type} {f g : α → β → γ} (h : ∀ a b, f a b = g a b) : f = g :=
  funext fun a => funext fun b => h a b

theorem lin_congr {M K N : ℕ} {X X' : Fin M → Fin K → EReal} {W W' : Fin N → Fin K → EReal} {b b' : Fin N → EReal}
    (hX : X = X') (hW : W = W') (hb : b = b') : lin X W b = lin X' W' b' := by
  subst hX hW hb; rfl

theorem hidden_congr {M K N : ℕ} {X X' : Fin M → Fin K → EReal} {W W' : Fin N → Fin K → EReal} {b b' : Fin N → EReal}
    (hX : X = X') (hW : W = W') (hb : b = b') : hidden X W b = hidden X' W' b' := by
  subst hX hW hb; rfl

/-- The six tower layers, the three towers side by side, and the two last layers are the embedding. -/
theorem emb_of_stages
    (x : Fin 1024 → Fin 12288 → EReal)
    (Wh1 : Fin 2048 → Fin 4096 → EReal) (bh1 : Fin 2048 → EReal) (We1 : Fin 600 → Fin 2048 → EReal) (be1 : Fin 600 → EReal)
    (Wh2 : Fin 4096 → Fin 12288 → EReal) (bh2 : Fin 4096 → EReal) (We2 : Fin 600 → Fin 4096 → EReal) (be2 : Fin 600 → EReal)
    (Wh : Fin 1800 → Fin 1800 → EReal) (bh : Fin 1800 → EReal) (We : Fin 600 → Fin 1800 → EReal) (be : Fin 600 → EReal)
    (o1 o3 : Fin 1024 → Fin 2048 → EReal) (o5 o7 o11 o15 : Fin 1024 → Fin 600 → EReal) (o9 : Fin 1024 → Fin 4096 → EReal)
    (c12 : Fin 1024 → Fin 1800 → EReal)
    (h1 : o1 = hidden (cols 4096 0 (by decide) x) Wh1 bh1)
    (h3 : o3 = hidden (cols 4096 8192 (by decide) x) Wh1 bh1)
    (h5 : o5 = lin o1 We1 be1) (h7 : o7 = lin o3 We1 be1)
    (h9 : o9 = hidden x Wh2 bh2) (h11 : o11 = lin o9 We2 be2)
    (h12 : c12 = cat3 (N := 600) o5 o11 o7)
    (h15 : o15 = lin (hidden c12 Wh bh) We be) :
    o15 = emb x Wh1 bh1 We1 be1 Wh2 bh2 We2 be2 Wh bh We be := by
  subst h1 h3 h5 h7 h9 h11 h12 h15; rfl

/-- Scoring against the labels padded with rows of zeros, at a row that is a label's, is scoring against the labels. -/
theorem score_pad {B D : ℕ} (L128 : Fin 128 → Fin D → EReal) (L : Fin 100 → Fin D → EReal) (E : Fin B → Fin D → EReal)
    (hL : ∀ (v : Fin 128) (d : Fin D), L128 v d = if h : v.val < 100 then L ⟨v.val, h⟩ d else 0)
    (n : ℕ) (h : n < 100) (h' : n < 128) (b : Fin B) : score L128 E ⟨n, h'⟩ b = score L E ⟨n, h⟩ b := by
  have e : ∀ d, L128 ⟨n, h'⟩ d = L ⟨n, h⟩ d := fun d => (hL ⟨n, h'⟩ d).trans (dif_pos h)
  unfold score
  simp only [e]

end Math

/-! ## The launch arguments and the regions' outputs as curried matrices -/

variable (m : (ℓ : Loc nD τ sig) → Buf (Elt Ideal) ℓ) (outs : Outs (F := Ideal)) (c : Dev nD)

/-- The activation `x`. -/
abbrev mX : Fin 1024 → Fin 12288 → EReal := fun a k => (m ((c : Thread nD τ).loc main_arg0) : S1024x12288.Idx → EReal) (ix2 a k)
/-- The labels. -/
abbrev mL : Fin 100 → Fin 600 → EReal := fun a k => (m ((c : Thread nD τ).loc main_arg1) : S100x600.Idx → EReal) (ix2 a k)
abbrev mWh1 : Fin 2048 → Fin 4096 → EReal := fun a k => (m ((c : Thread nD τ).loc main_arg4) : S2048x4096.Idx → EReal) (ix2 a k)
abbrev mbh1 : Fin 2048 → EReal := fun a => (m ((c : Thread nD τ).loc main_arg5) : S2048.Idx → EReal) (ix1 a)
abbrev mWe1 : Fin 600 → Fin 2048 → EReal := fun a k => (m ((c : Thread nD τ).loc main_arg6) : S600x2048.Idx → EReal) (ix2 a k)
abbrev mbe1 : Fin 600 → EReal := fun a => (m ((c : Thread nD τ).loc main_arg7) : S600.Idx → EReal) (ix1 a)
abbrev mWh2 : Fin 4096 → Fin 12288 → EReal := fun a k => (m ((c : Thread nD τ).loc main_arg8) : S4096x12288.Idx → EReal) (ix2 a k)
abbrev mbh2 : Fin 4096 → EReal := fun a => (m ((c : Thread nD τ).loc main_arg9) : S4096.Idx → EReal) (ix1 a)
abbrev mWe2 : Fin 600 → Fin 4096 → EReal := fun a k => (m ((c : Thread nD τ).loc main_arg10) : S600x4096.Idx → EReal) (ix2 a k)
abbrev mbe2 : Fin 600 → EReal := fun a => (m ((c : Thread nD τ).loc main_arg11) : S600.Idx → EReal) (ix1 a)
abbrev mWh : Fin 1800 → Fin 1800 → EReal := fun a k => (m ((c : Thread nD τ).loc main_arg12) : S1800x1800.Idx → EReal) (ix2 a k)
abbrev mbh : Fin 1800 → EReal := fun a => (m ((c : Thread nD τ).loc main_arg13) : S1800.Idx → EReal) (ix1 a)
abbrev mWe : Fin 600 → Fin 1800 → EReal := fun a k => (m ((c : Thread nD τ).loc main_arg14) : S600x1800.Idx → EReal) (ix2 a k)
abbrev mbe : Fin 600 → EReal := fun a => (m ((c : Thread nD τ).loc main_arg15) : S600.Idx → EReal) (ix1 a)

/-- The embedding of every sample, of the launch arguments. -/
abbrev mEmb : Fin 1024 → Fin 600 → EReal :=
  Cert.Spec.emb (mX m c) (mWh1 m c) (mbh1 m c) (mWe1 m c) (mbe1 m c) (mWh2 m c) (mbh2 m c) (mWe2 m c) (mbe2 m c)
    (mWh m c) (mbh m c) (mWe m c) (mbe m c)

/-- What the regions leave, as curried matrices. -/
abbrev lay1 : Fin 1024 → Fin 2048 → EReal := fun a k => (outs 2 main_v1 c : S1024x2048.Idx → EReal) (ix2 a k)
abbrev lay3 : Fin 1024 → Fin 2048 → EReal := fun a k => (outs 4 main_v3 c : S1024x2048.Idx → EReal) (ix2 a k)
abbrev lay5 : Fin 1024 → Fin 600 → EReal := fun a k => (outs 6 main_v5 c : S1024x600.Idx → EReal) (ix2 a k)
abbrev lay7 : Fin 1024 → Fin 600 → EReal := fun a k => (outs 8 main_v7 c : S1024x600.Idx → EReal) (ix2 a k)
abbrev lay9 : Fin 1024 → Fin 4096 → EReal := fun a k => (outs 10 main_v9 c : S1024x4096.Idx → EReal) (ix2 a k)
abbrev lay11 : Fin 1024 → Fin 600 → EReal := fun a k => (outs 12 main_v11 c : S1024x600.Idx → EReal) (ix2 a k)
abbrev lay15 : Fin 1024 → Fin 600 → EReal := fun a k => (outs 14 main_v15 c : S1024x600.Idx → EReal) (ix2 a k)

/-- An array read as a curried matrix. -/
abbrev mat {r q : ℕ} (f : (⟨2, ![r, q]⟩ : Shape).Idx → EReal) : Fin r → Fin q → EReal := fun a k => f (ix2 a k)

/-! ## What each region is asked to leave, in terms of what it finds -/

/-- Region 0 leaves the first tower's hidden layer (columns 0 … 4095 of `x`) of what it finds. -/
abbrev RegionSpec0 : Prop :=
  ∀ (p : Fin 1024) (q : Fin 2048), (outs 2 main_v1 c : S1024x2048.Idx → EReal) (ix2 p q)
    = Cert.Spec.hidden (Cert.Spec.cols 4096 0 (by decide) (fun a k => (V1 m c main_arg0 : S1024x12288.Idx → EReal) (ix2 a k)))
        (fun a k => (V1 m c main_arg4 : S2048x4096.Idx → EReal) (ix2 a k))
        (fun a => (V1 m c main_v0 : S1x2048.Idx → EReal) (ix2 0 a)) p q
/-- Region 1 leaves the third tower's hidden layer (columns 8192 … 12287 of `x`) of what it finds. -/
abbrev RegionSpec1 : Prop :=
  ∀ (p : Fin 1024) (q : Fin 2048), (outs 4 main_v3 c : S1024x2048.Idx → EReal) (ix2 p q)
    = Cert.Spec.hidden (Cert.Spec.cols 4096 8192 (by decide) (fun a k => (V3 m outs c main_arg0 : S1024x12288.Idx → EReal) (ix2 a k)))
        (fun a k => (V3 m outs c main_arg4 : S2048x4096.Idx → EReal) (ix2 a k))
        (fun a => (V3 m outs c main_v2 : S1x2048.Idx → EReal) (ix2 0 a)) p q
/-- Region 2 leaves the first tower's embedding layer of what it finds. -/
abbrev RegionSpec2 : Prop :=
  ∀ (p : Fin 1024) (q : Fin 600), (outs 6 main_v5 c : S1024x600.Idx → EReal) (ix2 p q)
    = Cert.Spec.lin (fun a k => (V5 m outs c main_v1 : S1024x2048.Idx → EReal) (ix2 a k))
        (fun a k => (V5 m outs c main_arg6 : S600x2048.Idx → EReal) (ix2 a k))
        (fun a => (V5 m outs c main_v4 : S1x600.Idx → EReal) (ix2 0 a)) p q
/-- Region 3 leaves the third tower's embedding layer of what it finds. -/
abbrev RegionSpec3 : Prop :=
  ∀ (p : Fin 1024) (q : Fin 600), (outs 8 main_v7 c : S1024x600.Idx → EReal) (ix2 p q)
    = Cert.Spec.lin (fun a k => (V7 m outs c main_v3 : S1024x2048.Idx → EReal) (ix2 a k))
        (fun a k => (V7 m outs c main_arg6 : S600x2048.Idx → EReal) (ix2 a k))
        (fun a => (V7 m outs c main_v6 : S1x600.Idx → EReal) (ix2 0 a)) p q
/-- Region 4 leaves the middle tower's hidden layer (all of `x`) of what it finds. -/
abbrev RegionSpec4 : Prop :=
  ∀ (p : Fin 1024) (q : Fin 4096), (outs 10 main_v9 c : S1024x4096.Idx → EReal) (ix2 p q)
    = Cert.Spec.hidden (fun a k => (V9 m outs c main_arg0 : S1024x12288.Idx → EReal) (ix2 a k))
        (fun a k => (V9 m outs c main_arg8 : S4096x12288.Idx → EReal) (ix2 a k))
        (fun a => (V9 m outs c main_v8 : S1x4096.Idx → EReal) (ix2 0 a)) p q
/-- Region 5 leaves the middle tower's embedding layer of what it finds. -/
abbrev RegionSpec5 : Prop :=
  ∀ (p : Fin 1024) (q : Fin 600), (outs 12 main_v11 c : S1024x600.Idx → EReal) (ix2 p q)
    = Cert.Spec.lin (fun a k => (V11 m outs c main_v9 : S1024x4096.Idx → EReal) (ix2 a k))
        (fun a k => (V11 m outs c main_arg10 : S600x4096.Idx → EReal) (ix2 a k))
        (fun a => (V11 m outs c main_v10 : S1x600.Idx → EReal) (ix2 0 a)) p q
/-- Region 6 leaves the two last layers of the three towers side by side, as it finds them. -/
abbrev RegionSpec6 : Prop :=
  ∀ (p : Fin 1024) (q : Fin 600), (outs 14 main_v15 c : S1024x600.Idx → EReal) (ix2 p q)
    = Cert.Spec.lin (Cert.Spec.hidden (fun a k => (V13 m outs c main_v12 : S1024x1800.Idx → EReal) (ix2 a k))
          (fun a k => (V13 m outs c main_arg12 : S1800x1800.Idx → EReal) (ix2 a k))
          (fun a => (V13 m outs c main_v13 : S1x1800.Idx → EReal) (ix2 0 a)))
        (fun a k => (V13 m outs c main_arg14 : S600x1800.Idx → EReal) (ix2 a k))
        (fun a => (V13 m outs c main_v14 : S1x600.Idx → EReal) (ix2 0 a)) p q
/-- Region 7 leaves the scores of the (padded) label rows against the embedding rows it finds. -/
abbrev RegionSpec7 : Prop :=
  ∀ (v : Fin 128) (b : Fin 1024), (outs 17 main_v17 c : S128x1024.Idx → EReal) (ix2 v b)
    = Cert.Spec.score (fun a d => (V16 m outs c main_v16 : S128x600.Idx → EReal) (ix2 a d))
        (fun a d => (V16 m outs c main_v15 : S1024x600.Idx → EReal) (ix2 a d)) v b

/-- Every label index the launch gives is a label's. -/
abbrev PosInRange : Prop :=
  ∀ i : S1024.Idx, ((m ((c : Thread nD τ).loc main_arg2) : S1024.Idx → BitVec 32) i).toNat < 100
abbrev NegInRange : Prop :=
  ∀ i : S1024x128.Idx, ((m ((c : Thread nD τ).loc main_arg3) : S1024x128.Idx → BitVec 32) i).toNat < 100

/-- The closing host operations pick, for sample `p`, column 0: its positive label's score; column `j ≥ 1`: its
    negative `j − 1`'s score, off the score matrix region 7 left. -/
abbrev TailSpec (hp : PosInRange m c) (hn : NegInRange m c) : Prop :=
  ∀ (p : Fin 1024) (j : Fin 129), (V24 m outs c main_v29 : S1024x129.Idx → EReal) (ix2 p j)
    = if h : j.val = 0 then
        (outs 17 main_v17 c : S128x1024.Idx → EReal)
          (ix2 ⟨((m ((c : Thread nD τ).loc main_arg2) : S1024.Idx → BitVec 32) (ix1 p)).toNat,
            Nat.lt_trans (hp _) (by decide)⟩ p)
      else
        (outs 17 main_v17 c : S128x1024.Idx → EReal)
          (ix2 ⟨((m ((c : Thread nD τ).loc main_arg3) : S1024x128.Idx → BitVec 32)
              (ix2 p ⟨j.val - 1, by have := j.isLt; omega⟩)).toNat, Nat.lt_trans (hn _) (by decide)⟩ p)

/-- What the specification returns on the launch arguments. -/
abbrev mResult (hp : PosInRange m c) (hn : NegInRange m c) : Fin 1024 → Fin 129 → EReal :=
  Cert.Spec.result (mEmb m c) (mL m c)
    (fun a => ⟨((m ((c : Thread nD τ).loc main_arg2) : S1024.Idx → BitVec 32) (ix1 a)).toNat, hp _⟩)
    (fun a n => ⟨((m ((c : Thread nD τ).loc main_arg3) : S1024x128.Idx → BitVec 32) (ix2 a n)).toNat, hn _⟩)

/-! ## The embedding -/

/-- If every one of the first seven regions leaves its layer of what it finds, region 6 leaves the embedding. -/
theorem emb_chain (H0 : RegionSpec0 m outs c) (H1 : RegionSpec1 m outs c) (H2 : RegionSpec2 m outs c)
    (H3 : RegionSpec3 m outs c) (H4 : RegionSpec4 m outs c) (H5 : RegionSpec5 m outs c) (H6 : RegionSpec6 m outs c) :
    lay15 outs c = mEmb m c := by
  -- each region's inputs, read back to the launch arguments or to an earlier region's output
  have e1 : lay1 outs c = Cert.Spec.hidden (Cert.Spec.cols 4096 0 (by decide) (mX m c)) (mWh1 m c) (mbh1 m c) :=
    (fun_ext₂ H0).trans (hidden_congr
      (congrArg (fun f : S1024x12288.Idx → EReal => Cert.Spec.cols 4096 0 (by decide) (mat f)) (glue0_arg0 m c))
      (congrArg (fun f : S2048x4096.Idx → EReal => mat f) (glue0_arg4 m c))
      (funext (glue0_v0 m c)))
  have e3 : lay3 outs c = Cert.Spec.hidden (Cert.Spec.cols 4096 8192 (by decide) (mX m c)) (mWh1 m c) (mbh1 m c) :=
    (fun_ext₂ H1).trans (hidden_congr
      (congrArg (fun f : S1024x12288.Idx → EReal => Cert.Spec.cols 4096 8192 (by decide) (mat f)) (glue1_arg0 m outs c))
      (congrArg (fun f : S2048x4096.Idx → EReal => mat f) (glue1_arg4 m outs c))
      (funext (glue1_v2 m outs c)))
  have e5 : lay5 outs c = Cert.Spec.lin (lay1 outs c) (mWe1 m c) (mbe1 m c) :=
    (fun_ext₂ H2).trans (lin_congr
      (congrArg (fun f : S1024x2048.Idx → EReal => mat f) (glue2_v1 m outs c))
      (congrArg (fun f : S600x2048.Idx → EReal => mat f) (glue2_arg6 m outs c))
      (funext (glue2_v4 m outs c)))
  have e7 : lay7 outs c = Cert.Spec.lin (lay3 outs c) (mWe1 m c) (mbe1 m c) :=
    (fun_ext₂ H3).trans (lin_congr
      (congrArg (fun f : S1024x2048.Idx → EReal => mat f) (glue3_v3 m outs c))
      (congrArg (fun f : S600x2048.Idx → EReal => mat f) (glue3_arg6 m outs c))
      (funext (glue3_v6 m outs c)))
  have e9 : lay9 outs c = Cert.Spec.hidden (mX m c) (mWh2 m c) (mbh2 m c) :=
    (fun_ext₂ H4).trans (hidden_congr
      (congrArg (fun f : S1024x12288.Idx → EReal => mat f) (glue4_arg0 m outs c))
      (congrArg (fun f : S4096x12288.Idx → EReal => mat f) (glue4_arg8 m outs c))
      (funext (glue4_v8 m outs c)))
  have e11 : lay11 outs c = Cert.Spec.lin (lay9 outs c) (mWe2 m c) (mbe2 m c) :=
    (fun_ext₂ H5).trans (lin_congr
      (congrArg (fun f : S1024x4096.Idx → EReal => mat f) (glue5_v9 m outs c))
      (congrArg (fun f : S600x4096.Idx → EReal => mat f) (glue5_arg10 m outs c))
      (funext (glue5_v10 m outs c)))
  -- the three towers side by side
  have e12 : mat (V13 m outs c main_v12 : S1024x1800.Idx → EReal)
      = Cert.Spec.cat3 (N := 600) (lay5 outs c) (lay11 outs c) (lay7 outs c) := fun_ext₂ (glue6_v12_cat3 m outs c)
  have e15 : lay15 outs c
      = Cert.Spec.lin (Cert.Spec.hidden (mat (V13 m outs c main_v12 : S1024x1800.Idx → EReal)) (mWh m c) (mbh m c))
          (mWe m c) (mbe m c) :=
    (fun_ext₂ H6).trans (lin_congr
      (hidden_congr rfl (congrArg (fun f : S1800x1800.Idx → EReal => mat f) (glue6_arg12 m outs c))
        (funext (glue6_v13 m outs c)))
      (congrArg (fun f : S600x1800.Idx → EReal => mat f) (glue6_arg14 m outs c))
      (funext (glue6_v14 m outs c)))
  exact emb_of_stages (mX m c) (mWh1 m c) (mbh1 m c) (mWe1 m c) (mbe1 m c) (mWh2 m c) (mbh2 m c) (mWe2 m c) (mbe2 m c)
    (mWh m c) (mbh m c) (mWe m c) (mbe m c) (lay1 outs c) (lay3 outs c) (lay5 outs c) (lay7 outs c) (lay11 outs c) (lay15 outs c)
    (lay9 outs c) (mat (V13 m outs c main_v12 : S1024x1800.Idx → EReal)) e1 e3 e5 e7 e9 e11 e12 e15

/-! ## The scores -/

/-- If region 6 left the embedding, region 7 leaves the score matrix of what it finds, and the closing host
    operations pick every sample's positive label's and negatives' scores, the result is the specification's. -/
theorem result_chain (hE : lay15 outs c = mEmb m c) (H7 : RegionSpec7 m outs c)
    (hp : PosInRange m c) (hn : NegInRange m c) (Ht : TailSpec m outs c hp hn) (p : Fin 1024) (j : Fin 129) :
    (V24 m outs c main_v29 : S1024x129.Idx → EReal) (ix2 p j) = mResult m c hp hn p j := by
  have eE : mat (V16 m outs c main_v15 : S1024x600.Idx → EReal) = mEmb m c :=
    (congrArg (fun f : S1024x600.Idx → EReal => mat f) (glue7_v15 m outs c)).trans hE
  -- a label's row of the score matrix is that label's scores against the embedding
  have key : ∀ (n : ℕ) (h : n < 100) (h' : n < 128) (b : Fin 1024),
      (outs 17 main_v17 c : S128x1024.Idx → EReal) (ix2 ⟨n, h'⟩ b) = Cert.Spec.score (mL m c) (mEmb m c) ⟨n, h⟩ b :=
    fun n h h' b => (H7 ⟨n, h'⟩ b).trans
      ((score_pad (mat (V16 m outs c main_v16 : S128x600.Idx → EReal)) (mL m c)
          (mat (V16 m outs c main_v15 : S1024x600.Idx → EReal)) (glue7_v16 m outs c) n h h' b).trans
        (congrArg (fun E => Cert.Spec.score (mL m c) E ⟨n, h⟩ b) eE))
  refine (Ht p j).trans ?_
  unfold mResult Cert.Spec.result
  by_cases h : j.val = 0
  · rw [dif_pos h, dif_pos h]; exact key _ _ _ p
  · rw [dif_neg h, dif_neg h]; exact key _ _ _ p

/-! ## The whole program -/

/-- If every region leaves what its mathematics says of what it finds, and the closing host operations read the score
    matrix at (label, sample), the program's result is the specification's result of the launch arguments. -/
theorem program_result (H0 : RegionSpec0 m outs c) (H1 : RegionSpec1 m outs c) (H2 : RegionSpec2 m outs c)
    (H3 : RegionSpec3 m outs c) (H4 : RegionSpec4 m outs c) (H5 : RegionSpec5 m outs c) (H6 : RegionSpec6 m outs c)
    (H7 : RegionSpec7 m outs c) (hp : PosInRange m c) (hn : NegInRange m c) (Ht : TailSpec m outs c hp hn)
    (p : Fin 1024) (j : Fin 129) :
    (V24 m outs c main_v29 : S1024x129.Idx → EReal) (ix2 p j) = mResult m c hp hn p j :=
  result_chain m outs c (emb_chain m outs c H0 H1 H2 H3 H4 H5 H6) H7 hp hn Ht p j

end Cert.KernelIdeal.Hand

end
-- ==== Proof.KI.Tail.lean ====
import proofs.«403270_j28226525069939_3_alg».proof.Proof.Gen.KernelIdeal.Regions
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.ValueIdx

variable {F : FTy → Type} [FloatOps F]

/-! # The host tail: what the program's last operations make of the score matrix

After the last region the program transposes the score matrix, masks the label columns from 100 on with −∞,
gathers along each sample's row at the positive label and at the negative labels, and lays the two results side by
side. Every piece is named here over plain arrays, so that the reading at an index never opens a valuation. -/

/-- The column mask: column `q` of a [1,128] row is set when `q < 100`. -/
def tailMask : S1x128.Idx → BitVec 1 :=
  cmpi .slt (broadcastInDim S1x128 ![1] bcast_S128_S1x128_1 (iotaInDim S128 32 0))
    (broadcastInDim S1x128 ![] bcast_S_S1x128 (constantI S_ 32 100#32))

/-- The transposed score matrix with the columns from 100 on replaced by the constant (−∞). -/
def tailMasked (S : S128x1024.Idx → Elt F .f32) : S1024x128.Idx → Elt F .f32 :=
  select (broadcastInDim S1024x128 ![0, 1] bcast_S1x128_S1024x128_0_1 tailMask)
    (transpose S1024x128 [1, 0] S transposes_S128x1024_S1024x128_1_0)
    (broadcastInDim S1024x128 ![] bcast_S_S1024x128 (id (constant S_ .f32 0xFF800000#32)))

/-- The index with a negative entry wrapped by +128, one column. -/
def tailWrap1 (idx : S1024x1.Idx → BitVec 32) : S1024x1.Idx → BitVec 32 :=
  select (cmpi .slt idx (broadcastInDim S1024x1 ![] bcast_S_S1024x1 (constantI S_ 32 0#32)))
    (addi idx (broadcastInDim S1024x1 ![] bcast_S_S1024x1 (constantI S_ 32 128#32))) idx

/-- The wrapped index as a [1024,1,1] table of start indices. -/
def tailStart1 (idx : S1024x1.Idx → BitVec 32) : S1024x1x1.Idx → BitVec 32 :=
  shapeCast S1024x1x1 (tailWrap1 idx) shapeCasts_S1024x1_S1024x1x1

/-- The in-bounds mask of the one-column take: `0 ≤ start ≤ 127` on every component. -/
def tailInb1 (idx : S1024x1.Idx → BitVec 32) : S1024x1.Idx → BitVec 1 :=
  Host.reduce IntOp.andi
    (andi (cmpi .sge (tailStart1 idx) (broadcastInDim S1024x1x1 ![] bcast_S_S1024x1x1 (constantI S_ 32 0#32)))
      (cmpi .sle (tailStart1 idx) (broadcastInDim S1024x1x1 ![0, 1, 2] bcast_S1x1x1_S1024x1x1_0_1_2
        (broadcastInDim S1x1x1 ![2] bcast_S1_S1x1x1_2 (constantI S1 32 127#32)))))
    (constantI S_ 1 1#1) reducesTo_S1024x1x1_S1024x1_d2 h_S_

/-- Take along each row at one index per row; out-of-bounds entries are the constant (NaN). -/
def tailTake1 (X : S1024x128.Idx → Elt F .f32) (idx : S1024x1.Idx → BitVec 32) : S1024x1.Idx → Elt F .f32 :=
  select (tailInb1 idx) (Host.gather gather_S1024x128_S1024x1x1_S1024x1_n_1_0_0_1_2_11 X (tailStart1 idx))
    (broadcastInDim S1024x1 ![] bcast_S_S1024x1 (constant S_ .f32 0x7FC00000#32))

/-- The index with a negative entry wrapped by +128, 128 columns. -/
def tailWrap2 (idx : S1024x128.Idx → BitVec 32) : S1024x128.Idx → BitVec 32 :=
  select (cmpi .slt idx (broadcastInDim S1024x128 ![] bcast_S_S1024x128 (constantI S_ 32 0#32)))
    (addi idx (broadcastInDim S1024x128 ![] bcast_S_S1024x128 (constantI S_ 32 128#32))) idx

/-- The wrapped index as a [1024,128,1] table of start indices. -/
def tailStart2 (idx : S1024x128.Idx → BitVec 32) : S1024x128x1.Idx → BitVec 32 :=
  shapeCast S1024x128x1 (tailWrap2 idx) shapeCasts_S1024x128_S1024x128x1

/-- The in-bounds mask of the 128-column take. -/
def tailInb2 (idx : S1024x128.Idx → BitVec 32) : S1024x128.Idx → BitVec 1 :=
  Host.reduce IntOp.andi
    (andi (cmpi .sge (tailStart2 idx) (broadcastInDim S1024x128x1 ![] bcast_S_S1024x128x1 (constantI S_ 32 0#32)))
      (cmpi .sle (tailStart2 idx) (broadcastInDim S1024x128x1 ![0, 1, 2] bcast_S1x1x1_S1024x128x1_0_1_2
        (broadcastInDim S1x1x1 ![2] bcast_S1_S1x1x1_2 (constantI S1 32 127#32)))))
    (constantI S_ 1 1#1) reducesTo_S1024x128x1_S1024x128_d2 h_S_

/-- Take along each row at 128 indices per row. -/
def tailTake2 (X : S1024x128.Idx → Elt F .f32) (idx : S1024x128.Idx → BitVec 32) : S1024x128.Idx → Elt F .f32 :=
  select (tailInb2 idx) (Host.gather gather_S1024x128_S1024x128x1_S1024x128_n_1_0_0_1_2_11 X (tailStart2 idx))
    (broadcastInDim S1024x128 ![] bcast_S_S1024x128 (constant S_ .f32 0x7FC00000#32))

/-- The program's result over the score matrix and the two label arrays. -/
def tailOut (S : S128x1024.Idx → Elt F .f32) (pls : S1024.Idx → BitVec 32) (nls : S1024x128.Idx → BitVec 32) :
    S1024x129.Idx → Elt F .f32 :=
  concatenate S1024x129 1
    [⟨S1024x1, broadcastInDim S1024x1 ![0] bcast_S1024_S1024x1_0
        (shapeCast S1024 (tailTake1 (tailMasked S) (broadcastInDim S1024x1 ![0] bcast_S1024_S1024x1_0 pls)) shapeCasts_S1024x1_S1024)⟩,
     ⟨S1024x128, tailTake2 (tailMasked S) nls⟩] concatenates_S1024x1_S1024x128_S1024x129_d1

/-! ## The tail's stretches over any valuation -/

section Stretches
variable (W : Valuation τ sig (Elt F))

theorem tail_stretch8_v18 : (StableHlo.after hostOps8 W (Proc.devRef .tc main_v18) : S1024x128.Idx → Elt F .f32)
    = transpose S1024x128 [1, 0] (W (Proc.devRef .tc main_v17) : S128x1024.Idx → Elt F .f32) transposes_S128x1024_S1024x128_1_0 := by
  after_results

theorem tail_stretch8_v22 : (StableHlo.after hostOps8 W (Proc.devRef .tc main_v22) : S1x128.Idx → BitVec 1) = tailMask := by
  after_results
  rfl

theorem tail_stretch8_cst : (StableHlo.after hostOps8 W (Proc.devRef .tc main_cst) : S_.Idx → Elt F .f32) = constant S_ .f32 0xFF800000#32 := by
  after_results

theorem tail_stretch8_1 : (StableHlo.after hostOps8_1 W (Proc.devRef .tc main_v23) : S1024x128.Idx → Elt F .f32)
    = select (broadcastInDim S1024x128 ![0, 1] bcast_S1x128_S1024x128_0_1 (W (Proc.devRef .tc main_v22) : S1x128.Idx → BitVec 1))
        (W (Proc.devRef .tc main_v18) : S1024x128.Idx → Elt F .f32)
        (broadcastInDim S1024x128 ![] bcast_S_S1024x128 (id (W (Proc.devRef .tc main_cst) : S_.Idx → Elt F .f32))) := by
  after_results
  simp only [StableHlo.TRef.ofBuf, StableHlo.TRef.toBuf, cast_eq]

theorem tail_stretch8_2 : (StableHlo.after hostOps8_2 W (Proc.devRef .tc main_v24) : S1024x1.Idx → BitVec 32)
    = broadcastInDim S1024x1 ![0] bcast_S1024_S1024x1_0 (W (Proc.devRef .tc main_arg2) : S1024.Idx → BitVec 32) := by
  after_results

set_option maxHeartbeats 2000000 in
theorem tail_stretch8_3 : (StableHlo.after hostOps8_3 W (Proc.devRef .tc main_v25) : S1024x1.Idx → Elt F .f32)
    = tailTake1 (W (Proc.devRef .tc main_v23) : S1024x128.Idx → Elt F .f32) (W (Proc.devRef .tc main_v24) : S1024x1.Idx → BitVec 32) := by
  after_results_simp
  simp only [StableHlo.TRef.ofBuf, StableHlo.TRef.toBuf, cast_eq]
  rfl

theorem tail_stretch8_4 : (StableHlo.after hostOps8_4 W (Proc.devRef .tc main_v26) : S1024.Idx → Elt F .f32)
    = shapeCast S1024 (W (Proc.devRef .tc main_v25) : S1024x1.Idx → Elt F .f32) shapeCasts_S1024x1_S1024 := by
  after_results
  rfl

set_option maxHeartbeats 2000000 in
theorem tail_stretch8_5 : (StableHlo.after hostOps8_5 W (Proc.devRef .tc main_v27) : S1024x128.Idx → Elt F .f32)
    = tailTake2 (W (Proc.devRef .tc main_v23) : S1024x128.Idx → Elt F .f32) (W (Proc.devRef .tc main_arg3) : S1024x128.Idx → BitVec 32) := by
  after_results_simp
  simp only [StableHlo.TRef.ofBuf, StableHlo.TRef.toBuf, cast_eq]
  rfl

theorem tail_stretch8_6 : (StableHlo.after hostOps8_6 W (Proc.devRef .tc main_v29) : S1024x129.Idx → Elt F .f32)
    = concatenate S1024x129 1
        [⟨S1024x1, broadcastInDim S1024x1 ![0] bcast_S1024_S1024x1_0 (W (Proc.devRef .tc main_v26) : S1024.Idx → Elt F .f32)⟩,
         ⟨S1024x128, (W (Proc.devRef .tc main_v27) : S1024x128.Idx → Elt F .f32)⟩] concatenates_S1024x1_S1024x128_S1024x129_d1 := by
  after_results

end Stretches

/-! ## Words: a label below 100 -/

section Words
open Idealize.ShloMosaic.StableHlo.Predicate

/-- A fold by `and` from 1 over words that are all 1 is 1. -/
theorem tail_foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact tail_foldl_andi_ones f hf l

/-- A word below 100 is not negative: the wrap-around select keeps it. -/
theorem tail_wrap_word (w : BitVec 32) (hw : w.toNat < 100) :
    Scalar.select (IntOp.cmpi .slt w 0#32) (IntOp.addi w 128#32) w = w := by
  unfold Scalar.select
  rw [if_neg]
  intro h
  have := (slt_iff_toNat (a := w) (b := 0#32) (by omega) (by decide)).mp h
  simp at this

/-- A word below 100 lies in `[0, 127]`. -/
theorem tail_inb_word (w : BitVec 32) (hw : w.toNat < 100) :
    IntOp.andi (IntOp.cmpi .sge w 0#32) (IntOp.cmpi .sle w 127#32) = 1#1 := by
  rw [(sge_iff_toNat (a := w) (b := 0#32) (by omega) (by decide)).mpr (by simp),
    (sle_iff_toNat (a := w) (b := 127#32) (by omega) (by decide)).mpr (by simp; omega)]
  decide

/-- A word below 100, read signed and clamped to 127, is itself. -/
theorem tail_clamp_word (w : BitVec 32) (hw : w.toNat < 100) : min w.toInt.toNat 127 = w.toNat := by
  rw [toInt_eq_toNat_of_lt (a := w) (by omega), Int.toNat_natCast]
  omega

/-- A column below 100 passes the column mask. -/
theorem tail_mask_word (q : ℕ) (hq : q < 100) : IntOp.cmpi .slt (BitVec.ofNat 32 q) 100#32 = 1#1 := by
  refine (slt_iff_toNat (a := BitVec.ofNat 32 q) (b := 100#32) ?_ (by decide)).mpr ?_
  · rw [BitVec.toNat_ofNat]; omega
  · rw [BitVec.toNat_ofNat]; simp; omega

end Words

/-! ## The masked transposed matrix at a column below 100 -/

theorem tailMask_apply (q : Fin 128) : tailMask (ix2 (0 : Fin 1) q) = IntOp.cmpi .slt (BitVec.ofNat 32 q.val) 100#32 := rfl

theorem tailMasked_apply (S : S128x1024.Idx → Elt F .f32) (p : Fin 1024) (q : Fin 128) (hq : q.val < 100) :
    tailMasked S (ix2 p q) = S (ix2 q p) := by
  unfold tailMasked
  rw [select_apply, broadcastInDim_apply ![0, 1] bcast_S1x128_S1024x128_0_1 tailMask (ix2 p q) (ix2 (0 : Fin 1) q)
    (fun a => match a with | ⟨0, _⟩ => rfl | ⟨1, _⟩ => rfl), tailMask_apply, tail_mask_word q.val hq, select_one]
  exact transpose_ix2_apply S transposes_S128x1024_S1024x128_1_0 p q

/-! ## The takes at labels below 100 -/

section Takes

theorem tailWrap1_apply (idx : S1024x1.Idx → BitVec 32) (k : S1024x1.Idx) (hk : (idx k).toNat < 100) : tailWrap1 idx k = idx k :=
  tail_wrap_word (idx k) hk

theorem tailStart1_lt (idx : S1024x1.Idx → BitVec 32) (hidx : ∀ k, (idx k).toNat < 100) (i : S1024x1x1.Idx) :
    (tailStart1 idx i).toNat < 100 := by
  unfold tailStart1 shapeCast
  rw [tailWrap1_apply idx _ (hidx _)]
  exact hidx _

theorem tailStart1_apply (idx : S1024x1.Idx → BitVec 32) (hidx : ∀ k, (idx k).toNat < 100) (p : Fin 1024) (z : Fin 1) :
    tailStart1 idx (ix3 p z (0 : Fin 1)) = idx (ix2 p z) := by
  unfold tailStart1
  rw [shapeCast_apply (tailWrap1 idx) shapeCasts_S1024x1_S1024x1x1 (ix3 p z (0 : Fin 1)) (ix2 p z) (by
    rw [Shape.rowMajor_val_three, Shape.rowMajor_val_two]
    show p.val * 1 + z.val = (p.val * 1 + z.val) * 1 + 0
    omega)]
  exact tailWrap1_apply idx _ (hidx _)

theorem tailInb1_apply (idx : S1024x1.Idx → BitVec 32) (hidx : ∀ k, (idx k).toNat < 100) (j : S1024x1.Idx) : tailInb1 idx j = 1#1 := by
  unfold tailInb1
  rw [Host.reduce_eq_foldl]
  exact tail_foldl_andi_ones _ (fun i => tail_inb_word (tailStart1 idx i) (tailStart1_lt idx hidx i)) _

theorem tailGather1_apply {α : Type} (X : S1024x128.Idx → α) (idx : S1024x1x1.Idx → BitVec 32) (p : Fin 1024) (z : Fin 1) (q : Fin 128)
    (hq : q.val = min (idx (ix3 p z (0 : Fin 1))).toInt.toNat 127) :
    Host.gather gather_S1024x128_S1024x1x1_S1024x1_n_1_0_0_1_2_11 X idx (ix2 p z) = X (ix2 p q) := by
  unfold Host.gather
  refine congrArg X (funext fun a => Fin.ext ?_)
  have hsi : gather_S1024x128_S1024x1x1_S1024x1_n_1_0_0_1_2_11.siIdx (ix2 p z) ⟨0, by decide⟩ = ix3 p z (0 : Fin 1) := by
    funext b; refine Fin.ext ?_
    match b with
    | ⟨0, _⟩ => rfl
    | ⟨1, _⟩ => rfl
    | ⟨2, _⟩ => rfl
  match a with
  | ⟨0, _⟩ =>
    show 0 + p.val + 0 = p.val
    omega
  | ⟨1, _⟩ =>
    show min (idx (gather_S1024x128_S1024x1x1_S1024x1_n_1_0_0_1_2_11.siIdx (ix2 p z) ⟨0, by decide⟩)).toInt.toNat (128 - 1) + 0 + 0 = q.val
    rw [hsi, hq]
    omega

theorem tailTake1_apply (X : S1024x128.Idx → Elt F .f32) (idx : S1024x1.Idx → BitVec 32) (hidx : ∀ k, (idx k).toNat < 100)
    (p : Fin 1024) (z : Fin 1) (q : Fin 128) (hq : q.val = (idx (ix2 p z)).toNat) :
    tailTake1 X idx (ix2 p z) = X (ix2 p q) := by
  unfold tailTake1
  rw [select_apply, tailInb1_apply idx hidx, select_one]
  refine tailGather1_apply X (tailStart1 idx) p z q ?_
  rw [tailStart1_apply idx hidx, tail_clamp_word _ (hidx _)]
  exact hq

theorem tailWrap2_apply (idx : S1024x128.Idx → BitVec 32) (k : S1024x128.Idx) (hk : (idx k).toNat < 100) : tailWrap2 idx k = idx k :=
  tail_wrap_word (idx k) hk

theorem tailStart2_lt (idx : S1024x128.Idx → BitVec 32) (hidx : ∀ k, (idx k).toNat < 100) (i : S1024x128x1.Idx) :
    (tailStart2 idx i).toNat < 100 := by
  unfold tailStart2 shapeCast
  rw [tailWrap2_apply idx _ (hidx _)]
  exact hidx _

theorem tailStart2_apply (idx : S1024x128.Idx → BitVec 32) (hidx : ∀ k, (idx k).toNat < 100) (p : Fin 1024) (z : Fin 128) :
    tailStart2 idx (ix3 p z (0 : Fin 1)) = idx (ix2 p z) := by
  unfold tailStart2
  rw [shapeCast_apply (tailWrap2 idx) shapeCasts_S1024x128_S1024x128x1 (ix3 p z (0 : Fin 1)) (ix2 p z) (by
    rw [Shape.rowMajor_val_three, Shape.rowMajor_val_two]
    show p.val * 128 + z.val = (p.val * 128 + z.val) * 1 + 0
    omega)]
  exact tailWrap2_apply idx _ (hidx _)

theorem tailInb2_apply (idx : S1024x128.Idx → BitVec 32) (hidx : ∀ k, (idx k).toNat < 100) (j : S1024x128.Idx) : tailInb2 idx j = 1#1 := by
  unfold tailInb2
  rw [Host.reduce_eq_foldl]
  exact tail_foldl_andi_ones _ (fun i => tail_inb_word (tailStart2 idx i) (tailStart2_lt idx hidx i)) _

theorem tailGather2_apply {α : Type} (X : S1024x128.Idx → α) (idx : S1024x128x1.Idx → BitVec 32) (p : Fin 1024) (z : Fin 128) (q : Fin 128)
    (hq : q.val = min (idx (ix3 p z (0 : Fin 1))).toInt.toNat 127) :
    Host.gather gather_S1024x128_S1024x128x1_S1024x128_n_1_0_0_1_2_11 X idx (ix2 p z) = X (ix2 p q) := by
  unfold Host.gather
  refine congrArg X (funext fun a => Fin.ext ?_)
  have hsi : gather_S1024x128_S1024x128x1_S1024x128_n_1_0_0_1_2_11.siIdx (ix2 p z) ⟨0, by decide⟩ = ix3 p z (0 : Fin 1) := by
    funext b; refine Fin.ext ?_
    match b with
    | ⟨0, _⟩ => rfl
    | ⟨1, _⟩ => rfl
    | ⟨2, _⟩ => rfl
  match a with
  | ⟨0, _⟩ =>
    show 0 + p.val + 0 = p.val
    omega
  | ⟨1, _⟩ =>
    show min (idx (gather_S1024x128_S1024x128x1_S1024x128_n_1_0_0_1_2_11.siIdx (ix2 p z) ⟨0, by decide⟩)).toInt.toNat (128 - 1) + 0 + 0 = q.val
    rw [hsi, hq]
    omega

theorem tailTake2_apply (X : S1024x128.Idx → Elt F .f32) (idx : S1024x128.Idx → BitVec 32) (hidx : ∀ k, (idx k).toNat < 100)
    (p : Fin 1024) (z : Fin 128) (q : Fin 128) (hq : q.val = (idx (ix2 p z)).toNat) :
    tailTake2 X idx (ix2 p z) = X (ix2 p q) := by
  unfold tailTake2
  rw [select_apply, tailInb2_apply idx hidx, select_one]
  refine tailGather2_apply X (tailStart2 idx) p z q ?_
  rw [tailStart2_apply idx hidx, tail_clamp_word _ (hidx _)]
  exact hq

end Takes

/-! ## The result at an index -/

/-- Column 0 of the result: the score of the sample against its positive label. -/
theorem tailOut_apply_zero (S : S128x1024.Idx → Elt F .f32) (pls : S1024.Idx → BitVec 32) (nls : S1024x128.Idx → BitVec 32)
    (hp : ∀ i, (pls i).toNat < 100) (p : Fin 1024) (j : Fin 129) (hj : j.val = 0) (q : Fin 128) (hq : q.val = (pls (ix1 p)).toNat) :
    tailOut S pls nls (ix2 p j) = S (ix2 q p) := by
  unfold tailOut
  rw [concatenate_pair_apply_left _ _ _ concatenates_S1024x1_S1024x128_S1024x129_d1 (ix2 p j) rfl (ix2 p (0 : Fin 1))
    (fun b => match b with | ⟨0, _⟩ => rfl | ⟨1, _⟩ => hj.symm)]
  rw [broadcastInDim_apply ![0] bcast_S1024_S1024x1_0 _ (ix2 p (0 : Fin 1)) (ix1 p) (fun a => match a with | ⟨0, _⟩ => rfl)]
  rw [shapeCast_apply _ shapeCasts_S1024x1_S1024 (ix1 p) (ix2 p (0 : Fin 1)) (by
    rw [Shape.rowMajor_val_two, Shape.rowMajor_val_one]
    show p.val * 1 + 0 = p.val
    omega)]
  have hidx : ∀ k, ((broadcastInDim S1024x1 ![0] bcast_S1024_S1024x1_0 pls) k).toNat < 100 := fun k => hp _
  rw [tailTake1_apply (tailMasked S) _ hidx p 0 q (by
    rw [broadcastInDim_apply ![0] bcast_S1024_S1024x1_0 pls (ix2 p (0 : Fin 1)) (ix1 p) (fun a => match a with | ⟨0, _⟩ => rfl)]
    exact hq)]
  exact tailMasked_apply S p q (by rw [hq]; exact hp _)

/-- Column `j ≥ 1` of the result: the score of the sample against its negative label `j − 1`. -/
theorem tailOut_apply_succ (S : S128x1024.Idx → Elt F .f32) (pls : S1024.Idx → BitVec 32) (nls : S1024x128.Idx → BitVec 32)
    (hn : ∀ i, (nls i).toNat < 100) (p : Fin 1024) (j : Fin 129) (hj : ¬ j.val = 0) (z : Fin 128) (hz : z.val = j.val - 1)
    (q : Fin 128) (hq : q.val = (nls (ix2 p z)).toNat) :
    tailOut S pls nls (ix2 p j) = S (ix2 q p) := by
  unfold tailOut
  rw [concatenate_pair_apply_right _ _ _ concatenates_S1024x1_S1024x128_S1024x129_d1 (ix2 p j) rfl rfl (ix2 p z)
    (fun b hb => match b, hb with | ⟨0, _⟩, _ => rfl | ⟨1, _⟩, hb => absurd rfl hb)
    (by show z.val + 1 = j.val; omega)]
  rw [tailTake2_apply (tailMasked S) nls hn p z q hq]
  exact tailMasked_apply S p q (by rw [hq]; exact hn _)

/-! ## The program's result buffer -/

section Result
variable (m : (ℓ : Loc nD τ sig) → Buf (Elt F) ℓ) (outs : Outs (F := F)) (c : Dev nD)

/-- The result buffer after the last host stretch is the tail's function of the score matrix the last region left and of the
    two label arguments. -/
theorem tail_V24_v29 : (V24 m outs c main_v29 : S1024x129.Idx → Elt F .f32)
    = tailOut (outs 17 main_v17 c : S128x1024.Idx → Elt F .f32)
        (m ((c : Thread nD τ).loc main_arg2) : S1024.Idx → BitVec 32)
        (m ((c : Thread nD τ).loc main_arg3) : S1024x128.Idx → BitVec 32) := by
  have a2 : V19 m outs c main_arg2 = m ((c : Thread nD τ).loc main_arg2) :=
    (V20_of m outs c main_arg2 (by decide)).symm.trans <| (V21_of m outs c main_arg2 (by decide)).symm.trans <|
      (V22_of m outs c main_arg2 (by decide)).symm.trans <| (V23_of m outs c main_arg2 (by decide)).symm.trans <|
      (V24_of m outs c main_arg2 (by decide)).symm.trans (V24_main_arg2 m outs c)
  have a3 : V22 m outs c main_arg3 = m ((c : Thread nD τ).loc main_arg3) :=
    (V23_of m outs c main_arg3 (by decide)).symm.trans <| (V24_of m outs c main_arg3 (by decide)).symm.trans (V24_main_arg3 m outs c)
  have e17 : V17 m outs c main_v17 = outs 17 main_v17 c := Function.update_self ..
  have e18 : (V18 m outs c (Proc.devRef .tc main_v18) : S1024x128.Idx → Elt F .f32)
      = transpose S1024x128 [1, 0] (outs 17 main_v17 c : S128x1024.Idx → Elt F .f32) transposes_S128x1024_S1024x128_1_0 :=
    (tail_stretch8_v18 (V17 m outs c)).trans (by rw [e17])
  have e22 : (V18 m outs c (Proc.devRef .tc main_v22) : S1x128.Idx → BitVec 1) = tailMask := tail_stretch8_v22 (V17 m outs c)
  have ecst : (V18 m outs c (Proc.devRef .tc main_cst) : S_.Idx → Elt F .f32) = constant S_ .f32 0xFF800000#32 :=
    tail_stretch8_cst (V17 m outs c)
  have e23 : (V19 m outs c (Proc.devRef .tc main_v23) : S1024x128.Idx → Elt F .f32)
      = tailMasked (outs 17 main_v17 c : S128x1024.Idx → Elt F .f32) := by
    refine (tail_stretch8_1 (V18 m outs c)).trans ?_
    rw [e22, e18, ecst]
    rfl
  have e23_20 : V20 m outs c main_v23 = V19 m outs c main_v23 := V20_of m outs c main_v23 (by decide)
  have e24 : (V20 m outs c (Proc.devRef .tc main_v24) : S1024x1.Idx → BitVec 32)
      = broadcastInDim S1024x1 ![0] bcast_S1024_S1024x1_0 (m ((c : Thread nD τ).loc main_arg2) : S1024.Idx → BitVec 32) :=
    (tail_stretch8_2 (V19 m outs c)).trans (by rw [a2])
  have e25 : (V21 m outs c (Proc.devRef .tc main_v25) : S1024x1.Idx → Elt F .f32)
      = tailTake1 (tailMasked (outs 17 main_v17 c : S128x1024.Idx → Elt F .f32))
          (broadcastInDim S1024x1 ![0] bcast_S1024_S1024x1_0 (m ((c : Thread nD τ).loc main_arg2) : S1024.Idx → BitVec 32)) :=
    (tail_stretch8_3 (V20 m outs c)).trans (by rw [e23_20, e23, e24])
  have e26 : (V22 m outs c (Proc.devRef .tc main_v26) : S1024.Idx → Elt F .f32)
      = shapeCast S1024 (tailTake1 (tailMasked (outs 17 main_v17 c : S128x1024.Idx → Elt F .f32))
          (broadcastInDim S1024x1 ![0] bcast_S1024_S1024x1_0 (m ((c : Thread nD τ).loc main_arg2) : S1024.Idx → BitVec 32)))
          shapeCasts_S1024x1_S1024 :=
    (tail_stretch8_4 (V21 m outs c)).trans (by rw [e25])
  have e23_22 : V22 m outs c main_v23 = V19 m outs c main_v23 :=
    (V22_of m outs c main_v23 (by decide)).trans <| (V21_of m outs c main_v23 (by decide)).trans (V20_of m outs c main_v23 (by decide))
  have e27 : (V23 m outs c (Proc.devRef .tc main_v27) : S1024x128.Idx → Elt F .f32)
      = tailTake2 (tailMasked (outs 17 main_v17 c : S128x1024.Idx → Elt F .f32))
          (m ((c : Thread nD τ).loc main_arg3) : S1024x128.Idx → BitVec 32) :=
    (tail_stretch8_5 (V22 m outs c)).trans (by rw [e23_22, e23, a3])
  have e26_23 : V23 m outs c main_v26 = V22 m outs c main_v26 := V23_of m outs c main_v26 (by decide)
  refine (tail_stretch8_6 (V23 m outs c)).trans ?_
  rw [e26_23, e26, e27]
  rfl

/-- THE TAIL: with the labels in range, the result at `(p, j)` is the score matrix at (the label, the sample) — the positive
    label for column 0, the negative label `j − 1` for column `j ≥ 1`. -/
theorem tail_result
    (hp : ∀ i : S1024.Idx, ((m ((c : Thread nD τ).loc main_arg2) : S1024.Idx → BitVec 32) i).toNat < 100)
    (hn : ∀ i : S1024x128.Idx, ((m ((c : Thread nD τ).loc main_arg3) : S1024x128.Idx → BitVec 32) i).toNat < 100)
    (p : Fin 1024) (j : Fin 129) :
    (V24 m outs c main_v29 : S1024x129.Idx → Elt F .f32) (ix2 p j)
      = if h : j.val = 0 then
          (outs 17 main_v17 c : S128x1024.Idx → Elt F .f32)
            (ix2 ⟨((m ((c : Thread nD τ).loc main_arg2) : S1024.Idx → BitVec 32) (ix1 p)).toNat, by have := hp (ix1 p); omega⟩ p)
        else
          (outs 17 main_v17 c : S128x1024.Idx → Elt F .f32)
            (ix2 ⟨((m ((c : Thread nD τ).loc main_arg3) : S1024x128.Idx → BitVec 32)
                (ix2 p ⟨j.val - 1, by have := j.isLt; omega⟩)).toNat,
              by have := hn (ix2 p ⟨j.val - 1, by have := j.isLt; omega⟩); omega⟩ p) := by
  rw [tail_V24_v29 m outs c]
  split
  · next h => exact tailOut_apply_zero _ _ _ hp p j h _ rfl
  · next h => exact tailOut_apply_succ _ _ _ hn p j h ⟨j.val - 1, by have := j.isLt; omega⟩ rfl _ rfl

end Result

end Cert.KernelIdeal.Hand

end
-- ==== Proof.KI.V0.lean ====
import proofs.«403270_j28226525069939_3_alg».proof.Proof.KI.R0
import proofs.«403270_j28226525069939_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

/-! # Region 0, the value: the output array ends holding relu(relu(x)·Wᵀ + b) over columns 0 … 4095 of x

Over the extended reals the format changes are the identity and a product into a zero accumulator is a plain sum.
One point adds, to the accumulator, the product of the positive part of the activation's 512-column block with the
weight's block; over the 8 contraction blocks of one column block of the output the accumulator runs through the
partial sums of the 4096-term sum; at the last of them the output block is the positive part of sum plus bias. -/

/-! ## The contraction's operand indices, axis by axis -/

theorem lhs0_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs0_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs0_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs0_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of the two blocks, read at an entry: row p of the one against row q of the other. -/
theorem matmul0_apply (x : FVec Ideal S1024x512 .bf16) (w : FVec Ideal S1024x512 .bf16) (p : Fin 1024) (q : Fin 1024) :
    matmul dot_S1024x512_S1024x512_S1024x1024_1_1_0_0_n_n none x w (constant (F := Ideal) S1024x1024 .f32 0x00000000#32) (ix2 p q)
      = ∑ k : Fin 512, x (ix2 p k) * w (ix2 q k) := by
  show FloatOps.matmul dot_S1024x512_S1024x512_S1024x1024_1_1_0_0_n_n none x w (constant (F := Ideal) S1024x1024 .f32 0x00000000#32) (ix2 p q) = _
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs0_0 _ _
    | ⟨1, _⟩ => exact (lhs0_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs0_0 _ _
    | ⟨1, _⟩ => exact (rhs0_1 _ _).trans hk)
  rw [el, er]

/-- The reset accumulator is zero everywhere. -/
theorem pay0_1_apply (j : S1024x1024.Idx) : (k0_pay1 (F := Ideal) j : EReal) = 0 := by
  unfold k0_pay1
  simp only [shapeCast_self, broadcast_apply]
  exact Ideal.ofBits_zero_f32

/-- One point's step at an entry: the accumulator plus row p of the positive part of the activation block against
    row q of the weight block. -/
theorem pay0_2_apply (x : Vec Ideal S1024x512 .f32) (w : Vec Ideal S1024x512 .f32) (acc : Vec Ideal S1024x1024 .f32) (p : Fin 1024) (q : Fin 1024) :
    (k0_pay2 (F := Ideal) x w acc (ix2 p q) : EReal)
      = (acc (ix2 p q) : EReal) + ∑ k : Fin 512, max (x (ix2 p k) : EReal) 0 * (w (ix2 q k) : EReal) := by
  unfold k0_pay2
  simp only [shapeCast_self, addf_apply, matmul0_apply, truncf_apply, maximumf_apply, broadcast_apply]
  rw [show (FloatOps.ofBits (F := Ideal) .f32 0x00000000#32) = 0 from Ideal.ofBits_zero_f32]

/-- The output block at an entry: the positive part of accumulator plus bias. -/
theorem pay0_3_apply (acc : Vec Ideal S1024x1024 .f32) (b : Vec Ideal S1x1024 .f32) (p : Fin 1024) (q : Fin 1024) :
    (k0_pay3 (F := Ideal) acc b (ix2 p q) : EReal) = max ((acc (ix2 p q) : EReal) + (b (ix2 (0 : Fin 1) q) : EReal)) 0 := by
  unfold k0_pay3
  simp only [shapeCast_self, addf_apply, truncf_apply, maximumf_apply, broadcast_apply, broadcastTo_1b_ab_apply]
  rw [show (FloatOps.ofBits (F := Ideal) .f32 0x00000000#32) = 0 from Ideal.ofBits_zero_f32]

/-! ## Eight blocks of 512 are the 4096 columns -/

/-- A sum over 4096 indices, cut into 8 consecutive runs of 512. -/
theorem sum_blocks0 (f : Fin 4096 → EReal) :
    ∑ k : Fin 4096, f k = ∑ j : Fin 8, ∑ k : Fin 512, f ⟨512 * j.val + k.val, by have := j.isLt; have := k.isLt; omega⟩ := by
  rw [← Equiv.sum_comp (finProdFinEquiv (m := 8) (n := 512)) f, Fintype.sum_prod_type]
  refine Finset.sum_congr rfl fun j _ => Finset.sum_congr rfl fun k _ => ?_
  congr 1
  apply Fin.ext
  show k.val + 512 * j.val = 512 * j.val + k.val
  omega

/-! ## From blocks to the array -/

variable (V : (c : Dev nD) → (b : Ref sig .tc) → Buf (Elt Ideal) ((c : Thread nD τ).loc b))

/-- The printed index maps over the grid (point t = 8 n + k): the activation's block is column block k, the weight's
    block is (n, k), the bias's and the output's block is column block n. -/
theorem idx_facts0 : ∀ t : Fin cfg0.N,
    win0_0.index t (0 : Fin 2) = 0 ∧ win0_0.index t (1 : Fin 2) = t.val % 8 + 0
    ∧ win0_1.index t (0 : Fin 2) = t.val / 8 ∧ win0_1.index t (1 : Fin 2) = t.val % 8
    ∧ win0_2.index t (0 : Fin 2) = 0 ∧ win0_2.index t (1 : Fin 2) = t.val / 8
    ∧ win0_3.index t (0 : Fin 2) = 0 ∧ win0_3.index t (1 : Fin 2) = t.val / 8 :=
  (by decide +kernel : ∀ t : Fin grid0.N, _)

/-- The accumulator is reset at the points t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The activation's block at point t is columns 0 + 512 (t mod 8) … of the array. -/
theorem iblk0_0_apply (c : Dev nD) (t : Fin cfg0.N) (p : Fin 1024) (k : Fin 512) (j : Fin 12288)
    (hj : j.val = 0 + (512 * (t.val % 8) + k.val)) :
    (iblk0 V c 0 t : Vec Ideal S1024x512 .f32) (ix2 p k) = (V c main_arg0 : S1024x12288.Idx → EReal) (ix2 p j) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * p.val = p.val; rw [e0]; omega
  | ⟨1, _⟩ => show win0_0.index t (1 : Fin 2) * 512 + 1 * k.val = j.val; rw [e1, hj]; omega

/-- The weight's block at point t is rows 1024 (t / 8) …, columns 512 (t mod 8) … of the array. -/
theorem iblk0_1_apply (c : Dev nD) (t : Fin cfg0.N) (q : Fin 1024) (k : Fin 512) (r : Fin 2048) (j : Fin 4096)
    (hr : r.val = 1024 * (t.val / 8) + q.val) (hj : j.val = 512 * (t.val % 8) + k.val) :
    (iblk0 V c 1 t : Vec Ideal S1024x512 .f32) (ix2 q k) = (V c main_arg4 : S2048x4096.Idx → EReal) (ix2 r j) := by
  obtain ⟨-, -, e0, e1, -⟩ := idx_facts0 t
  unfold iblk0
  rw [View.read_apply]
  show V c main_arg4 _ = V c main_arg4 _
  congr 1
  funext a
  apply Fin.ext
  match a with
  | ⟨0, _⟩ => show win0_1.index t (0 : Fin 2) * 1024 + 1 * q.val = r.val; rw [e0, hr]; omega
  | ⟨1, _⟩ => show win0_1.index t (1 : Fin 2) * 512 + 1 * k.val = j.val; rw [e1, hj]; omega

/-- The bias's block at point t is columns 1024 (t / 8) … of its one row. -/
theorem iblk0_2_apply (c : Dev nD) (t : Fin cfg0.N) (q : Fin 1024) (r : Fin 2048) (hr : r.val = 1024 * (t.val / 8) + q.val) :
    (iblk0 V c 2 t : Vec Ideal S1x1024 .f32) (ix2 (0 : Fin 1) q) = (V c main_v0 : S1x2048.Idx → EReal) (ix2 (0 : Fin 1) r) := by
  obtain ⟨-, -, -, -, e0, e1, -⟩ := idx_facts0 t
  unfold iblk0
  rw [View.read_apply]
  show V c main_v0 _ = V c main_v0 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = r.val; rw [e1, hr]; omega

/-- The activation, the weight and the bias as matrices and a row. -/
abbrev Xs0 (c : Dev nD) : Fin 1024 → Fin 12288 → EReal := fun a k => (V c main_arg0 : S1024x12288.Idx → EReal) (ix2 a k)
abbrev W0 (c : Dev nD) : Fin 2048 → Fin 4096 → EReal := fun a k => (V c main_arg4 : S2048x4096.Idx → EReal) (ix2 a k)
abbrev b0 (c : Dev nD) : Fin 2048 → EReal := fun a => (V c main_v0 : S1x2048.Idx → EReal) (ix2 0 a)

/-- The j-th run of 512 terms of row p of the positive part of the activation (from column 0) against row r of the weight
    (zero past the 8 runs). -/
def part0 (c : Dev nD) (p : Fin 1024) (r : Fin 2048) (j : ℕ) : EReal :=
  if hj : j < 8 then ∑ k : Fin 512, max (Xs0 V c p ⟨0 + (512 * j + k.val), by have := k.isLt; omega⟩) 0 * W0 V c r ⟨512 * j + k.val, by have := k.isLt; omega⟩
  else 0

/-- One point's step at an entry: zero at a resetting point, else the accumulator found, plus this point's run. -/
theorem step0 (c : Dev nD) (t : Fin cfg0.N) (xs : Vec Ideal S1024x1024 .f32) (p q : Fin 1024) (r : Fin 2048)
    (hr : r.val = 1024 * (t.val / 8) + q.val) :
    (accNext0 (F := Ideal) (grid0.coords t) (iblk0 V c 0 t) (iblk0 V c 1 t) xs (ix2 p q) : EReal)
      = (if t.val % 8 = 0 then 0 else (xs (ix2 p q) : EReal)) + part0 V c p r (t.val % 8) := by
  have hlt : t.val % 8 < 8 := Nat.mod_lt _ (by decide)
  unfold accNext0
  rw [pay0_2_apply]
  congr 1
  · by_cases h : t.val % 8 = 0
    · rw [if_pos h, if_pos ((hcond0_0 t).mpr h)]; exact pay0_1_apply _
    · rw [if_neg h, if_neg (fun hc => h ((hcond0_0 t).mp hc))]
  · unfold part0
    rw [dif_pos hlt]
    refine Finset.sum_congr rfl fun k _ => ?_
    rw [iblk0_0_apply V c t p k ⟨0 + (512 * (t.val % 8) + k.val), by have := k.isLt; omega⟩ rfl,
      iblk0_1_apply V c t q k r ⟨512 * (t.val % 8) + k.val, by have := k.isLt; omega⟩ hr rfl]

/-- The accumulator after point n = 8 m + k, at an entry: the first k + 1 runs of the row sum. -/
theorem acc0_apply (c : Dev nD) (p q : Fin 1024) : ∀ (n : ℕ) (hn : n < cfg0.N) (r : Fin 2048), r.val = 1024 * (n / 8) + q.val →
    (acc0 (F := Ideal) V c n hn (ix2 p q) : EReal) = ∑ j ∈ Finset.range (n % 8 + 1), part0 V c p r j := by
  intro n
  induction n with
  | zero =>
    intro hn r hr
    rw [show acc0 (F := Ideal) V c 0 hn = accNext0 (grid0.coords ⟨0, hn⟩) (iblk0 V c 0 ⟨0, hn⟩) (iblk0 V c 1 ⟨0, hn⟩) (k0_pay1 (F := Ideal)) from rfl,
      step0 V c ⟨0, hn⟩ _ p q r hr]
    show (if 0 % 8 = 0 then (0 : EReal) else _) + part0 V c p r (0 % 8) = ∑ j ∈ Finset.range (0 % 8 + 1), part0 V c p r j
    rw [if_pos (Nat.zero_mod 8), Nat.zero_mod, zero_add, Finset.sum_range_one]
  | succ n ih =>
    intro hn r hr
    rw [show acc0 (F := Ideal) V c (n + 1) hn = accNext0 (grid0.coords ⟨n + 1, hn⟩) (iblk0 V c 0 ⟨n + 1, hn⟩) (iblk0 V c 1 ⟨n + 1, hn⟩)
        (acc0 V c n (Nat.lt_of_succ_lt hn)) from rfl, step0 V c ⟨n + 1, hn⟩ _ p q r hr]
    show (if (n + 1) % 8 = 0 then (0 : EReal) else _) + part0 V c p r ((n + 1) % 8) = _
    by_cases h : (n + 1) % 8 = 0
    · rw [if_pos h, h, zero_add, Finset.sum_range_one]
    · rw [if_neg h, ih (Nat.lt_of_succ_lt hn) r (by rw [hr]; show 1024 * ((n + 1) / 8) + q.val = 1024 * (n / 8) + q.val; omega),
        show (n + 1) % 8 = n % 8 + 1 by omega]
      exact (Finset.sum_range_succ _ _).symm

/-- All 8 runs are the whole row sum over the 4096 columns from column 0. -/
theorem sum_parts0 (c : Dev nD) (p : Fin 1024) (r : Fin 2048) :
    ∑ j ∈ Finset.range 8, part0 V c p r j
      = ∑ k : Fin 4096, max (Cert.Spec.cols 4096 0 (by decide) (Xs0 V c) p k) 0 * W0 V c r k := by
  rw [Finset.sum_range, sum_blocks0]
  refine Finset.sum_congr rfl fun j _ => ?_
  unfold part0
  rw [dif_pos j.isLt]
  rfl

/-- What the output array ends holding: the layer's result, entry by entry. -/
def G0 (c : Dev nD) : S1024x2048.Idx → EReal := fun i =>
  Cert.Spec.hidden (Cert.Spec.cols 4096 0 (by decide) (Xs0 V c)) (W0 V c) (b0 V c) (i 0) (i 1)

/-- What a point that writes back writes is its block of the layer's result. -/
theorem flushed0_eq (c : Dev nD) (t : Fin cfg0.N) (hf : (cfg0.win 3).flush t = true) :
    (dat0 (F := Ideal) V c).flushed 3 t = ((cfg0.win 3).blk t).view.read (Elt Ideal) (G0 V c) := by
  show (cfg0.win 3).cut (grid0.coords t) ((dat0 V c).after 3 t) = _
  rw [after0_3]
  have h7 : t.val % 8 = 7 := (flush0_3 t).mp hf
  obtain ⟨-, -, -, -, -, -, e0, e1⟩ := idx_facts0 t
  funext j
  have hj0 : (j 0).val < 1024 := (j 0).isLt
  have hj1 : (j 1).val < 1024 := (j 1).isLt
  have hr0 : ((((cfg0.win 3).blk t).view.emb j) 0).val = (j 0).val := by
    show win0_3.index t (0 : Fin 2) * 1024 + 1 * (j 0).val = _; rw [e0]; omega
  have hr1 : ((((cfg0.win 3).blk t).view.emb j) 1).val = 1024 * (t.val / 8) + (j 1).val := by
    show win0_3.index t (1 : Fin 2) * 1024 + 1 * (j 1).val = _; rw [e1]; omega
  have hx : (cfg0.win 3).xinj (grid0.coords t) j = ix2 (⟨(j 0).val, hj0⟩ : Fin 1024) (⟨(j 1).val, hj1⟩ : Fin 1024) :=
    funext fun a => by match a with | ⟨0, _⟩ => rfl | ⟨1, _⟩ => rfl
  have hp : (((cfg0.win 3).blk t).view.emb j) 0 = (⟨(j 0).val, hj0⟩ : Fin 1024) := Fin.ext hr0
  have hlt : 1024 * (t.val / 8) + (j 1).val < 2048 := by
    have : t.val < 16 := lt_of_lt_of_eq t.isLt N_0
    omega
  have hq : (((cfg0.win 3).blk t).view.emb j) 1 = (⟨1024 * (t.val / 8) + (j 1).val, hlt⟩ : Fin 2048) := Fin.ext hr1
  show k0_pay3 (acc0 V c t.val t.isLt) (iblk0 V c 2 t) ((cfg0.win 3).xinj (grid0.coords t) j) = G0 V c (((cfg0.win 3).blk t).view.emb j)
  rw [hx, pay0_3_apply,
    show G0 V c (((cfg0.win 3).blk t).view.emb j) = Cert.Spec.hidden (Cert.Spec.cols 4096 0 (by decide) (Xs0 V c)) (W0 V c) (b0 V c)
      ((((cfg0.win 3).blk t).view.emb j) 0) ((((cfg0.win 3).blk t).view.emb j) 1) from rfl, hp, hq]
  unfold Cert.Spec.hidden
  rw [acc0_apply V c ⟨(j 0).val, hj0⟩ ⟨(j 1).val, hj1⟩ t.val t.isLt ⟨1024 * (t.val / 8) + (j 1).val, hlt⟩ rfl, h7, sum_parts0,
    iblk0_2_apply V c t ⟨(j 1).val, hj1⟩ ⟨1024 * (t.val / 8) + (j 1).val, hlt⟩ rfl]

/-- An index of the array is in point t's block iff each coordinate is in the block's range on its axis. -/
theorem mem_blk0 (t : Fin cfg0.N) (i : S1024x2048.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Column s of the array is in the block written back at the last contraction point of column block s / 1024. -/
theorem cover0 (i : S1024x2048.Idx) : ∃ t : Fin cfg0.N, (cfg0.win 3).flush t = true ∧ i ∈ ((cfg0.win 3).blk t).view.set := by
  have hi0 : (i 0).val < 1024 := (i 0).isLt
  have hi1 : (i 1).val < 2048 := (i 1).isLt
  have hN : cfg0.N = 16 := N_0
  have hlt : 8 * ((i 1).val / 1024) + 7 < cfg0.N := by rw [hN]; omega
  refine ⟨⟨8 * ((i 1).val / 1024) + 7, hlt⟩, (flush0_3 _).mpr (by show (8 * ((i 1).val / 1024) + 7) % 8 = 7; omega), ?_⟩
  rw [mem_blk0]
  obtain ⟨-, -, -, -, -, -, e0, e1⟩ := idx_facts0 ⟨8 * ((i 1).val / 1024) + 7, hlt⟩
  intro a
  match a with
  | ⟨0, _⟩ =>
    show win0_3.index _ (0 : Fin 2) * 1024 ≤ (i 0).val ∧ (i 0).val < win0_3.index _ (0 : Fin 2) * 1024 + 1024
    rw [e0]; omega
  | ⟨1, _⟩ =>
    show win0_3.index _ (1 : Fin 2) * 1024 ≤ (i 1).val ∧ (i 1).val < win0_3.index _ (1 : Fin 2) * 1024 + 1024
    rw [e1]; show (8 * ((i 1).val / 1024) + 7) / 8 * 1024 ≤ (i 1).val ∧ (i 1).val < (8 * ((i 1).val / 1024) + 7) / 8 * 1024 + 1024; omega

/-- The output array after the region: the layer's result. -/
theorem arrAt0_eq (c : Dev nD) : (dat0 (F := Ideal) V c).arrAt 3 cfg0.N = G0 V c :=
  (dat0 (F := Ideal) V c).arrAt_eq_of_cover 3 (G0 V c) (fun t hf => flushed0_eq V c t hf) (cover0)

/-- The output array after the region, entry by entry. -/
theorem arrAt0_apply (c : Dev nD) (p : Fin 1024) (q : Fin 2048) :
    ((dat0 (F := Ideal) V c).arrAt 3 cfg0.N : S1024x2048.Idx → EReal) (ix2 p q)
      = Cert.Spec.hidden (Cert.Spec.cols 4096 0 (by decide) (fun a k => (V c main_arg0 : S1024x12288.Idx → EReal) (ix2 a k)))
          (fun a k => (V c main_arg4 : S2048x4096.Idx → EReal) (ix2 a k)) (fun a => (V c main_v0 : S1x2048.Idx → EReal) (ix2 0 a)) p q := by
  rw [arrAt0_eq]
  rfl

end Cert.KernelIdeal.Hand

end
-- ==== Proof.KI.V2.lean ====
import proofs.«403270_j28226525069939_3_alg».proof.Proof.KI.R2
import proofs.«403270_j28226525069939_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

/-! # Region 2, the value: the output array ends holding x·Wᵀ + b

The payload read at an entry is a row of the activation block against a row of the weight plus the bias
(the format changes are the identity over the extended reals, the product into a zero accumulator is a plain sum);
each input block is its array read at block index × block size + the coordinate inside the block; the four
output row blocks tile the array, row r lying in the block of point r / 256. -/

/-! ## The contraction's operand indices, axis by axis -/

theorem lhs2_0 (i : S256x600.Idx) (q : dot_S256x2048_S600x2048_S256x600_1_1_0_0_n_n.contr.Idx) :
    (dot_S256x2048_S600x2048_S256x600_1_1_0_0_n_n.lhsIdx i q 0).val = (i 0).val := by
  unfold DotDims.lhsIdx
  rw [dif_neg (show ¬(0 : Fin S256x2048.rank) ∈ dot_S256x2048_S600x2048_S256x600_1_1_0_0_n_n.lhsBatch by decide), dif_pos (show (0 : Fin S256x2048.rank) ∈ dot_S256x2048_S600x2048_S256x600_1_1_0_0_n_n.lhsNonContracting by decide)]
  rfl
theorem lhs2_1 (i : S256x600.Idx) (q : dot_S256x2048_S600x2048_S256x600_1_1_0_0_n_n.contr.Idx) :
    (dot_S256x2048_S600x2048_S256x600_1_1_0_0_n_n.lhsIdx i q 1).val = (q ⟨0, by decide⟩).val :=
  dot_S256x2048_S600x2048_S256x600_1_1_0_0_n_n.lhsIdx_val_of_single rfl i q
theorem rhs2_0 (i : S256x600.Idx) (q : dot_S256x2048_S600x2048_S256x600_1_1_0_0_n_n.contr.Idx) :
    (dot_S256x2048_S600x2048_S256x600_1_1_0_0_n_n.rhsIdx i q 0).val = (i 1).val := by
  unfold DotDims.rhsIdx
  rw [dif_neg (show ¬(0 : Fin S600x2048.rank) ∈ dot_S256x2048_S600x2048_S256x600_1_1_0_0_n_n.rhsBatch by decide), dif_pos (show (0 : Fin S600x2048.rank) ∈ dot_S256x2048_S600x2048_S256x600_1_1_0_0_n_n.rhsNonContracting by decide)]
  rfl
theorem rhs2_1 (i : S256x600.Idx) (q : dot_S256x2048_S600x2048_S256x600_1_1_0_0_n_n.contr.Idx) :
    (dot_S256x2048_S600x2048_S256x600_1_1_0_0_n_n.rhsIdx i q 1).val = (q ⟨0, by decide⟩).val :=
  dot_S256x2048_S600x2048_S256x600_1_1_0_0_n_n.rhsIdx_val_of_single rfl i q

/-- The product of a row block against the whole weight, read at an entry: row p of the block against row q of the weight. -/
theorem matmul2_apply (x : FVec Ideal S256x2048 .bf16) (w : FVec Ideal S600x2048 .bf16) (p : Fin 256) (q : Fin 600) :
    matmul dot_S256x2048_S600x2048_S256x600_1_1_0_0_n_n none x w (constant (F := Ideal) S256x600 .f32 0x00000000#32) (ix2 p q)
      = ∑ k : Fin 2048, x (ix2 p k) * w (ix2 q k) := by
  show FloatOps.matmul dot_S256x2048_S600x2048_S256x600_1_1_0_0_n_n none x w (constant (F := Ideal) S256x600 .f32 0x00000000#32) (ix2 p q) = _
  rw [Ideal.matmul_constant_zero_apply, ← Equiv.sum_comp (ValueIdx.contrEquiv1 dot_S256x2048_S600x2048_S256x600_1_1_0_0_n_n 2048 rfl rfl).symm]
  refine Finset.sum_congr rfl fun k _ => ?_
  have hk := ValueIdx.contrEquiv1_symm_val dot_S256x2048_S600x2048_S256x600_1_1_0_0_n_n 2048 rfl rfl k
  have el : dot_S256x2048_S600x2048_S256x600_1_1_0_0_n_n.lhsIdx (ix2 p q) ((ValueIdx.contrEquiv1 dot_S256x2048_S600x2048_S256x600_1_1_0_0_n_n 2048 rfl rfl).symm k) = ix2 p k := funext fun a => Fin.ext (by
    match a with
    | ⟨0, _⟩ => exact lhs2_0 _ _
    | ⟨1, _⟩ => exact (lhs2_1 _ _).trans hk)
  have er : dot_S256x2048_S600x2048_S256x600_1_1_0_0_n_n.rhsIdx (ix2 p q) ((ValueIdx.contrEquiv1 dot_S256x2048_S600x2048_S256x600_1_1_0_0_n_n 2048 rfl rfl).symm k) = ix2 q k := funext fun a => Fin.ext (by
    match a with
    | ⟨0, _⟩ => exact rhs2_0 _ _
    | ⟨1, _⟩ => exact (rhs2_1 _ _).trans hk)
  rw [el, er]

/-- The payload at an entry: the row of the activation block against the row of the weight, plus the bias. -/
theorem pay2_apply (x : Vec Ideal S256x2048 .bf16) (w : Vec Ideal S600x2048 .f32) (b : Vec Ideal S1x600 .f32) (p : Fin 256) (q : Fin 600) :
    k2_pay1 (F := Ideal) x w b (ix2 p q) = (∑ k : Fin 2048, x (ix2 p k) * w (ix2 q k)) + b (ix2 (0 : Fin 1) q) := by
  unfold k2_pay1
  rw [truncf_apply, addf_apply, shapeCast_self, shapeCast_self, broadcastTo_1b_ab_apply, matmul2_apply]
  rfl

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- What the body leaves in the output block, at an entry. -/
theorem out2_3_apply (x0 : Vec Ideal S256x2048 .bf16) (x1 : Vec Ideal S600x2048 .f32) (x2 : Vec Ideal S1x600 .f32) (p : Fin 256) (q : Fin 600) :
    out2_3 (F := Ideal) x0 x1 x2 (ix2 p q) = (∑ k : Fin 2048, x0 (ix2 p k) * x1 (ix2 q k)) + x2 (ix2 (0 : Fin 1) q) := by
  unfold out2_3
  rw [View.canon_unit_zero hz2]
  simp only [View.ld_unit_zero (S := S256x2048) hz2, View.ld_unit_zero (S := S600x2048) hz2, View.ld_unit_zero (S := S1x600) hz2]
  exact pay2_apply x0 x1 x2 p q

/-- The printed index maps over the grid: the activation's and the output's row block is the point's number, the weight and the bias have one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activation's block at point t is rows 256 t … 256 t + 255 of the array. -/
theorem iblk2_0_apply (c : Dev nD) (t : Fin cfg2.N) (x : S256x2048.Idx) (k : S1024x2048.Idx)
    (hk0 : (k 0).val = 256 * t.val + (x 0).val) (hk1 : (k 1).val = (x 1).val) :
    (iblk2 V c 0 t : Vec Ideal S256x2048 .bf16) x = (V c main_v1 : S1024x2048.Idx → EReal) k := by
  obtain ⟨e0, e1, -⟩ := idx_facts2 t
  unfold iblk2
  rw [View.read_apply]
  show V c main_v1 _ = V c main_v1 _
  congr 1
  funext a
  apply Fin.ext
  match a with
  | ⟨0, _⟩ => show win2_0.index t (0 : Fin 2) * 256 + 1 * (x 0).val = (k 0).val; rw [e0, hk0]; omega
  | ⟨1, _⟩ => show win2_0.index t (1 : Fin 2) * 2048 + 1 * (x 1).val = (k 1).val; rw [e1, hk1]; omega

/-- The weight's one block is the array. -/
theorem iblk2_1_apply (c : Dev nD) (t : Fin cfg2.N) (x : S600x2048.Idx) :
    (iblk2 V c 1 t : Vec Ideal S600x2048 .f32) x = (V c main_arg6 : S600x2048.Idx → EReal) x := by
  obtain ⟨-, -, e0, e1, -⟩ := idx_facts2 t
  unfold iblk2
  rw [View.read_apply]
  show V c main_arg6 _ = V c main_arg6 _
  congr 1
  funext a
  apply Fin.ext
  match a with
  | ⟨0, _⟩ => show win2_1.index t (0 : Fin 2) * 600 + 1 * (x 0).val = (x 0).val; rw [e0]; omega
  | ⟨1, _⟩ => show win2_1.index t (1 : Fin 2) * 2048 + 1 * (x 1).val = (x 1).val; rw [e1]; omega

/-- The bias's one block is the array. -/
theorem iblk2_2_apply (c : Dev nD) (t : Fin cfg2.N) (x : S1x600.Idx) :
    (iblk2 V c 2 t : Vec Ideal S1x600 .f32) x = (V c main_v4 : S1x600.Idx → EReal) x := by
  obtain ⟨-, -, -, -, e0, e1, -⟩ := idx_facts2 t
  unfold iblk2
  rw [View.read_apply]
  show V c main_v4 _ = V c main_v4 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 600 + 1 * (x 1).val = (x 1).val; rw [e1]; omega

/-- What the output array ends holding: the layer's result, entry by entry. -/
def G2 (c : Dev nD) : S1024x600.Idx → EReal := fun i =>
  Cert.Spec.lin (fun a k => (V c main_v1 : S1024x2048.Idx → EReal) (ix2 a k)) (fun a k => (V c main_arg6 : S600x2048.Idx → EReal) (ix2 a k))
    (fun a => (V c main_v4 : S1x600.Idx → EReal) (ix2 (0 : Fin 1) a)) (i 0) (i 1)

/-- What point t writes back is block t of the layer's result. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  obtain ⟨-, -, -, -, -, -, e0, e1⟩ := idx_facts2 t
  funext j
  have hj0 : (j 0).val < 256 := (j 0).isLt
  have hj1 : (j 1).val < 600 := (j 1).isLt
  have hx : (cfg2.win 3).xinj (grid2.coords t) j = ix2 (⟨(j 0).val, hj0⟩ : Fin 256) (⟨(j 1).val, hj1⟩ : Fin 600) :=
    funext fun a => by match a with | ⟨0, _⟩ => rfl | ⟨1, _⟩ => rfl
  show out2_3 (iblk2 V c 0 t) (iblk2 V c 1 t) (iblk2 V c 2 t) ((cfg2.win 3).xinj (grid2.coords t) j) = _
  rw [hx, out2_3_apply, View.read_apply]
  unfold G2 Cert.Spec.lin
  have hr0 : ((((cfg2.win 3).blk t).view.emb j) 0).val = 256 * t.val + (j 0).val := by
    show win2_3.index t (0 : Fin 2) * 256 + 1 * (j 0).val = _; rw [e0]; omega
  have hr1 : ((((cfg2.win 3).blk t).view.emb j) 1).val = (j 1).val := by
    show win2_3.index t (1 : Fin 2) * 600 + 1 * (j 1).val = _; rw [e1]; omega
  congr 1
  · refine Finset.sum_congr rfl fun k _ => ?_
    rw [iblk2_0_apply V c t _ (ix2 ((((cfg2.win 3).blk t).view.emb j) 0) k) hr0 rfl, iblk2_1_apply]
    congr 2
    funext a
    apply Fin.ext
    match a with
    | ⟨0, _⟩ => exact hr1.symm
    | ⟨1, _⟩ => rfl
  · rw [iblk2_2_apply]
    congr 1
    funext a
    apply Fin.ext
    match a with
    | ⟨0, _⟩ => rfl
    | ⟨1, _⟩ => exact hr1.symm

/-- An index of the array is in point t's block iff each coordinate is in the block's range on its axis. -/
theorem mem_blk2 (t : Fin cfg2.N) (i : S1024x600.Idx) :
    i ∈ ((cfg2.win 3).blk t).view.set ↔ ∀ a : Fin 2, win2_3.index t a * S256x600.size a ≤ (i a).val ∧ (i a).val < win2_3.index t a * S256x600.size a + S256x600.size a := by
  show i ∈ ((View.whole main_v5).slice (win2_3.rect t)).set ↔ _
  rw [View.set_slice_whole, Rect.mem_set_unit]
  exact Iff.rfl

/-- Row r of the array is in the block of point r / 256. -/
theorem cover2 (i : S1024x600.Idx) : ∃ t : Fin cfg2.N, (cfg2.win 3).flush t = true ∧ i ∈ ((cfg2.win 3).blk t).view.set := by
  have hi0 : (i 0).val < 1024 := (i 0).isLt
  have hi1 : (i 1).val < 600 := (i 1).isLt
  have hN : cfg2.N = 4 := N_2
  refine ⟨⟨(i 0).val / 256, by rw [hN]; omega⟩, flush2_3 _, ?_⟩
  rw [mem_blk2]
  obtain ⟨-, -, -, -, -, -, e0, e1⟩ := idx_facts2 ⟨(i 0).val / 256, by rw [hN]; omega⟩
  intro a
  match a with
  | ⟨0, _⟩ =>
    show win2_3.index _ (0 : Fin 2) * 256 ≤ (i 0).val ∧ (i 0).val < win2_3.index _ (0 : Fin 2) * 256 + 256
    rw [e0]; show (i 0).val / 256 * 256 ≤ (i 0).val ∧ (i 0).val < (i 0).val / 256 * 256 + 256; omega
  | ⟨1, _⟩ =>
    show win2_3.index _ (1 : Fin 2) * 600 ≤ (i 1).val ∧ (i 1).val < win2_3.index _ (1 : Fin 2) * 600 + 600
    rw [e1]; omega

/-- The output array after the region: the layer's result. -/
theorem arrAt2_eq (c : Dev nD) : (dat2 (F := Ideal) V c).arrAt 3 cfg2.N = G2 V c :=
  (dat2 (F := Ideal) V c).arrAt_eq_of_cover 3 (G2 V c) (fun t _ => flushed2_eq V c t) (cover2)

/-- The output array after the region, entry by entry. -/
theorem arrAt2_apply (c : Dev nD) (p : Fin 1024) (q : Fin 600) :
    ((dat2 (F := Ideal) V c).arrAt 3 cfg2.N : S1024x600.Idx → EReal) (ix2 p q)
      = Cert.Spec.lin (fun a k => (V c main_v1 : S1024x2048.Idx → EReal) (ix2 a k)) (fun a k => (V c main_arg6 : S600x2048.Idx → EReal) (ix2 a k))
          (fun a => (V c main_v4 : S1x600.Idx → EReal) (ix2 (0 : Fin 1) a)) p q := by
  rw [arrAt2_eq]
  rfl

end Cert.KernelIdeal.Hand

end
-- ==== Proof.KI.V6.lean ====
import proofs.«403270_j28226525069939_3_alg».proof.Proof.KI.R6
import proofs.«403270_j28226525069939_3_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! # Region 6 at the extended reals: the fused block is the two-layer map, and so is the array

First the two contractions read at an index: both contract the operands' column axes, so the product at `(p, k)` is
the sum over `j` of row `p` of the left operand against row `k` of the right one. -/

/-! ## The first contraction: a `128 × 1800` block against the `1800 × 1800` weight -/

theorem lhs6_fst_0 (i : S128x1800.Idx) (q : dot_S128x1800_S1800x1800_S128x1800_1_1_0_0_n_n.contr.Idx) :
    (dot_S128x1800_S1800x1800_S128x1800_1_1_0_0_n_n.lhsIdx i q 0).val = (i 0).val := by
  unfold DotDims.lhsIdx
  rw [dif_neg (show ¬(0 : Fin S128x1800.rank) ∈ dot_S128x1800_S1800x1800_S128x1800_1_1_0_0_n_n.lhsBatch by decide), dif_pos (show (0 : Fin S128x1800.rank) ∈ dot_S128x1800_S1800x1800_S128x1800_1_1_0_0_n_n.lhsNonContracting by decide)]
  rfl
theorem lhs6_fst_1 (i : S128x1800.Idx) (q : dot_S128x1800_S1800x1800_S128x1800_1_1_0_0_n_n.contr.Idx) :
    (dot_S128x1800_S1800x1800_S128x1800_1_1_0_0_n_n.lhsIdx i q 1).val = (q ⟨0, by decide⟩).val :=
  dot_S128x1800_S1800x1800_S128x1800_1_1_0_0_n_n.lhsIdx_val_of_single rfl i q
theorem rhs6_fst_0 (i : S128x1800.Idx) (q : dot_S128x1800_S1800x1800_S128x1800_1_1_0_0_n_n.contr.Idx) :
    (dot_S128x1800_S1800x1800_S128x1800_1_1_0_0_n_n.rhsIdx i q 0).val = (i 1).val := by
  unfold DotDims.rhsIdx
  rw [dif_neg (show ¬(0 : Fin S1800x1800.rank) ∈ dot_S128x1800_S1800x1800_S128x1800_1_1_0_0_n_n.rhsBatch by decide), dif_pos (show (0 : Fin S1800x1800.rank) ∈ dot_S128x1800_S1800x1800_S128x1800_1_1_0_0_n_n.rhsNonContracting by decide)]
  rfl
theorem rhs6_fst_1 (i : S128x1800.Idx) (q : dot_S128x1800_S1800x1800_S128x1800_1_1_0_0_n_n.contr.Idx) :
    (dot_S128x1800_S1800x1800_S128x1800_1_1_0_0_n_n.rhsIdx i q 1).val = (q ⟨0, by decide⟩).val :=
  dot_S128x1800_S1800x1800_S128x1800_1_1_0_0_n_n.rhsIdx_val_of_single rfl i q

/-- The first product at `(p, k)`: row `p` of the left operand against row `k` of the right one. -/
theorem matmul6_fst_apply (L : FVec Ideal S128x1800 .bf16) (R : FVec Ideal S1800x1800 .bf16) (p : Fin 128) (k : Fin 1800) :
    matmul dot_S128x1800_S1800x1800_S128x1800_1_1_0_0_n_n none L R (constant (F := Ideal) S128x1800 .f32 0x00000000#32) (ix2 p k)
      = ∑ j : Fin 1800, L (ix2 p j) * R (ix2 k j) := by
  simp only [matmul]
  rw [Ideal.matmul_constant_zero_apply, ← Equiv.sum_comp (ValueIdx.contrEquiv1 dot_S128x1800_S1800x1800_S128x1800_1_1_0_0_n_n 1800 rfl rfl).symm]
  refine Finset.sum_congr rfl fun j _ => ?_
  have hk := ValueIdx.contrEquiv1_symm_val dot_S128x1800_S1800x1800_S128x1800_1_1_0_0_n_n 1800 rfl rfl j
  have el : dot_S128x1800_S1800x1800_S128x1800_1_1_0_0_n_n.lhsIdx (ix2 p k) ((ValueIdx.contrEquiv1 dot_S128x1800_S1800x1800_S128x1800_1_1_0_0_n_n 1800 rfl rfl).symm j) = ix2 p j := funext fun a => Fin.ext (by
    match a with
    | ⟨0, _⟩ => exact lhs6_fst_0 _ _
    | ⟨1, _⟩ => exact (lhs6_fst_1 _ _).trans hk)
  have er : dot_S128x1800_S1800x1800_S128x1800_1_1_0_0_n_n.rhsIdx (ix2 p k) ((ValueIdx.contrEquiv1 dot_S128x1800_S1800x1800_S128x1800_1_1_0_0_n_n 1800 rfl rfl).symm j) = ix2 k j := funext fun a => Fin.ext (by
    match a with
    | ⟨0, _⟩ => exact rhs6_fst_0 _ _
    | ⟨1, _⟩ => exact (rhs6_fst_1 _ _).trans hk)
  rw [el, er]

/-! ## The second contraction: the `128 × 1800` hidden block against the `600 × 1800` weight -/

theorem lhs6_snd_0 (i : S128x600.Idx) (q : dot_S128x1800_S600x1800_S128x600_1_1_0_0_n_n.contr.Idx) :
    (dot_S128x1800_S600x1800_S128x600_1_1_0_0_n_n.lhsIdx i q 0).val = (i 0).val := by
  unfold DotDims.lhsIdx
  rw [dif_neg (show ¬(0 : Fin S128x1800.rank) ∈ dot_S128x1800_S600x1800_S128x600_1_1_0_0_n_n.lhsBatch by decide), dif_pos (show (0 : Fin S128x1800.rank) ∈ dot_S128x1800_S600x1800_S128x600_1_1_0_0_n_n.lhsNonContracting by decide)]
  rfl
theorem lhs6_snd_1 (i : S128x600.Idx) (q : dot_S128x1800_S600x1800_S128x600_1_1_0_0_n_n.contr.Idx) :
    (dot_S128x1800_S600x1800_S128x600_1_1_0_0_n_n.lhsIdx i q 1).val = (q ⟨0, by decide⟩).val :=
  dot_S128x1800_S600x1800_S128x600_1_1_0_0_n_n.lhsIdx_val_of_single rfl i q
theorem rhs6_snd_0 (i : S128x600.Idx) (q : dot_S128x1800_S600x1800_S128x600_1_1_0_0_n_n.contr.Idx) :
    (dot_S128x1800_S600x1800_S128x600_1_1_0_0_n_n.rhsIdx i q 0).val = (i 1).val := by
  unfold DotDims.rhsIdx
  rw [dif_neg (show ¬(0 : Fin S600x1800.rank) ∈ dot_S128x1800_S600x1800_S128x600_1_1_0_0_n_n.rhsBatch by decide), dif_pos (show (0 : Fin S600x1800.rank) ∈ dot_S128x1800_S600x1800_S128x600_1_1_0_0_n_n.rhsNonContracting by decide)]
  rfl
theorem rhs6_snd_1 (i : S128x600.Idx) (q : dot_S128x1800_S600x1800_S128x600_1_1_0_0_n_n.contr.Idx) :
    (dot_S128x1800_S600x1800_S128x600_1_1_0_0_n_n.rhsIdx i q 1).val = (q ⟨0, by decide⟩).val :=
  dot_S128x1800_S600x1800_S128x600_1_1_0_0_n_n.rhsIdx_val_of_single rfl i q

/-- The second product at `(p, q)`: row `p` of the left operand against row `q` of the right one. -/
theorem matmul6_snd_apply (L : FVec Ideal S128x1800 .bf16) (R : FVec Ideal S600x1800 .bf16) (p : Fin 128) (q : Fin 600) :
    matmul dot_S128x1800_S600x1800_S128x600_1_1_0_0_n_n none L R (constant (F := Ideal) S128x600 .f32 0x00000000#32) (ix2 p q)
      = ∑ k : Fin 1800, L (ix2 p k) * R (ix2 q k) := by
  simp only [matmul]
  rw [Ideal.matmul_constant_zero_apply, ← Equiv.sum_comp (ValueIdx.contrEquiv1 dot_S128x1800_S600x1800_S128x600_1_1_0_0_n_n 1800 rfl rfl).symm]
  refine Finset.sum_congr rfl fun k _ => ?_
  have hk := ValueIdx.contrEquiv1_symm_val dot_S128x1800_S600x1800_S128x600_1_1_0_0_n_n 1800 rfl rfl k
  have el : dot_S128x1800_S600x1800_S128x600_1_1_0_0_n_n.lhsIdx (ix2 p q) ((ValueIdx.contrEquiv1 dot_S128x1800_S600x1800_S128x600_1_1_0_0_n_n 1800 rfl rfl).symm k) = ix2 p k := funext fun a => Fin.ext (by
    match a with
    | ⟨0, _⟩ => exact lhs6_snd_0 _ _
    | ⟨1, _⟩ => exact (lhs6_snd_1 _ _).trans hk)
  have er : dot_S128x1800_S600x1800_S128x600_1_1_0_0_n_n.rhsIdx (ix2 p q) ((ValueIdx.contrEquiv1 dot_S128x1800_S600x1800_S128x600_1_1_0_0_n_n 1800 rfl rfl).symm k) = ix2 q k := funext fun a => Fin.ext (by
    match a with
    | ⟨0, _⟩ => exact rhs6_snd_0 _ _
    | ⟨1, _⟩ => exact (rhs6_snd_1 _ _).trans hk)
  rw [el, er]

/-! ## The payload at an index -/

/-- The stored block at `(p, q)`: the second layer's row `q` against the rectified first layer of the rectified
    activation row `p`, plus the second bias. -/
theorem pay6_apply (x0 : FVec Ideal S128x1800 .bf16) (x1 : FVec Ideal S1800x1800 .f32) (x2 : FVec Ideal S1x1800 .f32)
    (x3 : FVec Ideal S600x1800 .f32) (x4 : FVec Ideal S1x600 .f32) (p : Fin 128) (q : Fin 600) :
    (k6_pay1 (F := Ideal) x0 x1 x2 x3 x4 (ix2 p q) : EReal)
      = (∑ k : Fin 1800, max ((∑ j : Fin 1800, max (x0 (ix2 p j) : EReal) 0 * (x1 (ix2 k j) : EReal)) + (x2 (ix2 0 k) : EReal)) 0 * (x3 (ix2 q k) : EReal))
          + (x4 (ix2 0 q) : EReal) := by
  unfold k6_pay1
  simp only [addf_apply, matmul6_snd_apply, truncf_apply, maximumf_apply, broadcast_apply, matmul6_fst_apply,
    shapeCast_self, broadcastTo_1b_ab_apply]
  rw [show (FloatOps.ofBits (F := Ideal) .bf16 0x0000#16) = 0 from Ideal.ofBits_zero_bf16,
    show (FloatOps.ofBits (F := Ideal) .f32 0x00000000#32) = 0 from Ideal.ofBits_zero_f32]

/-! ## From blocks to the array

The activation's and the output's block at point `t` are rows `128 t … 128 t + 127`; the four parameter windows
have one block each, the whole array. -/

variable (V : (c : Dev nD) → (b : Ref sig .tc) → Buf (Elt Ideal) ((c : Thread nD τ).loc b))

theorem hz6 : (![0, 0] : Fin 2 → Nat) = fun _ => 0 := funext fun a => by fin_cases a <;> rfl

/-- The block indices over the grid: the activation and the output move down one row block per point, the
    parameters stay. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The activation's block at point `t` is rows `128 t …` of the activation. -/
theorem iblk6_0_apply (c : Dev nD) (t : Fin cfg6.N) (p : Fin 128) (j : Fin 1800) (r : Fin 1024) (hr : r.val = 128 * t.val + p.val) :
    (iblk6 V c 0 t : S128x1800.Idx → EReal) (ix2 p j) = (V c main_v12 : S1024x1800.Idx → EReal) (ix2 r j) := by
  obtain ⟨e0, e1, -⟩ := idx_facts6 t
  show (V c main_v12 : S1024x1800.Idx → EReal) (((cfg6.win 0).blk t).view.emb (ix2 p j)) = _
  congr 1
  funext a; apply Fin.ext
  match a with
  | ⟨0, _⟩ => show win6_0.index t (0 : Fin 2) * 128 + 1 * p.val = r.val; omega
  | ⟨1, _⟩ => show win6_0.index t (1 : Fin 2) * 1800 + 1 * j.val = j.val; omega

/-- The first weight's one block is the whole weight. -/
theorem iblk6_1_apply (c : Dev nD) (t : Fin cfg6.N) (k : Fin 1800) (j : Fin 1800) :
    (iblk6 V c 1 t : S1800x1800.Idx → EReal) (ix2 k j) = (V c main_arg12 : S1800x1800.Idx → EReal) (ix2 k j) := by
  obtain ⟨-, -, e0, e1, -⟩ := idx_facts6 t
  show (V c main_arg12 : S1800x1800.Idx → EReal) (((cfg6.win 1).blk t).view.emb (ix2 k j)) = _
  congr 1
  funext a; apply Fin.ext
  match a with
  | ⟨0, _⟩ => show win6_1.index t (0 : Fin 2) * 1800 + 1 * k.val = k.val; omega
  | ⟨1, _⟩ => show win6_1.index t (1 : Fin 2) * 1800 + 1 * j.val = j.val; omega

/-- The first bias row's one block is the whole row. -/
theorem iblk6_2_apply (c : Dev nD) (t : Fin cfg6.N) (k : Fin 1) (j : Fin 1800) :
    (iblk6 V c 2 t : S1x1800.Idx → EReal) (ix2 k j) = (V c main_v13 : S1x1800.Idx → EReal) (ix2 k j) := by
  obtain ⟨-, -, -, -, e0, e1, -⟩ := idx_facts6 t
  show (V c main_v13 : S1x1800.Idx → EReal) (((cfg6.win 2).blk t).view.emb (ix2 k j)) = _
  congr 1
  funext a; apply Fin.ext
  match a with
  | ⟨0, _⟩ => show win6_2.index t (0 : Fin 2) * 1 + 1 * k.val = k.val; omega
  | ⟨1, _⟩ => show win6_2.index t (1 : Fin 2) * 1800 + 1 * j.val = j.val; omega

/-- The second weight's one block is the whole weight. -/
theorem iblk6_3_apply (c : Dev nD) (t : Fin cfg6.N) (k : Fin 600) (j : Fin 1800) :
    (iblk6 V c 3 t : S600x1800.Idx → EReal) (ix2 k j) = (V c main_arg14 : S600x1800.Idx → EReal) (ix2 k j) := by
  obtain ⟨-, -, -, -, -, -, e0, e1, -⟩ := idx_facts6 t
  show (V c main_arg14 : S600x1800.Idx → EReal) (((cfg6.win 3).blk t).view.emb (ix2 k j)) = _
  congr 1
  funext a; apply Fin.ext
  match a with
  | ⟨0, _⟩ => show win6_3.index t (0 : Fin 2) * 600 + 1 * k.val = k.val; omega
  | ⟨1, _⟩ => show win6_3.index t (1 : Fin 2) * 1800 + 1 * j.val = j.val; omega

/-- The second bias row's one block is the whole row. -/
theorem iblk6_4_apply (c : Dev nD) (t : Fin cfg6.N) (k : Fin 1) (j : Fin 600) :
    (iblk6 V c 4 t : S1x600.Idx → EReal) (ix2 k j) = (V c main_v14 : S1x600.Idx → EReal) (ix2 k j) := by
  obtain ⟨-, -, -, -, -, -, -, -, e0, e1, -⟩ := idx_facts6 t
  show (V c main_v14 : S1x600.Idx → EReal) (((cfg6.win 4).blk t).view.emb (ix2 k j)) = _
  congr 1
  funext a; apply Fin.ext
  match a with
  | ⟨0, _⟩ => show win6_4.index t (0 : Fin 2) * 1 + 1 * k.val = k.val; omega
  | ⟨1, _⟩ => show win6_4.index t (1 : Fin 2) * 600 + 1 * j.val = j.val; omega

/-- What the output array ends holding: the second layer of the hidden layer of the activation, index by index. -/
def G6 (c : Dev nD) : S1024x600.Idx → EReal := fun i =>
  Cert.Spec.lin (Cert.Spec.hidden (fun a k => (V c main_v12 : S1024x1800.Idx → EReal) (ix2 a k)) (fun a k => (V c main_arg12 : S1800x1800.Idx → EReal) (ix2 a k)) (fun a => (V c main_v13 : S1x1800.Idx → EReal) (ix2 0 a)))
    (fun a k => (V c main_arg14 : S600x1800.Idx → EReal) (ix2 a k)) (fun a => (V c main_v14 : S1x600.Idx → EReal) (ix2 0 a)) (i 0) (i 1)

/-- What point `t` writes back is block `t` of `G6`. -/
theorem flushed6_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after6_5]
  unfold out6_5
  rw [View.canon_unit_zero hz6]
  simp only [View.ld_unit_zero (S := S128x1800) hz6, View.ld_unit_zero (S := S1800x1800) hz6, View.ld_unit_zero (S := S1x1800) hz6,
    View.ld_unit_zero (S := S600x1800) hz6, View.ld_unit_zero (S := S1x600) hz6]
  funext y
  obtain ⟨p, q, rfl⟩ : ∃ (p : Fin 128) (q : Fin 600), y = ix2 p q := ⟨y 0, y 1, eq_ix2 y⟩
  have hN : t.val < 8 := Nat.lt_of_lt_of_eq t.isLt N_6
  let r : Fin 1024 := ⟨128 * t.val + p.val, by have := p.isLt; omega⟩
  have hr : r.val = 128 * t.val + p.val := rfl
  obtain ⟨-, -, -, -, -, -, -, -, -, -, e0, e1⟩ := idx_facts6 t
  have hemb : ((cfg6.win 5).blk t).view.emb (ix2 p q) = (ix2 r q : S1024x600.Idx) := by
    funext a; apply Fin.ext
    match a with
    | ⟨0, _⟩ => show win6_5.index t (0 : Fin 2) * 128 + 1 * p.val = r.val; omega
    | ⟨1, _⟩ => show win6_5.index t (1 : Fin 2) * 600 + 1 * q.val = q.val; omega
  show (k6_pay1 (F := Ideal) (iblk6 V c 0 t) (iblk6 V c 1 t) (iblk6 V c 2 t) (iblk6 V c 3 t) (iblk6 V c 4 t) : S128x600.Idx → EReal) (ix2 p q)
    = G6 V c (((cfg6.win 5).blk t).view.emb (ix2 p q))
  rw [hemb, pay6_apply]
  unfold G6 Cert.Spec.lin Cert.Spec.hidden
  simp only [fun j => iblk6_0_apply V c t p j r hr, iblk6_1_apply V c t, iblk6_2_apply V c t, iblk6_3_apply V c t, iblk6_4_apply V c t]

/-- An index of the output is in point `t`'s block iff each coordinate is in the block's range on its axis. -/
theorem mem_blk6 (t : Fin cfg6.N) (i : S1024x600.Idx) :
    i ∈ ((cfg6.win 5).blk t).view.set ↔ ∀ a : Fin 2, win6_5.index t a * S128x600.size a ≤ (i a).val ∧ (i a).val < win6_5.index t a * S128x600.size a + S128x600.size a := by
  show i ∈ ((View.whole main_v15).slice (win6_5.rect t)).set ↔ _
  rw [View.set_slice_whole, Rect.mem_set_unit]
  exact Iff.rfl

/-- Row `r` of the output is in the block of point `r / 128`. -/
theorem cover6 (i : S1024x600.Idx) : ∃ t : Fin cfg6.N, (cfg6.win 5).flush t = true ∧ i ∈ ((cfg6.win 5).blk t).view.set := by
  have hi0 : (i 0).val < 1024 := (i 0).isLt
  have hi1 : (i 1).val < 600 := (i 1).isLt
  let t : Fin cfg6.N := ⟨(i 0).val / 128, by have := N_6; show _ < grid6.N; omega⟩
  have ht : t.val = (i 0).val / 128 := rfl
  obtain ⟨-, -, -, -, -, -, -, -, -, -, e0, e1⟩ := idx_facts6 t
  refine ⟨t, flush6_5 t, ?_⟩
  rw [mem_blk6]
  intro a
  match a with
  | ⟨0, _⟩ => show win6_5.index t (0 : Fin 2) * 128 ≤ (i 0).val ∧ (i 0).val < win6_5.index t (0 : Fin 2) * 128 + 128; omega
  | ⟨1, _⟩ => show win6_5.index t (1 : Fin 2) * 600 ≤ (i 1).val ∧ (i 1).val < win6_5.index t (1 : Fin 2) * 600 + 600; omega

/-- The output array after the region is `G6`. -/
theorem arrAt6_eq (c : Dev nD) : (dat6 V c).arrAt 5 cfg6.N = G6 V c :=
  (dat6 V c).arrAt_eq_of_cover 5 (G6 V c) (fun t _ => flushed6_eq V c t) cover6

/-- The output array after the region, at an index: the second layer of the hidden layer of the activation. -/
theorem arrAt6_apply (c : Dev nD) (p : Fin 1024) (q : Fin 600) :
    ((dat6 (F := Ideal) V c).arrAt 5 cfg6.N : S1024x600.Idx → EReal) (ix2 p q)
      = Cert.Spec.lin (Cert.Spec.hidden (fun a k => (V c main_v12 : S1024x1800.Idx → EReal) (ix2 a k)) (fun a k => (V c main_arg12 : S1800x1800.Idx → EReal) (ix2 a k)) (fun a => (V c main_v13 : S1x1800.Idx → EReal) (ix2 0 a)))
          (fun a k => (V c main_arg14 : S600x1800.Idx → EReal) (ix2 a k)) (fun a => (V c main_v14 : S1x600.Idx → EReal) (ix2 0 a)) p q := by
  rw [arrAt6_eq]; rfl

end Cert.KernelIdeal.Hand

end
-- ==== Proof.KI.V7.lean ====
import proofs.«403270_j28226525069939_3_alg».proof.Proof.KI.R7
import proofs.«403270_j28226525069939_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! # Region 7's value: the output array is the score matrix of the labels against the embeddings -/

/-- The score of a label row `L` against an embedding row `E`: minus the root of the sum of squares of the positive
    parts of the coordinatewise differences. -/
def sc7 (L E : Fin 600 → EReal) : EReal :=
  -(Ideal.sqrt (∑ d : Fin 600, max (L d - E d) 0 * max (L d - E d) 0))

/-- The index the lane sum inserts its coordinate at. -/
theorem lift7 (p : Fin 16) (q : Fin 128) (d : Fin 600) :
    reduces_S16x128x600_S16x128.lift (ix2 p q) d = ix3 p q d := by
  funext a; apply Fin.ext
  match a with
  | ⟨0, _⟩ => rfl
  | ⟨1, _⟩ => rfl
  | ⟨2, _⟩ => rfl

/-- The label slab spread over the embedding axis reads the slab's row. -/
theorem bcL7 (v6 : FVec Ideal S16x600 .f32) (p : Fin 16) (q : Fin 128) (d : Fin 600) :
    broadcastTo S16x128x600 (shapeCast S16x1x600 (shapeCast S16x600 v6 shapeCasts_S16x600_S16x600) shapeCasts_S16x600_S16x1x600)
      broadcasts_S16x1x600_S16x128x600 (ix3 p q d) = v6 (ix2 p d) := by
  refine (broadcastTo_apply _ _ (ix3 p q d) (ix3 p (0 : Fin 1) d) fun a => ?_).trans ?_
  · match a with
    | ⟨0, _⟩ => rfl
    | ⟨1, _⟩ => rfl
    | ⟨2, _⟩ => rfl
  · refine (shapeCast_apply _ _ (ix3 p (0 : Fin 1) d) (ix2 p d) ?_).trans ?_
    · rw [Shape.rowMajor_val_two, Shape.rowMajor_val_three]
      show p.val * 600 + d.val = (p.val * 1 + 0) * 600 + d.val
      omega
    · rw [shapeCast_self]

/-- The embedding block spread over the label axis reads the block's row. -/
theorem bcE7 (v0 : FVec Ideal S128x600 .f32) (p : Fin 16) (q : Fin 128) (d : Fin 600) :
    broadcastTo S16x128x600 (shapeCast S1x128x600 (shapeCast S128x600 v0 shapeCasts_S128x600_S128x600) shapeCasts_S128x600_S1x128x600)
      broadcasts_S1x128x600_S16x128x600 (ix3 p q d) = v0 (ix2 q d) := by
  refine (broadcastTo_apply _ _ (ix3 p q d) (ix3 (0 : Fin 1) q d) fun a => ?_).trans ?_
  · match a with
    | ⟨0, _⟩ => rfl
    | ⟨1, _⟩ => rfl
    | ⟨2, _⟩ => rfl
  · rw [shapeCast_ab_1ab_apply, shapeCast_self]

/-- The payload at an index: the score of the slab's label row against the block's embedding row. -/
theorem pay7_apply (v0 : FVec Ideal S128x600 .f32) (v6 : FVec Ideal S16x600 .f32) (p : Fin 16) (q : Fin 128) :
    k7_pay1 (F := Ideal) v0 v6 (ix2 p q) = sc7 (fun d => v6 (ix2 p d)) (fun d => v0 (ix2 q d)) := by
  unfold k7_pay1 sc7
  show Ideal.ofBits .f32 0x00000000#32 - Ideal.sqrt (multiReduction (F := Ideal) .add [2] S16x128 _ 0x00000000#32 reduces_S16x128x600_S16x128 (.inl rfl) rfl (ix2 p q)) = _
  rw [Ideal.ofBits_zero_f32, zero_sub]
  refine congrArg (fun s => -(Ideal.sqrt s)) ?_
  refine (Ideal.multiReduction_add_single _ _ reduces_S16x128x600_S16x128 _ _ (ix2 p q)).trans ?_
  refine Finset.sum_congr rfl fun (d : Fin 600) _ => ?_
  refine (congrArg _ (lift7 p q d)).trans ?_
  show max (_ - _) (Ideal.ofBits .f32 0x00000000#32) * max (_ - _) (Ideal.ofBits .f32 0x00000000#32) = _
  rw [Ideal.ofBits_zero_f32, bcL7, bcE7]

/-- The output block as one function of the two input blocks: at row `r`, column `q` of the block, the score of
    label row `r` against embedding row `q`. -/
def blk7 (x0 x1 : FVec Ideal S128x600 .f32) : S128x128.Idx → EReal :=
  fun y => sc7 (fun d => x1 (ix2 (n0 := 128) (n1 := 600) (y 0) d)) (fun d => x0 (ix2 (n0 := 128) (n1 := 600) (y 1) d))

/-- Trip `j`'s piece is its slab of that function. -/
theorem piece7_apply (x0 x1 : FVec Ideal S128x600 .f32) (j : Fin k7_t1_loop.trips) (x : (r7_o j).shape.Idx) :
    (piece7 (F := Ideal) (View.ld x0 r7_e) x1 j).2 x = blk7 x0 x1 ((piece7 (F := Ideal) (View.ld x0 r7_e) x1 j).1.emb x) := by
  obtain ⟨p, q, rfl⟩ : ∃ (p : Fin 16) (q : Fin 128), x = ix2 p q := ⟨x 0, x 1, eq_ix2 x⟩
  show k7_pay1 (F := Ideal) (View.ld x0 r7_e) (View.ld x1 (r7_l j)) (ix2 p q) = blk7 x0 x1 ((r7_o j).emb (ix2 p q))
  rw [pay7_apply]
  unfold blk7
  have h1 := k7_off1_eq j
  have h2 := k7_off2_eq j
  congr 1
  · funext d
    show x1 ((r7_l j).emb (ix2 p d)) = x1 (ix2 ((r7_o j).emb (ix2 p q) 0) d)
    refine congrArg x1 (funext fun a => Fin.ext ?_)
    match a with
    | ⟨0, _⟩ =>
      show k7_off1 j 0 + 1 * p.val = k7_off2 j 0 + 1 * p.val
      rw [h1, h2]
    | ⟨1, _⟩ =>
      show k7_off1 j 1 + 1 * d.val = d.val
      rw [h1]; show 0 + 1 * d.val = d.val; omega
  · funext d
    show x0 (r7_e.emb (ix2 q d)) = x0 (ix2 ((r7_o j).emb (ix2 p q) 1) d)
    refine congrArg x0 (funext fun a => Fin.ext ?_)
    match a with
    | ⟨0, _⟩ =>
      show 0 + 1 * q.val = k7_off2 j 1 + 1 * q.val
      rw [h2]; rfl
    | ⟨1, _⟩ =>
      show 0 + 1 * d.val = d.val
      omega

/-- Every piece of the trips before `n` is its slab of the block function. -/
theorem pieces7 (x0 x1 : FVec Ideal S128x600 .f32) : ∀ (n : ℕ), ∀ pc ∈ pcs7 (F := Ideal) (View.ld x0 r7_e) x1 n,
    ∀ x : pc.1.shape.Idx, pc.2 x = blk7 x0 x1 (pc.1.emb x)
  | 0, pc, hp, _ => by simp [pcs7] at hp
  | n + 1, pc, hp, x => by
    rw [pcs7] at hp
    split at hp
    · rcases List.mem_cons.mp hp with rfl | hp'
      · exact piece7_apply x0 x1 _ x
      · exact pieces7 x0 x1 n pc hp' x
    · exact pieces7 x0 x1 n pc hp x

/-- What the body leaves in the output block, index by index. -/
theorem out7_apply (x0 x1 : FVec Ideal S128x600 .f32) (y : S128x128.Idx) : out7 (F := Ideal) x0 x1 y = blk7 x0 x1 y := by
  unfold out7
  have h1 := pieces7 x0 x1 k7_t1_loop.trips
  have h2 := cover7 (F := Ideal) (View.ld x0 r7_e) x1 y
  generalize pcs7 (F := Ideal) (View.ld x0 r7_e) x1 k7_t1_loop.trips = L at h1 h2 ⊢
  exact View.canon_apply_of_pieces (Val := Elt Ideal) (S := S128x128) (e := .f32) (blk7 x0 x1) L h1 y h2

variable (V : (c : Dev nD) → (b : Ref sig .tc) → Buf (Elt Ideal) ((c : Thread nD τ).loc b))

/-- The whole output array as one function: at label `v`, sample `b`, the score of label row `v` against embedding row `b`. -/
def G7 (c : Dev nD) : S128x1024.Idx → EReal :=
  fun i => Cert.Spec.score (fun a d => (V c main_v16 : S128x600.Idx → EReal) (ix2 a d))
    (fun a d => (V c main_v15 : S1024x600.Idx → EReal) (ix2 a d)) (i 0) (i 1)

/-- The printed index maps, decided over the grid: the embeddings' row block moves with the output's column block; the
    labels' one block and the output's row block stay. -/
theorem idx_facts7 : ∀ t : Fin cfg7.N, win7_0.index t (0 : Fin 2) = win7_2.index t (1 : Fin 2)
    ∧ win7_0.index t (1 : Fin 2) = 0
    ∧ win7_1.index t (0 : Fin 2) = 0 ∧ win7_1.index t (1 : Fin 2) = 0
    ∧ win7_2.index t (0 : Fin 2) = 0 ∧ win7_2.index t (1 : Fin 2) ≤ 7 :=
  (by decide +kernel : ∀ t : Fin grid7.N, _)

/-- Every column block of the output is some point's. -/
theorem idx_onto7 : ∀ q : Fin 8, ∃ t : Fin cfg7.N, win7_2.index t = ![0, q.val] :=
  (by decide +kernel : ∀ q : Fin 8, ∃ t : Fin grid7.N, win7_2.index t = ![0, q.val])

/-- What point `t` writes back is block `t` of `G7`. -/
theorem flushed7_eq (c : Dev nD) (t : Fin cfg7.N) :
    (dat7 (F := Ideal) V c).flushed 2 t = ((cfg7.win 2).blk t).view.read (Elt Ideal) (G7 V c) := by
  show (cfg7.win 2).cut (grid7.coords t) ((dat7 V c).after 2 t) = _
  rw [after7_2]
  obtain ⟨e0, e1, e2, e3, e4, e5⟩ := idx_facts7 t
  funext j
  show out7 (F := Ideal) (iblk7 V c 0 t) (iblk7 V c 1 t) j = G7 V c (((cfg7.win 2).blk t).view.emb j)
  rw [out7_apply]
  unfold blk7 G7 Cert.Spec.score sc7
  have hj0 : (j 0).val < 128 := (j 0).isLt
  have hj1 : (j 1).val < 128 := (j 1).isLt
  have hL : ∀ d : Fin 600, (iblk7 V c 1 t : S128x600.Idx → EReal) (ix2 (n0 := 128) (n1 := 600) (j 0) d)
      = (V c main_v16 : S128x600.Idx → EReal) (ix2 (n0 := 128) (n1 := 600) ((((cfg7.win 2).blk t).view.emb j) 0) d) := fun d => by
    show (V c main_v16 : S128x600.Idx → EReal) (((cfg7.win 1).blk t).view.emb (ix2 (n0 := 128) (n1 := 600) (j 0) d)) = _
    refine congrArg (V c main_v16 : S128x600.Idx → EReal) (funext fun a => Fin.ext ?_)
    match a with
    | ⟨0, _⟩ =>
      show win7_1.index t (0 : Fin 2) * 128 + 1 * (j 0).val = win7_2.index t (0 : Fin 2) * 128 + 1 * (j 0).val
      omega
    | ⟨1, _⟩ =>
      show win7_1.index t (1 : Fin 2) * 600 + 1 * d.val = d.val
      omega
  have hE : ∀ d : Fin 600, (iblk7 V c 0 t : S128x600.Idx → EReal) (ix2 (n0 := 128) (n1 := 600) (j 1) d)
      = (V c main_v15 : S1024x600.Idx → EReal) (ix2 (n0 := 1024) (n1 := 600) ((((cfg7.win 2).blk t).view.emb j) 1) d) := fun d => by
    show (V c main_v15 : S1024x600.Idx → EReal) (((cfg7.win 0).blk t).view.emb (ix2 (n0 := 128) (n1 := 600) (j 1) d)) = _
    refine congrArg (V c main_v15 : S1024x600.Idx → EReal) (funext fun a => Fin.ext ?_)
    match a with
    | ⟨0, _⟩ =>
      show win7_0.index t (0 : Fin 2) * 128 + 1 * (j 1).val = win7_2.index t (1 : Fin 2) * 128 + 1 * (j 1).val
      omega
    | ⟨1, _⟩ =>
      show win7_0.index t (1 : Fin 2) * 600 + 1 * d.val = d.val
      omega
  simp only [hL, hE]

/-- An index of the array is in point `t`'s block iff each coordinate is in the block's range on its axis. -/
theorem mem_blk7 (t : Fin cfg7.N) (i : S128x1024.Idx) :
    i ∈ ((cfg7.win 2).blk t).view.set ↔ ∀ a : Fin 2, win7_2.index t a * S128x128.size a ≤ (i a).val ∧ (i a).val < win7_2.index t a * S128x128.size a + S128x128.size a := by
  show i ∈ ((View.whole main_v17).slice (win7_2.rect t)).set ↔ _
  rw [View.set_slice_whole, Rect.mem_set_unit]
  exact Iff.rfl

/-- The eight column blocks cover the array. -/
theorem cover_arr7 (i : S128x1024.Idx) : ∃ t : Fin cfg7.N, (cfg7.win 2).flush t = true ∧ i ∈ ((cfg7.win 2).blk t).view.set := by
  have hi0 : (i 0).val < 128 := (i 0).isLt
  have hi1 : (i 1).val < 1024 := (i 1).isLt
  obtain ⟨t, ht⟩ := idx_onto7 ⟨(i 1).val / 128, by omega⟩
  have q0 : win7_2.index t (0 : Fin 2) = 0 := congrFun ht 0
  have q1 : win7_2.index t (1 : Fin 2) = (i 1).val / 128 := congrFun ht 1
  refine ⟨t, flush7_2 t, ?_⟩
  rw [mem_blk7]
  intro a
  match a with
  | ⟨0, _⟩ => show win7_2.index t (0 : Fin 2) * 128 ≤ (i 0).val ∧ (i 0).val < win7_2.index t (0 : Fin 2) * 128 + 128; omega
  | ⟨1, _⟩ => show win7_2.index t (1 : Fin 2) * 128 ≤ (i 1).val ∧ (i 1).val < win7_2.index t (1 : Fin 2) * 128 + 128; omega

/-- The output array after the region: the score matrix. -/
theorem arrAt7_eq (c : Dev nD) : (dat7 (F := Ideal) V c).arrAt 2 cfg7.N = G7 V c :=
  (dat7 (F := Ideal) V c).arrAt_eq_of_cover 2 (G7 V c) (fun t _ => flushed7_eq V c t) (cover_arr7)

/-- The output array after the region, read at label `v` and sample `b`. -/
theorem arrAt7_apply (c : Dev nD) (v : Fin 128) (b : Fin 1024) :
    ((dat7 (F := Ideal) V c).arrAt 2 cfg7.N : S128x1024.Idx → EReal) (ix2 v b)
      = Cert.Spec.score (fun a d => (V c main_v16 : S128x600.Idx → EReal) (ix2 a d))
          (fun a d => (V c main_v15 : S1024x600.Idx → EReal) (ix2 a d)) v b := by
  rw [arrAt7_eq]
  rfl

end Cert.KernelIdeal.Hand

end
-- ==== Proof.KI.Value.lean ====
import proofs.«403270_j28226525069939_3_alg».proof.Proof.KI.Fold
import proofs.«403270_j28226525069939_3_alg».proof.Proof.KI.Chain
import proofs.«403270_j28226525069939_3_alg».proof.Proof.KI.Tail
import proofs.«403270_j28226525069939_3_alg».proof.Proof.KI.V0
import proofs.«403270_j28226525069939_3_alg».proof.Proof.KI.V1
import proofs.«403270_j28226525069939_3_alg».proof.Proof.KI.V2
import proofs.«403270_j28226525069939_3_alg».proof.Proof.KI.V3
import proofs.«403270_j28226525069939_3_alg».proof.Proof.KI.V4
import proofs.«403270_j28226525069939_3_alg».proof.Proof.KI.V5
import proofs.«403270_j28226525069939_3_alg».proof.Proof.KI.V6
import proofs.«403270_j28226525069939_3_alg».proof.Proof.KI.V7

set_option maxRecDepth 16384

noncomputable section

namespace Cert.KernelIdeal.Hand

open Cert.KernelIdeal Cert.KernelIdeal.Gen
open Idealize.ShloMosaic Idealize.ShloMosaic.TcCoe Idealize.ShloMosaic.ValueIdx

/-! # The program's result, with every region's output what its write-backs leave

The boundary contents are the fold `U0 … U24`; region K finds `XK` and leaves `oK`, the array its write-backs
fill. Each region's value lemma, read at what the region finds, is the layer the composition asks of it; the
composition then gives the specification's result of the launch arguments. -/

variable (m : (ℓ : Loc nD τ sig) → Buf (Elt Ideal) ℓ) (c : Dev nD)

/-! ## What each region leaves is its output array after its write-backs -/

theorem outsH_2 : outsH m 2 main_v1 c = o0 m c := by
  show U2 m c main_v1 = _
  exact Function.update_self ..
theorem outsH_4 : outsH m 4 main_v3 c = o1 m c := by
  show U4 m c main_v3 = _
  exact Function.update_self ..
theorem outsH_6 : outsH m 6 main_v5 c = o2 m c := by
  show U6 m c main_v5 = _
  exact Function.update_self ..
theorem outsH_8 : outsH m 8 main_v7 c = o3 m c := by
  show U8 m c main_v7 = _
  exact Function.update_self ..
theorem outsH_10 : outsH m 10 main_v9 c = o4 m c := by
  show U10 m c main_v9 = _
  exact Function.update_self ..
theorem outsH_12 : outsH m 12 main_v11 c = o5 m c := by
  show U12 m c main_v11 = _
  exact Function.update_self ..
theorem outsH_14 : outsH m 14 main_v15 c = o6 m c := by
  show U14 m c main_v15 = _
  exact Function.update_self ..
theorem outsH_17 : outsH m 17 main_v17 c = o7 m c := by
  show U17 m c main_v17 = _
  exact Function.update_self ..

/-! ## Every region leaves its layer of what it finds -/

theorem regionSpec0 : RegionSpec0 m (outsH m) c := by
  intro p q
  exact (congrFun (outsH_2 m c) (ix2 p q)).trans (arrAt0_apply (X0 m) c p q)

theorem regionSpec1 : RegionSpec1 m (outsH m) c := by
  intro p q
  rw [V3_eq m c]
  exact (congrFun (outsH_4 m c) (ix2 p q)).trans (arrAt1_apply (X1 m) c p q)

theorem regionSpec2 : RegionSpec2 m (outsH m) c := by
  intro p q
  rw [V5_eq m c]
  exact (congrFun (outsH_6 m c) (ix2 p q)).trans (arrAt2_apply (X2 m) c p q)

theorem regionSpec3 : RegionSpec3 m (outsH m) c := by
  intro p q
  rw [V7_eq m c]
  exact (congrFun (outsH_8 m c) (ix2 p q)).trans (arrAt3_apply (X3 m) c p q)

theorem regionSpec4 : RegionSpec4 m (outsH m) c := by
  intro p q
  rw [V9_eq m c]
  exact (congrFun (outsH_10 m c) (ix2 p q)).trans (arrAt4_apply (X4 m) c p q)

theorem regionSpec5 : RegionSpec5 m (outsH m) c := by
  intro p q
  rw [V11_eq m c]
  exact (congrFun (outsH_12 m c) (ix2 p q)).trans (arrAt5_apply (X5 m) c p q)

theorem regionSpec6 : RegionSpec6 m (outsH m) c := by
  intro p q
  rw [V13_eq m c]
  exact (congrFun (outsH_14 m c) (ix2 p q)).trans (arrAt6_apply (X6 m) c p q)

theorem regionSpec7 : RegionSpec7 m (outsH m) c := by
  intro v b
  rw [V16_eq m c]
  exact (congrFun (outsH_17 m c) (ix2 v b)).trans (arrAt7_apply (X7 m) c v b)

/-! ## The result -/

/-- With the labels in range, the result buffer at the end of the program holds the specification's result of the
    launch arguments. -/
theorem kernel_value (hp : PosInRange m c) (hn : NegInRange m c) (p : Fin 1024) (j : Fin 129) :
    (U24 m c main_v29 : S1024x129.Idx → EReal) (ix2 p j) = mResult m c hp hn p j := by
  rw [← V24_eq m c]
  exact program_result m (outsH m) c (regionSpec0 m c) (regionSpec1 m c) (regionSpec2 m c) (regionSpec3 m c)
    (regionSpec4 m c) (regionSpec5 m c) (regionSpec6 m c) (regionSpec7 m c) hp hn
    (fun p j => tail_result m (outsH m) c hp hn p j) p j

end Cert.KernelIdeal.Hand

end
-- ==== Proof.RefScore.lean ====
import proofs.«403270_j28226525069939_3_alg».proof.Proof.Gen.ReferenceIdeal.Read
import proofs.«403270_j28226525069939_3_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.RefSide

open Cert.ReferenceIdeal Cert.ReferenceIdeal.Gen Idealize.ShloMosaic Idealize.ShloMosaic.StableHlo Idealize.ShloMosaic.ValueIdx
open scoped BigOperators

/-! # The reference's scores, read at an index

After its embedding stage the reference gathers a label row per sample (the positive label) and per sample and negative
slot (the negative labels), subtracts the embedding row, keeps the positive part, and returns minus the Euclidean norm;
the positive score is laid in column 0 and the 128 negative scores in columns 1 … 128. With every label word in
`[0, 100)` the wrap-around of a negative word and the clamp of the gather's start row are both the identity, so the
stage at `(p, j)` is `Cert.Spec.result` of the embedding stage, the label table and the label words' values. -/

/-- A label word below 100 is not negative: the wrap-around select keeps it. -/
theorem wrap_small (w : BitVec 32) (hw : w.toNat < 100) :
    Scalar.select (IntOp.cmpi .slt w 0#32) (IntOp.addi w 100#32) w = w := by
  have h0 : ¬ IntOp.cmpi .slt w 0#32 = 1#1 := by
    rw [Predicate.slt_iff_toNat (by omega) (by decide)]
    simp
  rw [eq_zero_of_ne_one h0, select_zero]

/-- A label word below 100, read signed and clamped into the table's rows, is its own value. -/
theorem clamp_small (w : BitVec 32) (hw : w.toNat < 100) : min w.toInt.toNat 99 = w.toNat := by
  rw [Predicate.toInt_eq_toNat_of_lt (by omega), Int.toNat_natCast]
  omega

/-- The row gather of the label table at a column of start rows, read at (p, d): row the start word at (p, 0),
    read signed and clamped into the table, column d. -/
theorem gather2_apply {α : Type} (x : S100x600.Idx → α) (idx : IVec S1024x1 32) (p : Fin 1024) (d : Fin 600)
    (r : Fin 100) (hr : r.val = min (idx (ix2 p (0 : Fin 1))).toInt.toNat 99) :
    Host.gather gather_S100x600_S1024x1_S1024x600_1_0_n_n_0_1_1600 x idx (ix2 p d) = x (ix2 r d) := by
  unfold Host.gather
  congr 1
  funext a
  refine Fin.ext ?_
  match a with
  | ⟨0, _⟩ =>
    show gather_S100x600_S1024x1_S1024x600_1_0_n_n_0_1_1600.start (ix2 p d) idx 0
      + gather_S100x600_S1024x1_S1024x600_1_0_n_n_0_1_1600.batchCoord (ix2 p d) 0
      + gather_S100x600_S1024x1_S1024x600_1_0_n_n_0_1_1600.offCoord (ix2 p d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x600_S1024x1_S1024x600_1_0_n_n_0_1_1600.startIndexMap from List.mem_singleton.mpr rfl)]
    have hsi : gather_S100x600_S1024x1_S1024x600_1_0_n_n_0_1_1600.siIdx (ix2 p d)
        ⟨List.idxOf (0 : Fin 2) gather_S100x600_S1024x1_S1024x600_1_0_n_n_0_1_1600.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi, hr]
    rfl
  | ⟨1, _⟩ =>
    show gather_S100x600_S1024x1_S1024x600_1_0_n_n_0_1_1600.start (ix2 p d) idx 1
      + gather_S100x600_S1024x1_S1024x600_1_0_n_n_0_1_1600.batchCoord (ix2 p d) 1
      + gather_S100x600_S1024x1_S1024x600_1_0_n_n_0_1_1600.offCoord (ix2 p d) 1 = d.val
    rw [GatherDims.batchCoord_eq_zero _ _ _ List.not_mem_nil]
    unfold GatherDims.start
    rw [dif_neg (show ¬ (1 : Fin 2) ∈ gather_S100x600_S1024x1_S1024x600_1_0_n_n_0_1_1600.startIndexMap by decide)]
    simp only [Nat.add_zero, Nat.zero_add]
    rfl

/-- The row gather of the label table at a [1024 × 128 × 1] array of start rows, read at (p, n, d): row the start word
    at (p, n, 0), read signed and clamped into the table, column d. -/
theorem gather3_apply {α : Type} (x : S100x600.Idx → α) (idx : IVec S1024x128x1 32) (p : Fin 1024) (n : Fin 128) (d : Fin 600)
    (r : Fin 100) (hr : r.val = min (idx (ix3 p n (0 : Fin 1))).toInt.toNat 99) :
    Host.gather gather_S100x600_S1024x128x1_S1024x128x600_2_0_n_n_0_2_1600 x idx (ix3 p n d) = x (ix2 r d) := by
  unfold Host.gather
  congr 1
  funext a
  refine Fin.ext ?_
  match a with
  | ⟨0, _⟩ =>
    show gather_S100x600_S1024x128x1_S1024x128x600_2_0_n_n_0_2_1600.start (ix3 p n d) idx 0
      + gather_S100x600_S1024x128x1_S1024x128x600_2_0_n_n_0_2_1600.batchCoord (ix3 p n d) 0
      + gather_S100x600_S1024x128x1_S1024x128x600_2_0_n_n_0_2_1600.offCoord (ix3 p n d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x600_S1024x128x1_S1024x128x600_2_0_n_n_0_2_1600.startIndexMap from List.mem_singleton.mpr rfl)]
    have hsi : gather_S100x600_S1024x128x1_S1024x128x600_2_0_n_n_0_2_1600.siIdx (ix3 p n d)
        ⟨List.idxOf (0 : Fin 2) gather_S100x600_S1024x128x1_S1024x128x600_2_0_n_n_0_2_1600.startIndexMap,
          List.idxOf_lt_length_iff.2 (List.mem_singleton.mpr rfl)⟩ = ix3 p n (0 : Fin 1) := by
      funext b; refine Fin.ext ?_
      match b with
      | ⟨0, _⟩ => rfl
      | ⟨1, _⟩ => rfl
      | ⟨2, _⟩ => rfl
    rw [hsi, hr]
    rfl
  | ⟨1, _⟩ =>
    show gather_S100x600_S1024x128x1_S1024x128x600_2_0_n_n_0_2_1600.start (ix3 p n d) idx 1
      + gather_S100x600_S1024x128x1_S1024x128x600_2_0_n_n_0_2_1600.batchCoord (ix3 p n d) 1
      + gather_S100x600_S1024x128x1_S1024x128x600_2_0_n_n_0_2_1600.offCoord (ix3 p n d) 1 = d.val
    rw [GatherDims.batchCoord_eq_zero _ _ _ List.not_mem_nil]
    unfold GatherDims.start
    rw [dif_neg (show ¬ (1 : Fin 2) ∈ gather_S100x600_S1024x128x1_S1024x128x600_2_0_n_n_0_2_1600.startIndexMap by decide)]
    simp only [Nat.add_zero, Nat.zero_add]
    rfl

/-- A one-column array beside a 128-column array, read at (p, j): column 0 is the first piece, column j ≥ 1 the second
    piece's column j − 1. -/
theorem concat_apply {α : Type} (A : S1024x1.Idx → α) (B : S1024x128.Idx → α) (p : Fin 1024) (j : Fin 129) :
    concatenate S1024x129 1 [⟨S1024x1, A⟩, ⟨S1024x128, B⟩] concatenates_S1024x1_S1024x128_S1024x129_d1 (ix2 p j)
      = if h : j.val = 0 then A (ix2 p (0 : Fin 1)) else B (ix2 p ⟨j.val - 1, by have := j.isLt; omega⟩) := by
  by_cases hj : j.val = 0
  · rw [dif_pos hj]
    exact concatenate_pair_apply_left _ A B concatenates_S1024x1_S1024x128_S1024x129_d1 (ix2 p j) rfl (ix2 p (0 : Fin 1))
      (fun b => by
        match b with
        | ⟨0, _⟩ => rfl
        | ⟨1, _⟩ => exact hj.symm)
  · rw [dif_neg hj]
    exact concatenate_pair_apply_right _ A B concatenates_S1024x1_S1024x128_S1024x129_d1 (ix2 p j) rfl rfl
      (ix2 p ⟨j.val - 1, by have := j.isLt; omega⟩)
      (fun b hb => by
        match b with
        | ⟨0, _⟩ => rfl
        | ⟨1, _⟩ => exact absurd rfl hb)
      (by show j.val - 1 + 1 = j.val; omega)

/-- The positive labels' gathered rows: at (p, d) the label table's row `pls p`, column d. -/
theorem v57_apply (x1 : (⟨S100x600, .f32⟩ : BufTy).Contents (Elt Ideal)) (x2 : (⟨S1024, .i32⟩ : BufTy).Contents (Elt Ideal))
    (hp : ∀ i : S1024.Idx, (x2 i).toNat < 100) (p : Fin 1024) (d : Fin 600) :
    Read.val_main_v57 (F := Ideal) x1 x2 (ix2 p d) = x1 (ix2 ⟨(x2 (ix1 p)).toNat, hp _⟩ d) := by
  unfold Read.val_main_v57
  refine gather2_apply x1 _ p d _ ?_
  have h56 : Read.val_main_v56 (F := Ideal) x2 (ix2 p (0 : Fin 1)) = x2 (ix1 p) := by
    rw [Read.val_main_v56_apply, Read.val_main_v55_apply, Read.val_main_v52_apply, Read.val_main_v54_apply,
      Read.val_main_v51_apply, Read.val_main_v53_apply, Read.val_main_c_apply, Read.val_main_c_0_apply]
    have hi : Read.idx_main_v56 (ix2 p (0 : Fin 1)) = ix1 p :=
      funext fun a => Fin.ext (by match a with | ⟨0, _⟩ => rfl)
    rw [hi]
    exact wrap_small _ (hp _)
  show (x2 (ix1 p)).toNat = _
  rw [h56, clamp_small _ (hp _)]

/-- The negative labels' gathered rows: at (p, n, d) the label table's row `nls p n`, column d. -/
theorem v70_apply (x1 : (⟨S100x600, .f32⟩ : BufTy).Contents (Elt Ideal)) (x3 : (⟨S1024x128, .i32⟩ : BufTy).Contents (Elt Ideal))
    (hn : ∀ i : S1024x128.Idx, (x3 i).toNat < 100) (p : Fin 1024) (n : Fin 128) (d : Fin 600) :
    Read.val_main_v70 (F := Ideal) x1 x3 (ix3 p n d) = x1 (ix2 ⟨(x3 (ix2 p n)).toNat, hn _⟩ d) := by
  unfold Read.val_main_v70
  refine gather3_apply x1 _ p n d _ ?_
  have h69 : Read.val_main_v69 (F := Ideal) x3 (ix3 p n (0 : Fin 1)) = x3 (ix2 p n) := by
    rw [Read.val_main_v69_apply, Read.val_main_v68_apply, Read.val_main_v65_apply, Read.val_main_v67_apply,
      Read.val_main_v64_apply, Read.val_main_v66_apply, Read.val_main_c_1_apply, Read.val_main_c_2_apply]
    have hi : Read.idx_main_v69 (ix3 p n (0 : Fin 1)) = ix2 p n :=
      funext fun a => Fin.ext (by match a with | ⟨0, _⟩ => rfl | ⟨1, _⟩ => rfl)
    rw [hi]
    exact wrap_small _ (hn _)
  show (x3 (ix2 p n)).toNat = _
  rw [h69, clamp_small _ (hn _)]

/-- The positive score of sample p: the score of its positive label's row against its embedding row. -/
theorem pscore_apply (x0 : (⟨S1024x12288, .f32⟩ : BufTy).Contents (Elt Ideal)) (x1 : (⟨S100x600, .f32⟩ : BufTy).Contents (Elt Ideal)) (x2 : (⟨S1024, .i32⟩ : BufTy).Contents (Elt Ideal)) (x4 : (⟨S2048x4096, .f32⟩ : BufTy).Contents (Elt Ideal)) (x5 : (⟨S2048, .f32⟩ : BufTy).Contents (Elt Ideal)) (x6 : (⟨S600x2048, .f32⟩ : BufTy).Contents (Elt Ideal)) (x7 : (⟨S600, .f32⟩ : BufTy).Contents (Elt Ideal)) (x8 : (⟨S4096x12288, .f32⟩ : BufTy).Contents (Elt Ideal)) (x9 : (⟨S4096, .f32⟩ : BufTy).Contents (Elt Ideal)) (x10 : (⟨S600x4096, .f32⟩ : BufTy).Contents (Elt Ideal)) (x11 : (⟨S600, .f32⟩ : BufTy).Contents (Elt Ideal)) (x12 : (⟨S1800x1800, .f32⟩ : BufTy).Contents (Elt Ideal)) (x13 : (⟨S1800, .f32⟩ : BufTy).Contents (Elt Ideal)) (x14 : (⟨S600x1800, .f32⟩ : BufTy).Contents (Elt Ideal)) (x15 : (⟨S600, .f32⟩ : BufTy).Contents (Elt Ideal))
    (hp : ∀ i : S1024.Idx, (x2 i).toNat < 100) (p : Fin 1024) :
    Read.val_main_v63 (F := Ideal) x0 x1 x2 x4 x5 x6 x7 x8 x9 x10 x11 x12 x13 x14 x15 (ix1 p)
      = Cert.Spec.score (fun v d => x1 (ix2 v d)) (fun a d => Read.val_main_v50 (F := Ideal) x0 x4 x5 x6 x7 x8 x9 x10 x11 x12 x13 x14 x15 (ix2 a d))
          ⟨(x2 (ix1 p)).toNat, hp _⟩ p := by
  rw [Read.val_main_v63_apply, Read.val_main_v62_apply, Read.val_main_v61_apply, Read.val_main_cst_apply]
  unfold Cert.Spec.score
  simp only [Ideal.hostNegf_def, Ideal.negf_def, Ideal.hostUnary_sqrt_def, Ideal.ofBits_def, Ideal.ofBits_zero_f32, zero_add]
  refine congrArg (fun s => -(Ideal.sqrt s)) (Finset.sum_congr rfl fun k _ => ?_)
  have hk : Read.idx_main_v61 (ix1 p) k = ix2 p k :=
    funext fun a => Fin.ext (by match a with | ⟨0, _⟩ => rfl | ⟨1, _⟩ => rfl)
  rw [hk, Read.val_main_v60_apply, Read.val_main_v59_apply, Read.val_main_v58_apply, v57_apply x1 x2 hp,
    Read.val_main_call8_v0_apply, Read.val_main_call8_cst_apply]
  generalize Read.val_main_v50 (F := Ideal) x0 x4 x5 x6 x7 x8 x9 x10 x11 x12 x13 x14 x15 = E
  simp only [Ideal.mulf_def, Ideal.maximumf_def, Ideal.subf_def, Ideal.ofBits_def, Ideal.ofBits_zero_f32]

/-- The negative score of sample p at slot n: the score of that negative label's row against the sample's embedding row. -/
theorem nscore_apply (x0 : (⟨S1024x12288, .f32⟩ : BufTy).Contents (Elt Ideal)) (x1 : (⟨S100x600, .f32⟩ : BufTy).Contents (Elt Ideal)) (x3 : (⟨S1024x128, .i32⟩ : BufTy).Contents (Elt Ideal)) (x4 : (⟨S2048x4096, .f32⟩ : BufTy).Contents (Elt Ideal)) (x5 : (⟨S2048, .f32⟩ : BufTy).Contents (Elt Ideal)) (x6 : (⟨S600x2048, .f32⟩ : BufTy).Contents (Elt Ideal)) (x7 : (⟨S600, .f32⟩ : BufTy).Contents (Elt Ideal)) (x8 : (⟨S4096x12288, .f32⟩ : BufTy).Contents (Elt Ideal)) (x9 : (⟨S4096, .f32⟩ : BufTy).Contents (Elt Ideal)) (x10 : (⟨S600x4096, .f32⟩ : BufTy).Contents (Elt Ideal)) (x11 : (⟨S600, .f32⟩ : BufTy).Contents (Elt Ideal)) (x12 : (⟨S1800x1800, .f32⟩ : BufTy).Contents (Elt Ideal)) (x13 : (⟨S1800, .f32⟩ : BufTy).Contents (Elt Ideal)) (x14 : (⟨S600x1800, .f32⟩ : BufTy).Contents (Elt Ideal)) (x15 : (⟨S600, .f32⟩ : BufTy).Contents (Elt Ideal))
    (hn : ∀ i : S1024x128.Idx, (x3 i).toNat < 100) (p : Fin 1024) (n : Fin 128) :
    Read.val_main_v78 (F := Ideal) x0 x1 x3 x4 x5 x6 x7 x8 x9 x10 x11 x12 x13 x14 x15 (ix2 p n)
      = Cert.Spec.score (fun v d => x1 (ix2 v d)) (fun a d => Read.val_main_v50 (F := Ideal) x0 x4 x5 x6 x7 x8 x9 x10 x11 x12 x13 x14 x15 (ix2 a d))
          ⟨(x3 (ix2 p n)).toNat, hn _⟩ p := by
  rw [Read.val_main_v78_apply, Read.val_main_v77_apply, Read.val_main_v76_apply, Read.val_main_cst_3_apply]
  unfold Cert.Spec.score
  simp only [Ideal.hostNegf_def, Ideal.negf_def, Ideal.hostUnary_sqrt_def, Ideal.ofBits_def, Ideal.ofBits_zero_f32, zero_add]
  refine congrArg (fun s => -(Ideal.sqrt s)) (Finset.sum_congr rfl fun k _ => ?_)
  have hk : Read.idx_main_v76 (ix2 p n) k = ix3 p n k :=
    funext fun a => Fin.ext (by match a with | ⟨0, _⟩ => rfl | ⟨1, _⟩ => rfl | ⟨2, _⟩ => rfl)
  have he : Read.idx_main_v71 (Read.idx_main_v72 (ix3 p n k)) = ix2 p k :=
    funext fun a => Fin.ext (by match a with | ⟨0, _⟩ => rfl | ⟨1, _⟩ => rfl)
  rw [hk, Read.val_main_v75_apply, Read.val_main_v74_apply, Read.val_main_v73_apply, v70_apply x1 x3 hn,
    Read.val_main_v72_apply, Read.val_main_v71_apply, he, Read.val_main_call9_v0_apply, Read.val_main_call9_cst_apply]
  generalize Read.val_main_v50 (F := Ideal) x0 x4 x5 x6 x7 x8 x9 x10 x11 x12 x13 x14 x15 = E
  simp only [Ideal.mulf_def, Ideal.maximumf_def, Ideal.subf_def, Ideal.ofBits_def, Ideal.ofBits_zero_f32]

/-- THE REFERENCE'S RESULT AT (p, j): with every label word in `[0, 100)`, the last stage is the scores of the
    embedding stage against the label table — column 0 the positive label's, columns 1 … 128 the negative labels'. -/
theorem ref_result (x0 : (⟨S1024x12288, .f32⟩ : BufTy).Contents (Elt Ideal)) (x1 : (⟨S100x600, .f32⟩ : BufTy).Contents (Elt Ideal)) (x2 : (⟨S1024, .i32⟩ : BufTy).Contents (Elt Ideal)) (x3 : (⟨S1024x128, .i32⟩ : BufTy).Contents (Elt Ideal)) (x4 : (⟨S2048x4096, .f32⟩ : BufTy).Contents (Elt Ideal)) (x5 : (⟨S2048, .f32⟩ : BufTy).Contents (Elt Ideal)) (x6 : (⟨S600x2048, .f32⟩ : BufTy).Contents (Elt Ideal)) (x7 : (⟨S600, .f32⟩ : BufTy).Contents (Elt Ideal)) (x8 : (⟨S4096x12288, .f32⟩ : BufTy).Contents (Elt Ideal)) (x9 : (⟨S4096, .f32⟩ : BufTy).Contents (Elt Ideal)) (x10 : (⟨S600x4096, .f32⟩ : BufTy).Contents (Elt Ideal)) (x11 : (⟨S600, .f32⟩ : BufTy).Contents (Elt Ideal)) (x12 : (⟨S1800x1800, .f32⟩ : BufTy).Contents (Elt Ideal)) (x13 : (⟨S1800, .f32⟩ : BufTy).Contents (Elt Ideal)) (x14 : (⟨S600x1800, .f32⟩ : BufTy).Contents (Elt Ideal)) (x15 : (⟨S600, .f32⟩ : BufTy).Contents (Elt Ideal))
    (hp : ∀ i : S1024.Idx, (x2 i).toNat < 100) (hn : ∀ i : S1024x128.Idx, (x3 i).toNat < 100)
    (p : Fin 1024) (j : Fin 129) :
    Read.val_main_v80 (F := Ideal) x0 x1 x2 x3 x4 x5 x6 x7 x8 x9 x10 x11 x12 x13 x14 x15 (ix2 p j)
      = Cert.Spec.result (fun a d => Read.val_main_v50 (F := Ideal) x0 x4 x5 x6 x7 x8 x9 x10 x11 x12 x13 x14 x15 (ix2 a d)) (fun v d => x1 (ix2 v d))
          (fun a => ⟨(x2 (ix1 a)).toNat, hp _⟩) (fun a n => ⟨(x3 (ix2 a n)).toNat, hn _⟩) p j := by
  unfold Read.val_main_v80 Cert.Spec.result
  rw [concat_apply]
  by_cases hj : j.val = 0
  · rw [dif_pos hj, dif_pos hj, Read.val_main_v79_apply]
    have hi : Read.idx_main_v79 (ix2 p (0 : Fin 1)) = ix1 p :=
      funext fun a => Fin.ext (by match a with | ⟨0, _⟩ => rfl)
    rw [hi]
    exact pscore_apply x0 x1 x2 x4 x5 x6 x7 x8 x9 x10 x11 x12 x13 x14 x15 hp p
  · rw [dif_neg hj, dif_neg hj]
    exact nscore_apply x0 x1 x3 x4 x5 x6 x7 x8 x9 x10 x11 x12 x13 x14 x15 hn p _

end Cert.RefSide

end
-- ==== Proof.RefEmb.lean ====
import proofs.«403270_j28226525069939_3_alg».proof.Proof.Gen.ReferenceIdeal.Read
import proofs.«403270_j28226525069939_3_alg».proof.Proof.Spec

/-! # The reference's embedding is `Cert.Spec.emb`

The reference computes three towers (subject, predicate, object), each a hidden layer `relu(relu(X)·Wᵀ + b)` followed by
a linear layer, lays the three results side by side, and sends the joined matrix through one more hidden layer and one
more linear layer. Over the extended reals every stage, read at an index, is the corresponding stage of `Cert.Spec`. -/

noncomputable section

namespace Cert.RefSide

open Cert.ReferenceIdeal Cert.ReferenceIdeal.Gen Idealize.ShloMosaic Idealize.ShloMosaic.TcCoe Idealize.SL.Sem Idealize.ShloMosaic.StableHlo
open scoped BigOperators

/-- The subject tower's hidden layer: the first 4096 feature columns against `W_h1`, `b_h1`, positive parts in and out. -/
theorem sbj_hidden (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (p : Fin 1024) (q : Fin 2048) :
    Read.val_main_v7 (F := Ideal) x0 x4 x5 (ValueIdx.ix2 p q)
      = Cert.Spec.hidden (Cert.Spec.cols 4096 0 (by decide) (fun a k => x0 (ValueIdx.ix2 a k)))
          (fun a k => x4 (ValueIdx.ix2 a k)) (fun a => x5 (ValueIdx.ix1 a)) p q := by
  rw [Read.val_main_v7_apply, Read.val_main_v6_apply, Read.val_main_v3_apply, Read.val_main_v5_apply,
    Read.val_main_v4_apply, Read.val_main_call1_v0_apply, Read.val_main_call1_cst_apply]
  simp only [Read.val_main_v1_apply, Read.val_main_v0_apply, Read.val_main_v2_apply,
    Read.val_main_call0_v0_apply, Read.val_main_call0_cst_apply, Ideal.maximumf_def, Ideal.addf_def,
    Ideal.ofBits_def, Ideal.ofBits_zero_f32]
  unfold Cert.Spec.hidden Cert.Spec.cols
  have ex : ∀ k : Fin 4096, Read.idx_main_v0 (Read.lidx_main_v3 (ValueIdx.ix2 p q) k)
      = ValueIdx.ix2 p (⟨0 + k.val, by have := k.isLt; omega⟩ : Fin 12288) := fun k =>
    funext fun a => Fin.ext (by match a with | ⟨0, _⟩ => rfl | ⟨1, _⟩ => exact (Nat.zero_add _).symm)
  have ew : ∀ k : Fin 4096, Read.idx_main_v2 (Read.ridx_main_v3 (ValueIdx.ix2 p q) k) = ValueIdx.ix2 q k := fun k =>
    funext fun a => Fin.ext (by match a with | ⟨0, _⟩ => rfl | ⟨1, _⟩ => rfl)
  have eb : Read.idx_main_v4 (Read.idx_main_v5 (ValueIdx.ix2 p q)) = ValueIdx.ix1 q :=
    funext fun a => Fin.ext (by match a with | ⟨0, _⟩ => rfl)
  simp only [ex, ew, eb]

/-- The subject tower's output layer over its hidden layer: `W_e1`, `b_e1`. -/
theorem sbj_lin (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (x6 : (⟨S600x2048, .f32⟩ : BufTy).Contents (Elt Ideal))
    (x7 : (⟨S600, .f32⟩ : BufTy).Contents (Elt Ideal)) (p : Fin 1024) (q : Fin 600) :
    Read.val_main_v12 (F := Ideal) x0 x4 x5 x6 x7 (ValueIdx.ix2 p q)
      = Cert.Spec.lin (fun a k => Read.val_main_v7 (F := Ideal) x0 x4 x5 (ValueIdx.ix2 a k))
          (fun a k => x6 (ValueIdx.ix2 a k)) (fun a => x7 (ValueIdx.ix1 a)) p q := by
  rw [Read.val_main_v12_apply, Read.val_main_v9_apply, Read.val_main_v11_apply, Read.val_main_v10_apply]
  simp only [Read.val_main_v8_apply, Ideal.addf_def]
  unfold Cert.Spec.lin
  have ex : ∀ k : Fin 2048, Read.lidx_main_v9 (ValueIdx.ix2 p q) k = ValueIdx.ix2 p k := fun k =>
    funext fun a => Fin.ext (by match a with | ⟨0, _⟩ => rfl | ⟨1, _⟩ => rfl)
  have ew : ∀ k : Fin 2048, Read.idx_main_v8 (Read.ridx_main_v9 (ValueIdx.ix2 p q) k) = ValueIdx.ix2 q k := fun k =>
    funext fun a => Fin.ext (by match a with | ⟨0, _⟩ => rfl | ⟨1, _⟩ => rfl)
  have eb : Read.idx_main_v10 (Read.idx_main_v11 (ValueIdx.ix2 p q)) = ValueIdx.ix1 q :=
    funext fun a => Fin.ext (by match a with | ⟨0, _⟩ => rfl)
  simp only [ex, ew, eb]

/-- The subject tower, as a matrix. -/
theorem sbj_out (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (x6 : (⟨S600x2048, .f32⟩ : BufTy).Contents (Elt Ideal))
    (x7 : (⟨S600, .f32⟩ : BufTy).Contents (Elt Ideal)) :
    (fun (a : Fin 1024) (k : Fin 600) => Read.val_main_v12 (F := Ideal) x0 x4 x5 x6 x7 (ValueIdx.ix2 a k))
      = Cert.Spec.lin (Cert.Spec.hidden (Cert.Spec.cols 4096 0 (by decide) (fun a k => x0 (ValueIdx.ix2 a k))) (fun a k => x4 (ValueIdx.ix2 a k)) (fun a => x5 (ValueIdx.ix1 a)))
          (fun a k => x6 (ValueIdx.ix2 a k)) (fun a => x7 (ValueIdx.ix1 a)) := by
  funext a k
  rw [sbj_lin]
  rw [show (fun (a : Fin 1024) k => Read.val_main_v7 (F := Ideal) x0 x4 x5 (ValueIdx.ix2 a k)) = _ from
    funext fun a => funext fun k => sbj_hidden x0 x4 x5 a k]

/-- The object tower's hidden layer: the last 4096 feature columns against the same `W_h1`, `b_h1`. -/
theorem obj_hidden (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (p : Fin 1024) (q : Fin 2048) :
    Read.val_main_v20 (F := Ideal) x0 x4 x5 (ValueIdx.ix2 p q)
      = Cert.Spec.hidden (Cert.Spec.cols 4096 8192 (by decide) (fun a k => x0 (ValueIdx.ix2 a k)))
          (fun a k => x4 (ValueIdx.ix2 a k)) (fun a => x5 (ValueIdx.ix1 a)) p q := by
  rw [Read.val_main_v20_apply, Read.val_main_v19_apply, Read.val_main_v16_apply, Read.val_main_v18_apply,
    Read.val_main_v17_apply, Read.val_main_call3_v0_apply, Read.val_main_call3_cst_apply]
  simp only [Read.val_main_v14_apply, Read.val_main_v13_apply, Read.val_main_v15_apply,
    Read.val_main_call2_v0_apply, Read.val_main_call2_cst_apply, Ideal.maximumf_def, Ideal.addf_def,
    Ideal.ofBits_def, Ideal.ofBits_zero_f32]
  unfold Cert.Spec.hidden Cert.Spec.cols
  have ex : ∀ k : Fin 4096, Read.idx_main_v13 (Read.lidx_main_v16 (ValueIdx.ix2 p q) k)
      = ValueIdx.ix2 p (⟨8192 + k.val, by have := k.isLt; omega⟩ : Fin 12288) := fun k =>
    funext fun a => Fin.ext (by match a with | ⟨0, _⟩ => rfl | ⟨1, _⟩ => rfl)
  have ew : ∀ k : Fin 4096, Read.idx_main_v15 (Read.ridx_main_v16 (ValueIdx.ix2 p q) k) = ValueIdx.ix2 q k := fun k =>
    funext fun a => Fin.ext (by match a with | ⟨0, _⟩ => rfl | ⟨1, _⟩ => rfl)
  have eb : Read.idx_main_v17 (Read.idx_main_v18 (ValueIdx.ix2 p q)) = ValueIdx.ix1 q :=
    funext fun a => Fin.ext (by match a with | ⟨0, _⟩ => rfl)
  simp only [ex, ew, eb]

/-- The object tower's output layer over its hidden layer: the same `W_e1`, `b_e1`. -/
theorem obj_lin (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (x6 : (⟨S600x2048, .f32⟩ : BufTy).Contents (Elt Ideal))
    (x7 : (⟨S600, .f32⟩ : BufTy).Contents (Elt Ideal)) (p : Fin 1024) (q : Fin 600) :
    Read.val_main_v25 (F := Ideal) x0 x4 x5 x6 x7 (ValueIdx.ix2 p q)
      = Cert.Spec.lin (fun a k => Read.val_main_v20 (F := Ideal) x0 x4 x5 (ValueIdx.ix2 a k))
          (fun a k => x6 (ValueIdx.ix2 a k)) (fun a => x7 (ValueIdx.ix1 a)) p q := by
  rw [Read.val_main_v25_apply, Read.val_main_v22_apply, Read.val_main_v24_apply, Read.val_main_v23_apply]
  simp only [Read.val_main_v21_apply, Ideal.addf_def]
  unfold Cert.Spec.lin
  have ex : ∀ k : Fin 2048, Read.lidx_main_v22 (ValueIdx.ix2 p q) k = ValueIdx.ix2 p k := fun k =>
    funext fun a => Fin.ext (by match a with | ⟨0, _⟩ => rfl | ⟨1, _⟩ => rfl)
  have ew : ∀ k : Fin 2048, Read.idx_main_v21 (Read.ridx_main_v22 (ValueIdx.ix2 p q) k) = ValueIdx.ix2 q k := fun k =>
    funext fun a => Fin.ext (by match a with | ⟨0, _⟩ => rfl | ⟨1, _⟩ => rfl)
  have eb : Read.idx_main_v23 (Read.idx_main_v24 (ValueIdx.ix2 p q)) = ValueIdx.ix1 q :=
    funext fun a => Fin.ext (by match a with | ⟨0, _⟩ => rfl)
  simp only [ex, ew, eb]

/-- The object tower, as a matrix. -/
theorem obj_out (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (x6 : (⟨S600x2048, .f32⟩ : BufTy).Contents (Elt Ideal))
    (x7 : (⟨S600, .f32⟩ : BufTy).Contents (Elt Ideal)) :
    (fun (a : Fin 1024) (k : Fin 600) => Read.val_main_v25 (F := Ideal) x0 x4 x5 x6 x7 (ValueIdx.ix2 a k))
      = Cert.Spec.lin (Cert.Spec.hidden (Cert.Spec.cols 4096 8192 (by decide) (fun a k => x0 (ValueIdx.ix2 a k))) (fun a k => x4 (ValueIdx.ix2 a k)) (fun a => x5 (ValueIdx.ix1 a)))
          (fun a k => x6 (ValueIdx.ix2 a k)) (fun a => x7 (ValueIdx.ix1 a)) := by
  funext a k
  rw [obj_lin]
  rw [show (fun (a : Fin 1024) k => Read.val_main_v20 (F := Ideal) x0 x4 x5 (ValueIdx.ix2 a k)) = _ from
    funext fun a => funext fun k => obj_hidden x0 x4 x5 a k]

/-- The predicate tower's hidden layer: all 12288 feature columns against `W_h2`, `b_h2`. -/
theorem pre_hidden (x0 : (⟨S1024x12288, .f32⟩ : BufTy).Contents (Elt Ideal))
    (x8 : (⟨S4096x12288, .f32⟩ : BufTy).Contents (Elt Ideal)) (x9 : (⟨S4096, .f32⟩ : BufTy).Contents (Elt Ideal))
    (p : Fin 1024) (q : Fin 4096) :
    Read.val_main_v32 (F := Ideal) x0 x8 x9 (ValueIdx.ix2 p q)
      = Cert.Spec.hidden (fun a k => x0 (ValueIdx.ix2 a k))
          (fun a k => x8 (ValueIdx.ix2 a k)) (fun a => x9 (ValueIdx.ix1 a)) p q := by
  rw [Read.val_main_v32_apply, Read.val_main_v31_apply, Read.val_main_v28_apply, Read.val_main_v30_apply,
    Read.val_main_v29_apply, Read.val_main_call5_v0_apply, Read.val_main_call5_cst_apply]
  simp only [Read.val_main_v26_apply, Read.val_main_v27_apply,
    Read.val_main_call4_v0_apply, Read.val_main_call4_cst_apply, Ideal.maximumf_def, Ideal.addf_def,
    Ideal.ofBits_def, Ideal.ofBits_zero_f32]
  unfold Cert.Spec.hidden
  have ex : ∀ k : Fin 12288, Read.lidx_main_v28 (ValueIdx.ix2 p q) k = ValueIdx.ix2 p k := fun k =>
    funext fun a => Fin.ext (by match a with | ⟨0, _⟩ => rfl | ⟨1, _⟩ => rfl)
  have ew : ∀ k : Fin 12288, Read.idx_main_v27 (Read.ridx_main_v28 (ValueIdx.ix2 p q) k) = ValueIdx.ix2 q k := fun k =>
    funext fun a => Fin.ext (by match a with | ⟨0, _⟩ => rfl | ⟨1, _⟩ => rfl)
  have eb : Read.idx_main_v29 (Read.idx_main_v30 (ValueIdx.ix2 p q)) = ValueIdx.ix1 q :=
    funext fun a => Fin.ext (by match a with | ⟨0, _⟩ => rfl)
  simp only [ex, ew, eb]

/-- The predicate tower's output layer over its hidden layer: `W_e2`, `b_e2`. -/
theorem pre_lin (x0 : (⟨S1024x12288, .f32⟩ : BufTy).Contents (Elt Ideal))
    (x8 : (⟨S4096x12288, .f32⟩ : BufTy).Contents (Elt Ideal)) (x9 : (⟨S4096, .f32⟩ : BufTy).Contents (Elt Ideal))
    (x10 : (⟨S600x4096, .f32⟩ : BufTy).Contents (Elt Ideal)) (x11 : (⟨S600, .f32⟩ : BufTy).Contents (Elt Ideal))
    (p : Fin 1024) (q : Fin 600) :
    Read.val_main_v37 (F := Ideal) x0 x8 x9 x10 x11 (ValueIdx.ix2 p q)
      = Cert.Spec.lin (fun a k => Read.val_main_v32 (F := Ideal) x0 x8 x9 (ValueIdx.ix2 a k))
          (fun a k => x10 (ValueIdx.ix2 a k)) (fun a => x11 (ValueIdx.ix1 a)) p q := by
  rw [Read.val_main_v37_apply, Read.val_main_v34_apply, Read.val_main_v36_apply, Read.val_main_v35_apply]
  simp only [Read.val_main_v33_apply, Ideal.addf_def]
  unfold Cert.Spec.lin
  have ex : ∀ k : Fin 4096, Read.lidx_main_v34 (ValueIdx.ix2 p q) k = ValueIdx.ix2 p k := fun k =>
    funext fun a => Fin.ext (by match a with | ⟨0, _⟩ => rfl | ⟨1, _⟩ => rfl)
  have ew : ∀ k : Fin 4096, Read.idx_main_v33 (Read.ridx_main_v34 (ValueIdx.ix2 p q) k) = ValueIdx.ix2 q k := fun k =>
    funext fun a => Fin.ext (by match a with | ⟨0, _⟩ => rfl | ⟨1, _⟩ => rfl)
  have eb : Read.idx_main_v35 (Read.idx_main_v36 (ValueIdx.ix2 p q)) = ValueIdx.ix1 q :=
    funext fun a => Fin.ext (by match a with | ⟨0, _⟩ => rfl)
  simp only [ex, ew, eb]

/-- The predicate tower, as a matrix. -/
theorem pre_out (x0 : (⟨S1024x12288, .f32⟩ : BufTy).Contents (Elt Ideal))
    (x8 : (⟨S4096x12288, .f32⟩ : BufTy).Contents (Elt Ideal)) (x9 : (⟨S4096, .f32⟩ : BufTy).Contents (Elt Ideal))
    (x10 : (⟨S600x4096, .f32⟩ : BufTy).Contents (Elt Ideal)) (x11 : (⟨S600, .f32⟩ : BufTy).Contents (Elt Ideal)) :
    (fun (a : Fin 1024) (k : Fin 600) => Read.val_main_v37 (F := Ideal) x0 x8 x9 x10 x11 (ValueIdx.ix2 a k))
      = Cert.Spec.lin (Cert.Spec.hidden (fun a k => x0 (ValueIdx.ix2 a k)) (fun a k => x8 (ValueIdx.ix2 a k)) (fun a => x9 (ValueIdx.ix1 a)))
          (fun a k => x10 (ValueIdx.ix2 a k)) (fun a => x11 (ValueIdx.ix1 a)) := by
  funext a k
  rw [pre_lin]
  rw [show (fun (a : Fin 1024) k => Read.val_main_v32 (F := Ideal) x0 x8 x9 (ValueIdx.ix2 a k)) = _ from
    funext fun a => funext fun k => pre_hidden x0 x8 x9 a k]

/-- Three 1024 × 600 matrices joined along the columns, read at row `p` and column `j`: the first where `j < 600`, the
    second where `600 ≤ j < 1200`, the third beyond, each at its own column `j`, `j - 600`, `j - 1200`. -/
theorem cat_apply (A B C : (⟨S1024x600, .f32⟩ : BufTy).Contents (Elt Ideal)) (p : Fin 1024) (j : Fin 1800) :
    concatenate S1024x1800 1 [⟨S1024x600, A⟩, ⟨S1024x600, B⟩, ⟨S1024x600, C⟩]
        concatenates_S1024x600_S1024x600_S1024x600_S1024x1800_d1 (ValueIdx.ix2 p j)
      = Cert.Spec.cat3 (N := 600) (fun a k => A (ValueIdx.ix2 a k)) (fun a k => B (ValueIdx.ix2 a k)) (fun a k => C (ValueIdx.ix2 a k)) p j := by
  have hj := j.isLt
  unfold Cert.Spec.cat3
  by_cases h1 : j.val < 600
  · rw [dif_pos h1]
    exact concatenate_apply_piece (1 : Fin S1024x1800.rank) _ _ (ValueIdx.ix2 p j) 0 (by show 0 < 3; omega) S1024x600 A rfl rfl 0 rfl
      (ValueIdx.ix2 p ⟨j.val, h1⟩) (fun b hb => by match b with | ⟨0, _⟩ => rfl | ⟨1, _⟩ => exact absurd rfl hb)
      (Nat.zero_add _)
  · rw [dif_neg h1]
    by_cases h2 : j.val < 2 * 600
    · rw [dif_pos h2]
      exact concatenate_apply_piece (1 : Fin S1024x1800.rank) _ _ (ValueIdx.ix2 p j) 1 (by show 1 < 3; omega) S1024x600 B rfl rfl 600 rfl
        (ValueIdx.ix2 p ⟨j.val - 600, by omega⟩) (fun b hb => by match b with | ⟨0, _⟩ => rfl | ⟨1, _⟩ => exact absurd rfl hb)
        (by show 600 + (j.val - 600) = j.val; omega)
    · rw [dif_neg h2]
      exact concatenate_apply_piece (1 : Fin S1024x1800.rank) _ _ (ValueIdx.ix2 p j) 2 (by show 2 < 3; omega) S1024x600 C rfl rfl 1200 rfl
        (ValueIdx.ix2 p ⟨j.val - 2 * 600, by omega⟩) (fun b hb => by match b with | ⟨0, _⟩ => rfl | ⟨1, _⟩ => exact absurd rfl hb)
        (by show 1200 + (j.val - 2 * 600) = j.val; omega)

/-- The joined matrix: subject, predicate, object side by side. -/
theorem joined (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (x6 : (⟨S600x2048, .f32⟩ : BufTy).Contents (Elt Ideal))
    (x7 : (⟨S600, .f32⟩ : BufTy).Contents (Elt Ideal)) (x8 : (⟨S4096x12288, .f32⟩ : BufTy).Contents (Elt Ideal))
    (x9 : (⟨S4096, .f32⟩ : BufTy).Contents (Elt Ideal)) (x10 : (⟨S600x4096, .f32⟩ : BufTy).Contents (Elt Ideal))
    (x11 : (⟨S600, .f32⟩ : BufTy).Contents (Elt Ideal)) :
    (fun (a : Fin 1024) (k : Fin 1800) => Read.val_main_v38 (F := Ideal) x0 x4 x5 x6 x7 x8 x9 x10 x11 (ValueIdx.ix2 a k))
      = Cert.Spec.cat3 (N := 600)
          (Cert.Spec.lin (Cert.Spec.hidden (Cert.Spec.cols 4096 0 (by decide) (fun a k => x0 (ValueIdx.ix2 a k))) (fun a k => x4 (ValueIdx.ix2 a k)) (fun a => x5 (ValueIdx.ix1 a)))
            (fun a k => x6 (ValueIdx.ix2 a k)) (fun a => x7 (ValueIdx.ix1 a)))
          (Cert.Spec.lin (Cert.Spec.hidden (fun a k => x0 (ValueIdx.ix2 a k)) (fun a k => x8 (ValueIdx.ix2 a k)) (fun a => x9 (ValueIdx.ix1 a)))
            (fun a k => x10 (ValueIdx.ix2 a k)) (fun a => x11 (ValueIdx.ix1 a)))
          (Cert.Spec.lin (Cert.Spec.hidden (Cert.Spec.cols 4096 8192 (by decide) (fun a k => x0 (ValueIdx.ix2 a k))) (fun a k => x4 (ValueIdx.ix2 a k)) (fun a => x5 (ValueIdx.ix1 a)))
            (fun a k => x6 (ValueIdx.ix2 a k)) (fun a => x7 (ValueIdx.ix1 a))) := by
  funext a k
  unfold Read.val_main_v38
  rw [cat_apply, sbj_out, pre_out, obj_out]

/-- The last hidden layer over the joined matrix: `W_h`, `b_h`, positive parts in and out. -/
theorem top_hidden (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (x6 : (⟨S600x2048, .f32⟩ : BufTy).Contents (Elt Ideal))
    (x7 : (⟨S600, .f32⟩ : BufTy).Contents (Elt Ideal)) (x8 : (⟨S4096x12288, .f32⟩ : BufTy).Contents (Elt Ideal))
    (x9 : (⟨S4096, .f32⟩ : BufTy).Contents (Elt Ideal)) (x10 : (⟨S600x4096, .f32⟩ : BufTy).Contents (Elt Ideal))
    (x11 : (⟨S600, .f32⟩ : BufTy).Contents (Elt Ideal)) (x12 : (⟨S1800x1800, .f32⟩ : BufTy).Contents (Elt Ideal))
    (x13 : (⟨S1800, .f32⟩ : BufTy).Contents (Elt Ideal)) (p : Fin 1024) (q : Fin 1800) :
    Read.val_main_v45 (F := Ideal) x0 x4 x5 x6 x7 x8 x9 x10 x11 x12 x13 (ValueIdx.ix2 p q)
      = Cert.Spec.hidden (fun a k => Read.val_main_v38 (F := Ideal) x0 x4 x5 x6 x7 x8 x9 x10 x11 (ValueIdx.ix2 a k))
          (fun a k => x12 (ValueIdx.ix2 a k)) (fun a => x13 (ValueIdx.ix1 a)) p q := by
  rw [Read.val_main_v45_apply, Read.val_main_v44_apply, Read.val_main_v41_apply, Read.val_main_v43_apply,
    Read.val_main_v42_apply, Read.val_main_call7_v0_apply, Read.val_main_call7_cst_apply]
  simp only [Read.val_main_v39_apply, Read.val_main_v40_apply,
    Read.val_main_call6_v0_apply, Read.val_main_call6_cst_apply, Ideal.maximumf_def, Ideal.addf_def,
    Ideal.ofBits_def, Ideal.ofBits_zero_f32]
  unfold Cert.Spec.hidden
  have ex : ∀ k : Fin 1800, Read.lidx_main_v41 (ValueIdx.ix2 p q) k = ValueIdx.ix2 p k := fun k =>
    funext fun a => Fin.ext (by match a with | ⟨0, _⟩ => rfl | ⟨1, _⟩ => rfl)
  have ew : ∀ k : Fin 1800, Read.idx_main_v40 (Read.ridx_main_v41 (ValueIdx.ix2 p q) k) = ValueIdx.ix2 q k := fun k =>
    funext fun a => Fin.ext (by match a with | ⟨0, _⟩ => rfl | ⟨1, _⟩ => rfl)
  have eb : Read.idx_main_v42 (Read.idx_main_v43 (ValueIdx.ix2 p q)) = ValueIdx.ix1 q :=
    funext fun a => Fin.ext (by match a with | ⟨0, _⟩ => rfl)
  simp only [ex, ew, eb]

/-- The last linear layer over the last hidden layer: `W_e`, `b_e`. -/
theorem top_lin (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (x6 : (⟨S600x2048, .f32⟩ : BufTy).Contents (Elt Ideal))
    (x7 : (⟨S600, .f32⟩ : BufTy).Contents (Elt Ideal)) (x8 : (⟨S4096x12288, .f32⟩ : BufTy).Contents (Elt Ideal))
    (x9 : (⟨S4096, .f32⟩ : BufTy).Contents (Elt Ideal)) (x10 : (⟨S600x4096, .f32⟩ : BufTy).Contents (Elt Ideal))
    (x11 : (⟨S600, .f32⟩ : BufTy).Contents (Elt Ideal)) (x12 : (⟨S1800x1800, .f32⟩ : BufTy).Contents (Elt Ideal))
    (x13 : (⟨S1800, .f32⟩ : BufTy).Contents (Elt Ideal)) (x14 : (⟨S600x1800, .f32⟩ : BufTy).Contents (Elt Ideal))
    (x15 : (⟨S600, .f32⟩ : BufTy).Contents (Elt Ideal)) (p : Fin 1024) (q : Fin 600) :
    Read.val_main_v50 (F := Ideal) x0 x4 x5 x6 x7 x8 x9 x10 x11 x12 x13 x14 x15 (ValueIdx.ix2 p q)
      = Cert.Spec.lin (fun a k => Read.val_main_v45 (F := Ideal) x0 x4 x5 x6 x7 x8 x9 x10 x11 x12 x13 (ValueIdx.ix2 a k))
          (fun a k => x14 (ValueIdx.ix2 a k)) (fun a => x15 (ValueIdx.ix1 a)) p q := by
  rw [Read.val_main_v50_apply, Read.val_main_v47_apply, Read.val_main_v49_apply, Read.val_main_v48_apply]
  simp only [Read.val_main_v46_apply, Ideal.addf_def]
  unfold Cert.Spec.lin
  have ex : ∀ k : Fin 1800, Read.lidx_main_v47 (ValueIdx.ix2 p q) k = ValueIdx.ix2 p k := fun k =>
    funext fun a => Fin.ext (by match a with | ⟨0, _⟩ => rfl | ⟨1, _⟩ => rfl)
  have ew : ∀ k : Fin 1800, Read.idx_main_v46 (Read.ridx_main_v47 (ValueIdx.ix2 p q) k) = ValueIdx.ix2 q k := fun k =>
    funext fun a => Fin.ext (by match a with | ⟨0, _⟩ => rfl | ⟨1, _⟩ => rfl)
  have eb : Read.idx_main_v48 (Read.idx_main_v49 (ValueIdx.ix2 p q)) = ValueIdx.ix1 q :=
    funext fun a => Fin.ext (by match a with | ⟨0, _⟩ => rfl)
  simp only [ex, ew, eb]

/-- **The reference's embedding is `Cert.Spec.emb` of the arguments**, index by index. -/
theorem ref_emb (x0 : (⟨S1024x12288, .f32⟩ : BufTy).Contents (Elt Ideal)) (x4 : (⟨S2048x4096, .f32⟩ : BufTy).Contents (Elt Ideal))
    (x5 : (⟨S2048, .f32⟩ : BufTy).Contents (Elt Ideal)) (x6 : (⟨S600x2048, .f32⟩ : BufTy).Contents (Elt Ideal))
    (x7 : (⟨S600, .f32⟩ : BufTy).Contents (Elt Ideal)) (x8 : (⟨S4096x12288, .f32⟩ : BufTy).Contents (Elt Ideal))
    (x9 : (⟨S4096, .f32⟩ : BufTy).Contents (Elt Ideal)) (x10 : (⟨S600x4096, .f32⟩ : BufTy).Contents (Elt Ideal))
    (x11 : (⟨S600, .f32⟩ : BufTy).Contents (Elt Ideal)) (x12 : (⟨S1800x1800, .f32⟩ : BufTy).Contents (Elt Ideal))
    (x13 : (⟨S1800, .f32⟩ : BufTy).Contents (Elt Ideal)) (x14 : (⟨S600x1800, .f32⟩ : BufTy).Contents (Elt Ideal))
    (x15 : (⟨S600, .f32⟩ : BufTy).Contents (Elt Ideal)) (p : Fin 1024) (q : Fin 600) :
    Read.val_main_v50 (F := Ideal) x0 x4 x5 x6 x7 x8 x9 x10 x11 x12 x13 x14 x15 (ValueIdx.ix2 p q)
      = Cert.Spec.emb (fun a k => x0 (ValueIdx.ix2 a k)) (fun a k => x4 (ValueIdx.ix2 a k)) (fun a => x5 (ValueIdx.ix1 a)) (fun a k => x6 (ValueIdx.ix2 a k)) (fun a => x7 (ValueIdx.ix1 a))
          (fun a k => x8 (ValueIdx.ix2 a k)) (fun a => x9 (ValueIdx.ix1 a)) (fun a k => x10 (ValueIdx.ix2 a k)) (fun a => x11 (ValueIdx.ix1 a))
          (fun a k => x12 (ValueIdx.ix2 a k)) (fun a => x13 (ValueIdx.ix1 a)) (fun a k => x14 (ValueIdx.ix2 a k)) (fun a => x15 (ValueIdx.ix1 a)) p q := by
  rw [top_lin]
  rw [show (fun (a : Fin 1024) (k : Fin 1800) => Read.val_main_v45 (F := Ideal) x0 x4 x5 x6 x7 x8 x9 x10 x11 x12 x13 (ValueIdx.ix2 a k)) = _ from
    funext fun a => funext fun k => top_hidden x0 x4 x5 x6 x7 x8 x9 x10 x11 x12 x13 a k]
  rw [joined]
  rfl

end Cert.RefSide

end
-- ==== Proof.RefValue.lean ====
import proofs.«403270_j28226525069939_3_alg».proof.Proof.Gen.ReferenceIdeal.Read
import proofs.«403270_j28226525069939_3_alg».proof.Proof.Spec
import proofs.«403270_j28226525069939_3_alg».proof.Proof.RefScore
import proofs.«403270_j28226525069939_3_alg».proof.Proof.RefEmb

noncomputable section

namespace Cert.RefSide

open Cert.ReferenceIdeal Cert.ReferenceIdeal.Gen Idealize.ShloMosaic Idealize.ShloMosaic.TcCoe Idealize.SL.Sem Idealize.ShloMosaic.StableHlo Idealize.ShloMosaic.ValueIdx
open scoped BigOperators

/-! # The reference's result as one function of its sixteen arguments

`G` is the mathematics of the whole program — `Cert.Spec.result` of `Cert.Spec.emb` — written over the argument arrays
alone (each array read by its coordinates, each label word by its value), under the hypothesis that every label word
lies in `[0, 100)`. The reference's last stage is `G` of the arguments' contents at launch. -/

/-- The scores of every sample against its positive and its 128 negative labels, from the sixteen argument arrays:
    features `x0`, label table `x1`, positive labels `x2`, negative labels `x3`, the towers' and the top layers' weights and
    biases `x4 … x15`. -/
def G (x0 : (⟨S1024x12288, .f32⟩ : BufTy).Contents (Elt Ideal)) (x1 : (⟨S100x600, .f32⟩ : BufTy).Contents (Elt Ideal)) (x2 : (⟨S1024, .i32⟩ : BufTy).Contents (Elt Ideal)) (x3 : (⟨S1024x128, .i32⟩ : BufTy).Contents (Elt Ideal)) (x4 : (⟨S2048x4096, .f32⟩ : BufTy).Contents (Elt Ideal)) (x5 : (⟨S2048, .f32⟩ : BufTy).Contents (Elt Ideal)) (x6 : (⟨S600x2048, .f32⟩ : BufTy).Contents (Elt Ideal)) (x7 : (⟨S600, .f32⟩ : BufTy).Contents (Elt Ideal)) (x8 : (⟨S4096x12288, .f32⟩ : BufTy).Contents (Elt Ideal)) (x9 : (⟨S4096, .f32⟩ : BufTy).Contents (Elt Ideal)) (x10 : (⟨S600x4096, .f32⟩ : BufTy).Contents (Elt Ideal)) (x11 : (⟨S600, .f32⟩ : BufTy).Contents (Elt Ideal)) (x12 : (⟨S1800x1800, .f32⟩ : BufTy).Contents (Elt Ideal)) (x13 : (⟨S1800, .f32⟩ : BufTy).Contents (Elt Ideal)) (x14 : (⟨S600x1800, .f32⟩ : BufTy).Contents (Elt Ideal)) (x15 : (⟨S600, .f32⟩ : BufTy).Contents (Elt Ideal))
    (hp : ∀ i : S1024.Idx, (x2 i).toNat < 100) (hn : ∀ i : S1024x128.Idx, (x3 i).toNat < 100) :
    (⟨S1024x129, .f32⟩ : BufTy).Contents (Elt Ideal) :=
  fun i => Cert.Spec.result
      (Cert.Spec.emb (fun a k => x0 (ix2 a k)) (fun a k => x4 (ix2 a k)) (fun a => x5 (ix1 a)) (fun a k => x6 (ix2 a k)) (fun a => x7 (ix1 a))
          (fun a k => x8 (ix2 a k)) (fun a => x9 (ix1 a)) (fun a k => x10 (ix2 a k)) (fun a => x11 (ix1 a))
          (fun a k => x12 (ix2 a k)) (fun a => x13 (ix1 a)) (fun a k => x14 (ix2 a k)) (fun a => x15 (ix1 a)))
      (fun v d => x1 (ix2 v d)) (fun a => ⟨(x2 (ix1 a)).toNat, hp _⟩) (fun a n => ⟨(x3 (ix2 a n)).toNat, hn _⟩) (i 0) (i 1)

/-- `G` at (p, j), by coordinates. -/
theorem G_apply (x0 : (⟨S1024x12288, .f32⟩ : BufTy).Contents (Elt Ideal)) (x1 : (⟨S100x600, .f32⟩ : BufTy).Contents (Elt Ideal)) (x2 : (⟨S1024, .i32⟩ : BufTy).Contents (Elt Ideal)) (x3 : (⟨S1024x128, .i32⟩ : BufTy).Contents (Elt Ideal)) (x4 : (⟨S2048x4096, .f32⟩ : BufTy).Contents (Elt Ideal)) (x5 : (⟨S2048, .f32⟩ : BufTy).Contents (Elt Ideal)) (x6 : (⟨S600x2048, .f32⟩ : BufTy).Contents (Elt Ideal)) (x7 : (⟨S600, .f32⟩ : BufTy).Contents (Elt Ideal)) (x8 : (⟨S4096x12288, .f32⟩ : BufTy).Contents (Elt Ideal)) (x9 : (⟨S4096, .f32⟩ : BufTy).Contents (Elt Ideal)) (x10 : (⟨S600x4096, .f32⟩ : BufTy).Contents (Elt Ideal)) (x11 : (⟨S600, .f32⟩ : BufTy).Contents (Elt Ideal)) (x12 : (⟨S1800x1800, .f32⟩ : BufTy).Contents (Elt Ideal)) (x13 : (⟨S1800, .f32⟩ : BufTy).Contents (Elt Ideal)) (x14 : (⟨S600x1800, .f32⟩ : BufTy).Contents (Elt Ideal)) (x15 : (⟨S600, .f32⟩ : BufTy).Contents (Elt Ideal))
    (hp : ∀ i : S1024.Idx, (x2 i).toNat < 100) (hn : ∀ i : S1024x128.Idx, (x3 i).toNat < 100) (p : Fin 1024) (j : Fin 129) :
    G x0 x1 x2 x3 x4 x5 x6 x7 x8 x9 x10 x11 x12 x13 x14 x15 hp hn (ix2 p j) = Cert.Spec.result
      (Cert.Spec.emb (fun a k => x0 (ix2 a k)) (fun a k => x4 (ix2 a k)) (fun a => x5 (ix1 a)) (fun a k => x6 (ix2 a k)) (fun a => x7 (ix1 a))
          (fun a k => x8 (ix2 a k)) (fun a => x9 (ix1 a)) (fun a k => x10 (ix2 a k)) (fun a => x11 (ix1 a))
          (fun a k => x12 (ix2 a k)) (fun a => x13 (ix1 a)) (fun a k => x14 (ix2 a k)) (fun a => x15 (ix1 a)))
      (fun v d => x1 (ix2 v d)) (fun a => ⟨(x2 (ix1 a)).toNat, hp _⟩) (fun a n => ⟨(x3 (ix2 a n)).toNat, hn _⟩) p j := rfl

/-- The reference's last stage, as a function of the sixteen arrays, is `G`. -/
theorem ref_stage (x0 : (⟨S1024x12288, .f32⟩ : BufTy).Contents (Elt Ideal)) (x1 : (⟨S100x600, .f32⟩ : BufTy).Contents (Elt Ideal)) (x2 : (⟨S1024, .i32⟩ : BufTy).Contents (Elt Ideal)) (x3 : (⟨S1024x128, .i32⟩ : BufTy).Contents (Elt Ideal)) (x4 : (⟨S2048x4096, .f32⟩ : BufTy).Contents (Elt Ideal)) (x5 : (⟨S2048, .f32⟩ : BufTy).Contents (Elt Ideal)) (x6 : (⟨S600x2048, .f32⟩ : BufTy).Contents (Elt Ideal)) (x7 : (⟨S600, .f32⟩ : BufTy).Contents (Elt Ideal)) (x8 : (⟨S4096x12288, .f32⟩ : BufTy).Contents (Elt Ideal)) (x9 : (⟨S4096, .f32⟩ : BufTy).Contents (Elt Ideal)) (x10 : (⟨S600x4096, .f32⟩ : BufTy).Contents (Elt Ideal)) (x11 : (⟨S600, .f32⟩ : BufTy).Contents (Elt Ideal)) (x12 : (⟨S1800x1800, .f32⟩ : BufTy).Contents (Elt Ideal)) (x13 : (⟨S1800, .f32⟩ : BufTy).Contents (Elt Ideal)) (x14 : (⟨S600x1800, .f32⟩ : BufTy).Contents (Elt Ideal)) (x15 : (⟨S600, .f32⟩ : BufTy).Contents (Elt Ideal))
    (hp : ∀ i : S1024.Idx, (x2 i).toNat < 100) (hn : ∀ i : S1024x128.Idx, (x3 i).toNat < 100) :
    Read.val_main_v80 (F := Ideal) x0 x1 x2 x3 x4 x5 x6 x7 x8 x9 x10 x11 x12 x13 x14 x15 = G x0 x1 x2 x3 x4 x5 x6 x7 x8 x9 x10 x11 x12 x13 x14 x15 hp hn := by
  funext i
  obtain ⟨p, j, rfl⟩ : ∃ (p : Fin 1024) (j : Fin 129), i = ix2 p j := ⟨i 0, i 1, eq_ix2 i⟩
  have hE : (fun (a : Fin 1024) (d : Fin 600) => Read.val_main_v50 (F := Ideal) x0 x4 x5 x6 x7 x8 x9 x10 x11 x12 x13 x14 x15 (ix2 a d))
      = Cert.Spec.emb (fun a k => x0 (ix2 a k)) (fun a k => x4 (ix2 a k)) (fun a => x5 (ix1 a)) (fun a k => x6 (ix2 a k)) (fun a => x7 (ix1 a))
          (fun a k => x8 (ix2 a k)) (fun a => x9 (ix1 a)) (fun a k => x10 (ix2 a k)) (fun a => x11 (ix1 a))
          (fun a k => x12 (ix2 a k)) (fun a => x13 (ix1 a)) (fun a k => x14 (ix2 a k)) (fun a => x15 (ix1 a)) :=
    funext fun a => funext fun d => ref_emb x0 x4 x5 x6 x7 x8 x9 x10 x11 x12 x13 x14 x15 a d
  rw [ref_result x0 x1 x2 x3 x4 x5 x6 x7 x8 x9 x10 x11 x12 x13 x14 x15 hp hn p j, hE, G_apply]

/-- THE REFERENCE'S VALUE: from launch memory `m` whose label words lie in `[0, 100)`, the reference's result on device `c`
    is `G` of the sixteen arguments' contents in `m`. -/
theorem ref_value (m : (ℓ : Loc nD τ sig) → Buf (Elt Ideal) ℓ) (c : Dev nD)
    (hp : ∀ i : S1024.Idx, ((m ((c.tc : Thread nD τ).loc main_arg2)) i).toNat < 100)
    (hn : ∀ i : S1024x128.Idx, ((m ((c.tc : Thread nD τ).loc main_arg3)) i).toNat < 100) :
    Cert.ReferenceIdeal.Value.res_main_v80 (F := Ideal) m c
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) hp hn := by
  rw [Read.val_main_v80_eq]
  exact ref_stage _ _ _ _ _ _ _ _ _ _ _ _ _ _ _ _ hp hn

/-- The same, for a launch memory known only through its sixteen arguments' contents: if `m'` holds `x0 … x15` in the
    argument buffers and the label words of `x2`, `x3` lie in `[0, 100)`, the reference's result from `m'` is `G x0 … x15`. -/
theorem ref_value_of_agree (m' : (ℓ : Loc nD τ sig) → Buf (Elt Ideal) ℓ) (c : Dev nD)
    (x0 : (⟨S1024x12288, .f32⟩ : BufTy).Contents (Elt Ideal)) (x1 : (⟨S100x600, .f32⟩ : BufTy).Contents (Elt Ideal)) (x2 : (⟨S1024, .i32⟩ : BufTy).Contents (Elt Ideal)) (x3 : (⟨S1024x128, .i32⟩ : BufTy).Contents (Elt Ideal)) (x4 : (⟨S2048x4096, .f32⟩ : BufTy).Contents (Elt Ideal)) (x5 : (⟨S2048, .f32⟩ : BufTy).Contents (Elt Ideal)) (x6 : (⟨S600x2048, .f32⟩ : BufTy).Contents (Elt Ideal)) (x7 : (⟨S600, .f32⟩ : BufTy).Contents (Elt Ideal)) (x8 : (⟨S4096x12288, .f32⟩ : BufTy).Contents (Elt Ideal)) (x9 : (⟨S4096, .f32⟩ : BufTy).Contents (Elt Ideal)) (x10 : (⟨S600x4096, .f32⟩ : BufTy).Contents (Elt Ideal)) (x11 : (⟨S600, .f32⟩ : BufTy).Contents (Elt Ideal)) (x12 : (⟨S1800x1800, .f32⟩ : BufTy).Contents (Elt Ideal)) (x13 : (⟨S1800, .f32⟩ : BufTy).Contents (Elt Ideal)) (x14 : (⟨S600x1800, .f32⟩ : BufTy).Contents (Elt Ideal)) (x15 : (⟨S600, .f32⟩ : BufTy).Contents (Elt Ideal))
    (e0 : m' ((c.tc : Thread nD τ).loc main_arg0) = x0)
    (e1 : m' ((c.tc : Thread nD τ).loc main_arg1) = x1)
    (e2 : m' ((c.tc : Thread nD τ).loc main_arg2) = x2)
    (e3 : m' ((c.tc : Thread nD τ).loc main_arg3) = x3)
    (e4 : m' ((c.tc : Thread nD τ).loc main_arg4) = x4)
    (e5 : m' ((c.tc : Thread nD τ).loc main_arg5) = x5)
    (e6 : m' ((c.tc : Thread nD τ).loc main_arg6) = x6)
    (e7 : m' ((c.tc : Thread nD τ).loc main_arg7) = x7)
    (e8 : m' ((c.tc : Thread nD τ).loc main_arg8) = x8)
    (e9 : m' ((c.tc : Thread nD τ).loc main_arg9) = x9)
    (e10 : m' ((c.tc : Thread nD τ).loc main_arg10) = x10)
    (e11 : m' ((c.tc : Thread nD τ).loc main_arg11) = x11)
    (e12 : m' ((c.tc : Thread nD τ).loc main_arg12) = x12)
    (e13 : m' ((c.tc : Thread nD τ).loc main_arg13) = x13)
    (e14 : m' ((c.tc : Thread nD τ).loc main_arg14) = x14)
    (e15 : m' ((c.tc : Thread nD τ).loc main_arg15) = x15)
    (hp : ∀ i : S1024.Idx, (x2 i).toNat < 100) (hn : ∀ i : S1024x128.Idx, (x3 i).toNat < 100) :
    Cert.ReferenceIdeal.Value.res_main_v80 (F := Ideal) m' c = G x0 x1 x2 x3 x4 x5 x6 x7 x8 x9 x10 x11 x12 x13 x14 x15 hp hn := by
  subst e0 e1 e2 e3 e4 e5 e6 e7 e8 e9 e10 e11 e12 e13 e14 e15
  exact ref_value m' c hp hn

end Cert.RefSide

end
-- ==== Proof.PreRange.lean ====
/-
  The index ranges of the two integer inputs, read out of the precondition. The precondition is a conjunction, by
  `and` on one-bit words, of "all elements pass" tests; its last four conjuncts say that every element x of the
  two int32 inputs satisfies 0 ≤ x and x < 100, signed. A conjunction that is 1 has every conjunct 1; an "all"
  that is 1 has every element test 1; and a signed word in [0, 100) is below 100 unsigned.
-/
import proofs.«403270_j28226525069939_3_alg».proof.Pre_finite_inputs
import Idealize.ShloMosaic.Lib.ReduceAll
import Idealize.ShloMosaic.Lib.ValueIdx

namespace Cert.PreRange

open Idealize.ShloMosaic Cert.Pre_finite_inputs

/-- The scalar shape has one index. -/
instance : Subsingleton S_.Idx := ⟨fun a b => funext fun d => d.elim0⟩

/-- A 32-bit word w with 0 ≤ w and w < 100, both signed, has unsigned value below 100: a nonnegative signed word
    has its top bit clear, so its signed and unsigned readings agree. -/
theorem toNat_lt_of_signed (w : BitVec 32) (h0 : IntOp.cmpi .sge w 0#32 = 1#1) (h1 : IntOp.cmpi .slt w 100#32 = 1#1) :
    w.toNat < 100 := by
  rw [IntOp.cmpi_sge] at h0
  rw [IntOp.cmpi_slt] at h1
  have e0 : (0#32 : BitVec 32).toInt = 0 := by decide
  have e1 : (100#32 : BitVec 32).toInt = 100 := by decide
  rw [e0] at h0
  rw [e1] at h1
  have hlt : 2 * w.toNat < 2 ^ 32 := BitVec.toInt_pos_iff.1 h0
  rw [BitVec.toInt_eq_toNat_of_lt hlt] at h1
  omega

/-- The last part of the conjunction alone: whatever the earlier conjuncts' words are, if the whole is 1 then the four
    range tests on the two integer inputs all pass at every index. -/
theorem range_of_part4 {F : FTy → Type} [FloatOps F] [Facts] (a2 : IVec S1024 32) (a3 : IVec S1024x128 32)
    (v63 v67 : IVec S_ 1) (h : fn_part4 (F := F) a2 a3 v63 v67 = fun _ => 1#1) :
    (∀ i : S1024.Idx, (a2 i).toNat < 100) ∧ (∀ i : S1024x128.Idx, (a3 i).toNat < 100) := by
  have h0 := congrFun h ValueIdx.ix0
  dsimp only [fn_part4, fn_part5, andi] at h0
  obtain ⟨h1, e83⟩ := IntOp.andi_eq_one.1 h0
  obtain ⟨h2, e79⟩ := IntOp.andi_eq_one.1 h1
  obtain ⟨h3, e75⟩ := IntOp.andi_eq_one.1 h2
  obtain ⟨h4, e71⟩ := IntOp.andi_eq_one.1 h3
  have p71 := Host.reduce_andi_all _ _ _ _ _ e71
  have p75 := Host.reduce_andi_all _ _ _ _ _ e75
  have p79 := Host.reduce_andi_all _ _ _ _ _ e79
  have p83 := Host.reduce_andi_all _ _ _ _ _ e83
  exact ⟨fun i => toNat_lt_of_signed (a2 i) (p71 i) (p75 i), fun i => toNat_lt_of_signed (a3 i) (p79 i) (p83 i)⟩

/-- The precondition gives the index ranges: every entry of the two integer inputs is below 100. -/
theorem range_of_pre {F : FTy → Type} [FloatOps F] [Cert.Pre_finite_inputs.Facts]
    (a0 : FVec F S1024x12288 .f32) (a1 : FVec F S100x600 .f32) (a2 : IVec S1024 32) (a3 : IVec S1024x128 32)
    (a4 : FVec F S2048x4096 .f32) (a5 : FVec F S2048 .f32) (a6 : FVec F S600x2048 .f32) (a7 : FVec F S600 .f32)
    (a8 : FVec F S4096x12288 .f32) (a9 : FVec F S4096 .f32) (a10 : FVec F S600x4096 .f32) (a11 : FVec F S600 .f32)
    (a12 : FVec F S1800x1800 .f32) (a13 : FVec F S1800 .f32) (a14 : FVec F S600x1800 .f32) (a15 : FVec F S600 .f32)
    (h : Cert.Pre_finite_inputs.fn (F := F) a0 a1 a2 a3 a4 a5 a6 a7 a8 a9 a10 a11 a12 a13 a14 a15 = fun _ => 1#1) :
    (∀ i : S1024.Idx, (a2 i).toNat < 100) ∧ (∀ i : S1024x128.Idx, (a3 i).toNat < 100) := by
  unfold fn fn_part1 fn_part2 fn_part3 at h
  exact range_of_part4 (F := F) a2 a3 _ _ h

end Cert.PreRange
-- ==== Proof.lean ====
import proofs.«403270_j28226525069939_3_alg».proof.Defs
import proofs.«403270_j28226525069939_3_alg».proof.Proof.Gen.Kernel
import proofs.«403270_j28226525069939_3_alg».proof.Proof.Gen.KernelIdeal
import proofs.«403270_j28226525069939_3_alg».proof.Proof.Gen.ReferenceIdeal
import proofs.«403270_j28226525069939_3_alg».proof.Proof.Gen.Pre_finite_inputs
import proofs.«403270_j28226525069939_3_alg».proof.Proof.Gen.ReferenceIdeal.Run
import proofs.«403270_j28226525069939_3_alg».proof.Proof.K.RunMain
import proofs.«403270_j28226525069939_3_alg».proof.Proof.KI.RunMain
import proofs.«403270_j28226525069939_3_alg».proof.Proof.KI.Value
import proofs.«403270_j28226525069939_3_alg».proof.Proof.RefValue
import proofs.«403270_j28226525069939_3_alg».proof.Proof.PreRange
import Idealize.ShloMosaic.Adequacy
import Idealize.ShloMosaic.Init

/-! # The certificate

The kernel runs eight pipelined regions between host stretches: three towers (two layers each: a k-tiled layer with an
accumulator carried over the k-blocks, then a resident layer), their outputs side by side through two fused layers to
the embedding, then the matrix of partial-order scores of every padded label row against every embedding row, from
which the host reads, per sample, the entries at its positive label and at its negatives. The reference computes the
same embedding by whole matrix products and the same scores after gathering the label rows. Over the extended reals
the two agree because a sum over consecutive blocks is the whole sum, a format change is the identity, and — the label
indices being below the number of labels, which the precondition states — the padded rows and the masked columns of the
score matrix are never read. -/

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  fun m g _ => Cert.Kernel.Hand.frame m g,
  fun m g _ => Cert.KernelIdeal.Hand.frame m g,
  fun m g _ => (θ_run Cert.ReferenceIdeal.defs _ _).mono (fun _ h c => (h c).2) (Cert.ReferenceIdeal.Value.run (F := Ideal) m g),
  trivial,
  fun m g m' g' hpre hagree => by
    -- the label indices are below the number of labels: the precondition says so
    have hr := fun c : Dev Cert.KernelIdeal.nD =>
      Cert.PreRange.range_of_pre (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (hpre c)
    -- both programs end with the one function of the arguments
    refine ⟨fun c => Cert.RefSide.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (hr c).1 (hr c).2, ?_, ?_⟩
    · exact (θ_run Cert.KernelIdeal.defs _ _).mono
        (fun r h c => ⟨(h c).1.trans (funext fun i =>
            (congrArg (Cert.KernelIdeal.Hand.U24 m c Cert.KernelIdeal.main_v29 : Cert.KernelIdeal.S1024x129.Idx → EReal) (ValueIdx.eq_ix2 i)).trans
              (Cert.KernelIdeal.Hand.kernel_value m c (hr c).1 (hr c).2 (i 0) (i 1))), (h c).2⟩)
        (Cert.KernelIdeal.Hand.run_main m g)
    · exact (θ_run Cert.ReferenceIdeal.defs _ _).mono
        (fun r h c => ⟨(h c).1.trans (Cert.RefSide.ref_value_of_agree m' c _ _ _ _ _ _ _ _ _ _ _ _ _ _ _ _
            (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2 (hr c).1 (hr c).2), (h c).2⟩)
        (Cert.ReferenceIdeal.Value.run (F := Ideal) m' g')⟩

end Cert.Proof

end
